-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x200x40 : Shape := ⟨3, ![64, 200, 40]⟩
abbrev S64x200x32 : Shape := ⟨3, ![64, 200, 32]⟩
abbrev S64 : Shape := ⟨1, ![64]⟩
abbrev S558x512 : Shape := ⟨2, ![558, 512]⟩
abbrev S512 : Shape := ⟨1, ![512]⟩
abbrev S_ : Shape := ⟨0, ![]⟩

class Facts : Prop where
  bcast_S_S64x200x32 : S_.BroadcastsInDim S64x200x32 (![] : Fin 0 → Fin S64x200x32.rank)
  reducesTo_S64x200x32_S_d0_1_2 : S64x200x32.ReducesTo [0, 1, 2] S_
  h_S_ : 0 < S_.numel
  bcast_S_S558x512 : S_.BroadcastsInDim S558x512 (![] : Fin 0 → Fin S558x512.rank)
  reducesTo_S558x512_S_d0_1 : S558x512.ReducesTo [0, 1] S_
  bcast_S_S512 : S_.BroadcastsInDim S512 (![] : Fin 0 → Fin S512.rank)
  reducesTo_S512_S_d0 : S512.ReducesTo [0] S_
  bcast_S_S64x200x40 : S_.BroadcastsInDim S64x200x40 (![] : Fin 0 → Fin S64x200x40.rank)
  reducesTo_S64x200x40_S_d0_1_2 : S64x200x40.ReducesTo [0, 1, 2] S_

variable [Facts]

def fn_part1 {F : FTy → Type} [FloatOps F] (main_v13 : IVec S_ 1) (main_v15 : IVec S64x200x40 1) (main_c_5 : IVec S_ 1) : IVec S_ 1 :=
  let main_v16 : IVec S_ 1 := (fun x v => Host.reduce IntOp.andi x v reducesTo_S64x200x40_S_d0_1_2 h_S_) main_v15 main_c_5
  let main_v17 : IVec S_ 1 := andi main_v13 main_v16
  main_v17

def fn {F : FTy → Type} [FloatOps F] (main_arg0 : IVec S64x200x40 32) (main_arg1 : FVec F S64x200x32 .f32) (main_arg2 : IVec S64 32) (main_arg3 : FVec F S558x512 .f32) (main_arg4 : FVec F S512 .f32) : IVec S_ 1 :=
  let main_v0 : FVec F S64x200x32 .f32 := Host.absf main_arg1
  let main_cst : FVec F S_ .f32 := constant S_ .f32 0x7F800000#32
  let main_v1 : FVec F S64x200x32 .f32 := broadcastInDim S64x200x32 ![] bcast_S_S64x200x32 main_cst
  let main_v2 : IVec S64x200x32 1 := cmpf .olt main_v0 main_v1
  let main_c : IVec S_ 1 := constantI S_ 1 1#1
  let main_v3 : IVec S_ 1 := (fun x v => Host.reduce IntOp.andi x v reducesTo_S64x200x32_S_d0_1_2 h_S_) main_v2 main_c
  let main_v4 : FVec F S558x512 .f32 := Host.absf main_arg3
  let main_cst_0 : FVec F S_ .f32 := constant S_ .f32 0x7F800000#32
  let main_v5 : FVec F S558x512 .f32 := broadcastInDim S558x512 ![] bcast_S_S558x512 main_cst_0
  let main_v6 : IVec S558x512 1 := cmpf .olt main_v4 main_v5
  let main_c_1 : IVec S_ 1 := constantI S_ 1 1#1
  let main_v7 : IVec S_ 1 := (fun x v => Host.reduce IntOp.andi x v reducesTo_S558x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S64x200x40 32 := broadcastInDim S64x200x40 ![] bcast_S_S64x200x40 main_c_4
  let main_v15 : IVec S64x200x40 1 := cmpi .sge main_arg0 main_v14
  let main_c_5 : IVec S_ 1 := constantI S_ 1 1#1
  fn_part1 (F := F) main_v13 main_v15 main_c_5
-- ==== Kernel.lean ====
abbrev S64x200x40 : Shape := ⟨3, ![64, 200, 40]⟩
abbrev S64x200x32 : Shape := ⟨3, ![64, 200, 32]⟩
abbrev S64 : Shape := ⟨1, ![64]⟩
abbrev S558x512 : Shape := ⟨2, ![558, 512]⟩
abbrev S512 : Shape := ⟨1, ![512]⟩
abbrev S12800x40 : Shape := ⟨2, ![12800, 40]⟩
abbrev S40x12800 : Shape := ⟨2, ![40, 12800]⟩
abbrev S12800x32 : Shape := ⟨2, ![12800, 32]⟩
abbrev S526x512 : Shape := ⟨2, ![526, 512]⟩
abbrev S_ : Shape := ⟨0, ![]⟩
abbrev S640x512 : Shape := ⟨2, ![640, 512]⟩
abbrev S32x512 : Shape := ⟨2, ![32, 512]⟩
abbrev S1x512 : Shape := ⟨2, ![1, 512]⟩
abbrev S12800x512 : Shape := ⟨2, ![12800, 512]⟩
abbrev S40x1280 : Shape := ⟨2, ![40, 1280]⟩
abbrev S1280x32 : Shape := ⟨2, ![1280, 32]⟩
abbrev S1280x512 : Shape := ⟨2, ![1280, 512]⟩
abbrev S1280x640 : Shape := ⟨2, ![1280, 640]⟩
abbrev S64x640 : Shape := ⟨2, ![64, 640]⟩
abbrev S1x64 : Shape := ⟨2, ![1, 64]⟩
abbrev S64x1 : Shape := ⟨2, ![64, 1]⟩
abbrev S64x200x512 : Shape := ⟨3, ![64, 200, 512]⟩

abbrev nBuf : Space → Nat
  | .hbm => 16
  | .vmem => 10
  | .smem => 0
  | _ => 0

abbrev bufTy : (tb : Table) → Fin (tcTables nBuf tb) → BufTy
  | .hbm, ⟨0, _⟩ => ⟨S64x200x40, .i32⟩
  | .hbm, ⟨1, _⟩ => ⟨S64x200x32, .f32⟩
  | .hbm, ⟨2, _⟩ => ⟨S64, .i32⟩
  | .hbm, ⟨3, _⟩ => ⟨S558x512, .f32⟩
  | .hbm, ⟨4, _⟩ => ⟨S512, .f32⟩
  | .hbm, ⟨5, _⟩ => ⟨S12800x40, .i32⟩
  | .hbm, ⟨6, _⟩ => ⟨S40x12800, .i32⟩
  | .hbm, ⟨7, _⟩ => ⟨S12800x32, .f32⟩
  | .hbm, ⟨8, _⟩ => ⟨S526x512, .f32⟩
  | .hbm, ⟨9, _⟩ => ⟨S_, .i32⟩
  | .hbm, ⟨10, _⟩ => ⟨S_, .f32⟩
  | .hbm, ⟨11, _⟩ => ⟨S640x512, .f32⟩
  | .hbm, ⟨12, _⟩ => ⟨S32x512, .f32⟩
  | .hbm, ⟨13, _⟩ => ⟨S1x512, .f32⟩
  | .hbm, ⟨14, _⟩ => ⟨S12800x512, .f32⟩
  | .hbm, ⟨15, _⟩ => ⟨S64x200x512, .f32⟩
  | .local _ .vmem, ⟨0, _⟩ => ⟨S40x1280, .i32⟩
  | .local _ .vmem, ⟨1, _⟩ => ⟨S40x1280, .i32⟩
  | .local _ .vmem, ⟨2, _⟩ => ⟨S1280x32, .f32⟩
  | .local _ .vmem, ⟨3, _⟩ => ⟨S1280x32, .f32⟩
  | .local _ .vmem, ⟨4, _⟩ => ⟨S640x512, .f32⟩
  | .local _ .vmem, ⟨5, _⟩ => ⟨S32x512, .f32⟩
  | .local _ .vmem, ⟨6, _⟩ => ⟨S1x512, .f32⟩
  | .local _ .vmem, ⟨7, _⟩ => ⟨S1280x512, .f32⟩
  | .local _ .vmem, ⟨8, _⟩ => ⟨S1280x512, .f32⟩
  | .local _ .vmem, ⟨9, _⟩ => ⟨S1280x640, .bf16⟩
  | _, _ => ⟨S64x200x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1280x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x200x40_S12800x40 : S64x200x40.ShapeCasts S12800x40
  transposes_S12800x40_S40x12800_1_0 : S12800x40.Transposes [1, 0] S40x12800
  shapeCasts_S64x200x32_S12800x32 : S64x200x32.ShapeCasts S12800x32
  slices_S558x512_S526x512_0_0 : S558x512.Slices ![0, 0] S526x512
  pads_S526x512_S640x512_01140_000 : S526x512.Pads (![0, 0] : Fin 2 → Nat) ![114, 0] ![0, 0] S640x512
  h_S_ : 0 < S_.numel
  slices_S558x512_S32x512_526_0 : S558x512.Slices ![526, 0] S32x512
  shapeCasts_S512_S1x512 : S512.ShapeCasts S1x512
  iota_S64x640_d1_w32 : S64x640.Iotas .tc 32 [1]
  inb_S40x1280_S1x64_0_0 : ∀ a, (![0, 0] : Fin 2 → Nat) a + S1x64.size a ≤ S40x1280.size a
  h_S1x64 : 0 < S1x64.numel
  shapeCasts_S1x64_S64 : S1x64.ShapeCasts S64
  shapeCasts_S64_S64x1 : S64.ShapeCasts S64x1
  broadcasts_S64x1_S64x640 : S64x1.Broadcasts S64x640
  natLt_1_32 : 1 < 32
  bitsLt_bf16_f32 : FTy.bits .bf16 < FTy.bits .f32
  inb_S40x1280_S1x64_1_0 : ∀ a, (![1, 0] : Fin 2 → Nat) a + S1x64.size a ≤ S40x1280.size a
  inb_S40x1280_S1x64_2_0 : ∀ a, (![2, 0] : Fin 2 → Nat) a + S1x64.size a ≤ S40x1280.size a
  inb_S40x1280_S1x64_3_0 : ∀ a, (![3, 0] : Fin 2 → Nat) a + S1x64.size a ≤ S40x1280.size a
  inb_S40x1280_S1x64_4_0 : ∀ a, (![4, 0] : Fin 2 → Nat) a + S1x64.size a ≤ S40x1280.size a
  inb_S40x1280_S1x64_5_0 : ∀ a, (![5, 0] : Fin 2 → Nat) a + S1x64.size a ≤ S40x1280.size a
  inb_S40x1280_S1x64_6_0 : ∀ a, (![6, 0] : Fin 2 → Nat) a + S1x64.size a ≤ S40x1280.size a
  inb_S40x1280_S1x64_7_0 : ∀ a, (![7, 0] : Fin 2 → Nat) a + S1x64.size a ≤ S40x1280.size a
  inb_S40x1280_S1x64_8_0 : ∀ a, (![8, 0] : Fin 2 → Nat) a + S1x64.size a ≤ S40x1280.size a
  inb_S40x1280_S1x64_9_0 : ∀ a, (![9, 0] : Fin 2 → Nat) a + S1x64.size a ≤ S40x1280.size a
  inb_S40x1280_S1x64_10_0 : ∀ a, (![10, 0] : Fin 2 → Nat) a + S1x64.size a ≤ S40x1280.size a
  inb_S40x1280_S1x64_11_0 : ∀ a, (![11, 0] : Fin 2 → Nat) a + S1x64.size a ≤ S40x1280.size a
  inb_S40x1280_S1x64_12_0 : ∀ a, (![12, 0] : Fin 2 → Nat) a + S1x64.size a ≤ S40x1280.size a
  inb_S40x1280_S1x64_13_0 : ∀ a, (![13, 0] : Fin 2 → Nat) a + S1x64.size a ≤ S40x1280.size a
  inb_S40x1280_S1x64_14_0 : ∀ a, (![14, 0] : Fin 2 → Nat) a + S1x64.size a ≤ S40x1280.size a
  inb_S40x1280_S1x64_15_0 : ∀ a, (![15, 0] : Fin 2 → Nat) a + S1x64.size a ≤ S40x1280.size a
  inb_S40x1280_S1x64_16_0 : ∀ a, (![16, 0] : Fin 2 → Nat) a + S1x64.size a ≤ S40x1280.size a
  inb_S40x1280_S1x64_17_0 : ∀ a, (![17, 0] : Fin 2 → Nat) a + S1x64.size a ≤ S40x1280.size a
  inb_S40x1280_S1x64_18_0 : ∀ a, (![18, 0] : Fin 2 → Nat) a + S1x64.size a ≤ S40x1280.size a
  inb_S40x1280_S1x64_19_0 : ∀ a, (![19, 0] : Fin 2 → Nat) a + S1x64.size a ≤ S40x1280.size a
  inb_S40x1280_S1x64_20_0 : ∀ a, (![20, 0] : Fin 2 → Nat) a + S1x64.size a ≤ S40x1280.size a
  inb_S40x1280_S1x64_21_0 : ∀ a, (![21, 0] : Fin 2 → Nat) a + S1x64.size a ≤ S40x1280.size a
  inb_S40x1280_S1x64_22_0 : ∀ a, (![22, 0] : Fin 2 → Nat) a + S1x64.size a ≤ S40x1280.size a
  inb_S40x1280_S1x64_23_0 : ∀ a, (![23, 0] : Fin 2 → Nat) a + S1x64.size a ≤ S40x1280.size a
  inb_S40x1280_S1x64_24_0 : ∀ a, (![24, 0] : Fin 2 → Nat) a + S1x64.size a ≤ S40x1280.size a
  inb_S40x1280_S1x64_25_0 : ∀ a, (![25, 0] : Fin 2 → Nat) a + S1x64.size a ≤ S40x1280.size a
  inb_S40x1280_S1x64_26_0 : ∀ a, (![26, 0] : Fin 2 → Nat) a + S1x64.size a ≤ S40x1280.size a
  inb_S40x1280_S1x64_27_0 : ∀ a, (![27, 0] : Fin 2 → Nat) a + S1x64.size a ≤ S40x1280.size a
  inb_S40x1280_S1x64_28_0 : ∀ a, (![28, 0] : Fin 2 → Nat) a + S1x64.size a ≤ S40x1280.size a
  inb_S40x1280_S1x64_29_0 : ∀ a, (![29, 0] : Fin 2 → Nat) a + S1x64.size a ≤ S40x1280.size a
  inb_S40x1280_S1x64_30_0 : ∀ a, (![30, 0] : Fin 2 → Nat) a + S1x64.size a ≤ S40x1280.size a
  inb_S40x1280_S1x64_31_0 : ∀ a, (![31, 0] : Fin 2 → Nat) a + S1x64.size a ≤ S40x1280.size a
  inb_S40x1280_S1x64_32_0 : ∀ a, (![32, 0] : Fin 2 → Nat) a + S1x64.size a ≤ S40x1280.size a
  inb_S40x1280_S1x64_33_0 : ∀ a, (![33, 0] : Fin 2 → Nat) a + S1x64.size a ≤ S40x1280.size a
  inb_S40x1280_S1x64_34_0 : ∀ a, (![34, 0] : Fin 2 → Nat) a + S1x64.size a ≤ S40x1280.size a
  inb_S40x1280_S1x64_35_0 : ∀ a, (![35, 0] : Fin 2 → Nat) a + S1x64.size a ≤ S40x1280.size a
  inb_S40x1280_S1x64_36_0 : ∀ a, (![36, 0] : Fin 2 → Nat) a + S1x64.size a ≤ S40x1280.size a
  inb_S40x1280_S1x64_37_0 : ∀ a, (![37, 0] : Fin 2 → Nat) a + S1x64.size a ≤ S40x1280.size a
  inb_S40x1280_S1x64_38_0 : ∀ a, (![38, 0] : Fin 2 → Nat) a + S1x64.size a ≤ S40x1280.size a
  inb_S40x1280_S1x64_39_0 : ∀ a, (![39, 0] : Fin 2 → Nat) a + S1x64.size a ≤ S40x1280.size a
  inb_S1280x640_S64x640_0_0 : ∀ a, (![0, 0] : Fin 2 → Nat) a + S64x640.size a ≤ S1280x640.size a
  h_S64x640 : 0 < S64x640.numel
  shapeCasts_S64x640_S64x640 : S64x640.ShapeCasts S64x640
  packedbf16_S1280x640_S64x640_0_0 : (Rect.unit (s := S1280x640) ![0, 0] S64x640.size inb_S1280x640_S64x640_0_0).PackedRows (EltTy.packing .bf16)
  inb_S40x1280_S1x64_0_64 : ∀ a, (![0, 64] : Fin 2 → Nat) a + S1x64.size a ≤ S40x1280.size a
  inb_S40x1280_S1x64_1_64 : ∀ a, (![1, 64] : Fin 2 → Nat) a + S1x64.size a ≤ S40x1280.size a
  inb_S40x1280_S1x64_2_64 : ∀ a, (![2, 64] : Fin 2 → Nat) a + S1x64.size a ≤ S40x1280.size a
  inb_S40x1280_S1x64_3_64 : ∀ a, (![3, 64] : Fin 2 → Nat) a + S1x64.size a ≤ S40x1280.size a
  inb_S40x1280_S1x64_4_64 : ∀ a, (![4, 64] : Fin 2 → Nat) a + S1x64.size a ≤ S40x1280.size a
  inb_S40x1280_S1x64_5_64 : ∀ a, (![5, 64] : Fin 2 → Nat) a + S1x64.size a ≤ S40x1280.size a
  inb_S40x1280_S1x64_6_64 : ∀ a, (![6, 64] : Fin 2 → Nat) a + S1x64.size a ≤ S40x1280.size a
  inb_S40x1280_S1x64_7_64 : ∀ a, (![7, 64] : Fin 2 → Nat) a + S1x64.size a ≤ S40x1280.size a
  inb_S40x1280_S1x64_8_64 : ∀ a, (![8, 64] : Fin 2 → Nat) a + S1x64.size a ≤ S40x1280.size a
  inb_S40x1280_S1x64_9_64 : ∀ a, (![9, 64] : Fin 2 → Nat) a + S1x64.size a ≤ S40x1280.size a
  inb_S40x1280_S1x64_10_64 : ∀ a, (![10, 64] : Fin 2 → Nat) a + S1x64.size a ≤ S40x1280.size a
  inb_S40x1280_S1x64_11_64 : ∀ a, (![11, 64] : Fin 2 → Nat) a + S1x64.size a ≤ S40x1280.size a
  inb_S40x1280_S1x64_12_64 : ∀ a, (![12, 64] : Fin 2 → Nat) a + S1x64.size a ≤ S40x1280.size a
  inb_S40x1280_S1x64_13_64 : ∀ a, (![13, 64] : Fin 2 → Nat) a + S1x64.size a ≤ S40x1280.size a
  inb_S40x1280_S1x64_14_64 : ∀ a, (![14, 64] : Fin 2 → Nat) a + S1x64.size a ≤ S40x1280.size a
  inb_S40x1280_S1x64_15_64 : ∀ a, (![15, 64] : Fin 2 → Nat) a + S1x64.size a ≤ S40x1280.size a
  inb_S40x1280_S1x64_16_64 : ∀ a, (![16, 64] : Fin 2 → Nat) a + S1x64.size a ≤ S40x1280.size a
  inb_S40x1280_S1x64_17_64 : ∀ a, (![17, 64] : Fin 2 → Nat) a + S1x64.size a ≤ S40x1280.size a
  inb_S40x1280_S1x64_18_64 : ∀ a, (![18, 64] : Fin 2 → Nat) a + S1x64.size a ≤ S40x1280.size a
  inb_S40x1280_S1x64_19_64 : ∀ a, (![19, 64] : Fin 2 → Nat) a + S1x64.size a ≤ S40x1280.size a
  inb_S40x1280_S1x64_20_64 : ∀ a, (![20, 64] : Fin 2 → Nat) a + S1x64.size a ≤ S40x1280.size a
  inb_S40x1280_S1x64_21_64 : ∀ a, (![21, 64] : Fin 2 → Nat) a + S1x64.size a ≤ S40x1280.size a
  inb_S40x1280_S1x64_22_64 : ∀ a, (![22, 64] : Fin 2 → Nat) a + S1x64.size a ≤ S40x1280.size a
  inb_S40x1280_S1x64_23_64 : ∀ a, (![23, 64] : Fin 2 → Nat) a + S1x64.size a ≤ S40x1280.size a
  inb_S40x1280_S1x64_24_64 : ∀ a, (![24, 64] : Fin 2 → Nat) a + S1x64.size a ≤ S40x1280.size a
  inb_S40x1280_S1x64_25_64 : ∀ a, (![25, 64] : Fin 2 → Nat) a + S1x64.size a ≤ S40x1280.size a
  inb_S40x1280_S1x64_26_64 : ∀ a, (![26, 64] : Fin 2 → Nat) a + S1x64.size a ≤ S40x1280.size a
  inb_S40x1280_S1x64_27_64 : ∀ a, (![27, 64] : Fin 2 → Nat) a + S1x64.size a ≤ S40x1280.size a
  inb_S40x1280_S1x64_28_64 : ∀ a, (![28, 64] : Fin 2 → Nat) a + S1x64.size a ≤ S40x1280.size a
  inb_S40x1280_S1x64_29_64 : ∀ a, (![29, 64] : Fin 2 → Nat) a + S1x64.size a ≤ S40x1280.size a
  inb_S40x1280_S1x64_30_64 : ∀ a, (![30, 64] : Fin 2 → Nat) a + S1x64.size a ≤ S40x1280.size a
  inb_S40x1280_S1x64_31_64 : ∀ a, (![31, 64] : Fin 2 → Nat) a + S1x64.size a ≤ S40x1280.size a
  inb_S40x1280_S1x64_32_64 : ∀ a, (![32, 64] : Fin 2 → Nat) a + S1x64.size a ≤ S40x1280.size a
  inb_S40x1280_S1x64_33_64 : ∀ a, (![33, 64] : Fin 2 → Nat) a + S1x64.size a ≤ S40x1280.size a
  inb_S40x1280_S1x64_34_64 : ∀ a, (![34, 64] : Fin 2 → Nat) a + S1x64.size a ≤ S40x1280.size a
  inb_S40x1280_S1x64_35_64 : ∀ a, (![35, 64] : Fin 2 → Nat) a + S1x64.size a ≤ S40x1280.size a
  inb_S40x1280_S1x64_36_64 : ∀ a, (![36, 64] : Fin 2 → Nat) a + S1x64.size a ≤ S40x1280.size a
  inb_S40x1280_S1x64_37_64 : ∀ a, (![37, 64] : Fin 2 → Nat) a + S1x64.size a ≤ S40x1280.size a
  inb_S40x1280_S1x64_38_64 : ∀ a, (![38, 64] : Fin 2 → Nat) a + S1x64.size a ≤ S40x1280.size a
  inb_S40x1280_S1x64_39_64 : ∀ a, (![39, 64] : Fin 2 → Nat) a + S1x64.size a ≤ S40x1280.size a
  inb_S1280x640_S64x640_64_0 : ∀ a, (![64, 0] : Fin 2 → Nat) a + S64x640.size a ≤ S1280x640.size a
  packedbf16_S1280x640_S64x640_64_0 : (Rect.unit (s := S1280x640) ![64, 0] S64x640.size inb_S1280x640_S64x640_64_0).PackedRows (EltTy.packing .bf16)
  inb_S40x1280_S1x64_0_128 : ∀ a, (![0, 128] : Fin 2 → Nat) a + S1x64.size a ≤ S40x1280.size a
  inb_S40x1280_S1x64_1_128 : ∀ a, (![1, 128] : Fin 2 → Nat) a + S1x64.size a ≤ S40x1280.size a
  inb_S40x1280_S1x64_2_128 : ∀ a, (![2, 128] : Fin 2 → Nat) a + S1x64.size a ≤ S40x1280.size a
  inb_S40x1280_S1x64_3_128 : ∀ a, (![3, 128] : Fin 2 → Nat) a + S1x64.size a ≤ S40x1280.size a
  inb_S40x1280_S1x64_4_128 : ∀ a, (![4, 128] : Fin 2 → Nat) a + S1x64.size a ≤ S40x1280.size a
  inb_S40x1280_S1x64_5_128 : ∀ a, (![5, 128] : Fin 2 → Nat) a + S1x64.size a ≤ S40x1280.size a
  inb_S40x1280_S1x64_6_128 : ∀ a, (![6, 128] : Fin 2 → Nat) a + S1x64.size a ≤ S40x1280.size a
  inb_S40x1280_S1x64_7_128 : ∀ a, (![7, 128] : Fin 2 → Nat) a + S1x64.size a ≤ S40x1280.size a
  inb_S40x1280_S1x64_8_128 : ∀ a, (![8, 128] : Fin 2 → Nat) a + S1x64.size a ≤ S40x1280.size a
  inb_S40x1280_S1x64_9_128 : ∀ a, (![9, 128] : Fin 2 → Nat) a + S1x64.size a ≤ S40x1280.size a
  inb_S40x1280_S1x64_10_128 : ∀ a, (![10, 128] : Fin 2 → Nat) a + S1x64.size a ≤ S40x1280.size a
  inb_S40x1280_S1x64_11_128 : ∀ a, (![11, 128] : Fin 2 → Nat) a + S1x64.size a ≤ S40x1280.size a
  inb_S40x1280_S1x64_12_128 : ∀ a, (![12, 128] : Fin 2 → Nat) a + S1x64.size a ≤ S40x1280.size a
  inb_S40x1280_S1x64_13_128 : ∀ a, (![13, 128] : Fin 2 → Nat) a + S1x64.size a ≤ S40x1280.size a
  inb_S40x1280_S1x64_14_128 : ∀ a, (![14, 128] : Fin 2 → Nat) a + S1x64.size a ≤ S40x1280.size a
  inb_S40x1280_S1x64_15_128 : ∀ a, (![15, 128] : Fin 2 → Nat) a + S1x64.size a ≤ S40x1280.size a
  inb_S40x1280_S1x64_16_128 : ∀ a, (![16, 128] : Fin 2 → Nat) a + S1x64.size a ≤ S40x1280.size a
  inb_S40x1280_S1x64_17_128 : ∀ a, (![17, 128] : Fin 2 → Nat) a + S1x64.size a ≤ S40x1280.size a
  inb_S40x1280_S1x64_18_128 : ∀ a, (![18, 128] : Fin 2 → Nat) a + S1x64.size a ≤ S40x1280.size a
  inb_S40x1280_S1x64_19_128 : ∀ a, (![19, 128] : Fin 2 → Nat) a + S1x64.size a ≤ S40x1280.size a
  inb_S40x1280_S1x64_20_128 : ∀ a, (![20, 128] : Fin 2 → Nat) a + S1x64.size a ≤ S40x1280.size a
  inb_S40x1280_S1x64_21_128 : ∀ a, (![21, 128] : Fin 2 → Nat) a + S1x64.size a ≤ S40x1280.size a
  inb_S40x1280_S1x64_22_128 : ∀ a, (![22, 128] : Fin 2 → Nat) a + S1x64.size a ≤ S40x1280.size a
  inb_S40x1280_S1x64_23_128 : ∀ a, (![23, 128] : Fin 2 → Nat) a + S1x64.size a ≤ S40x1280.size a
  inb_S40x1280_S1x64_24_128 : ∀ a, (![24, 128] : Fin 2 → Nat) a + S1x64.size a ≤ S40x1280.size a
  inb_S40x1280_S1x64_25_128 : ∀ a, (![25, 128] : Fin 2 → Nat) a + S1x64.size a ≤ S40x1280.size a
  inb_S40x1280_S1x64_26_128 : ∀ a, (![26, 128] : Fin 2 → Nat) a + S1x64.size a ≤ S40x1280.size a
  inb_S40x1280_S1x64_27_128 : ∀ a, (![27, 128] : Fin 2 → Nat) a + S1x64.size a ≤ S40x1280.size a
  inb_S40x1280_S1x64_28_128 : ∀ a, (![28, 128] : Fin 2 → Nat) a + S1x64.size a ≤ S40x1280.size a
  inb_S40x1280_S1x64_29_128 : ∀ a, (![29, 128] : Fin 2 → Nat) a + S1x64.size a ≤ S40x1280.size a
  inb_S40x1280_S1x64_30_128 : ∀ a, (![30, 128] : Fin 2 → Nat) a + S1x64.size a ≤ S40x1280.size a
  inb_S40x1280_S1x64_31_128 : ∀ a, (![31, 128] : Fin 2 → Nat) a + S1x64.size a ≤ S40x1280.size a
  inb_S40x1280_S1x64_32_128 : ∀ a, (![32, 128] : Fin 2 → Nat) a + S1x64.size a ≤ S40x1280.size a
  inb_S40x1280_S1x64_33_128 : ∀ a, (![33, 128] : Fin 2 → Nat) a + S1x64.size a ≤ S40x1280.size a
  inb_S40x1280_S1x64_34_128 : ∀ a, (![34, 128] : Fin 2 → Nat) a + S1x64.size a ≤ S40x1280.size a
  inb_S40x1280_S1x64_35_128 : ∀ a, (![35, 128] : Fin 2 → Nat) a + S1x64.size a ≤ S40x1280.size a
  inb_S40x1280_S1x64_36_128 : ∀ a, (![36, 128] : Fin 2 → Nat) a + S1x64.size a ≤ S40x1280.size a
  inb_S40x1280_S1x64_37_128 : ∀ a, (![37, 128] : Fin 2 → Nat) a + S1x64.size a ≤ S40x1280.size a
  inb_S40x1280_S1x64_38_128 : ∀ a, (![38, 128] : Fin 2 → Nat) a + S1x64.size a ≤ S40x1280.size a
  inb_S40x1280_S1x64_39_128 : ∀ a, (![39, 128] : Fin 2 → Nat) a + S1x64.size a ≤ S40x1280.size a
  inb_S1280x640_S64x640_128_0 : ∀ a, (![128, 0] : Fin 2 → Nat) a + S64x640.size a ≤ S1280x640.size a
  packedbf16_S1280x640_S64x640_128_0 : (Rect.unit (s := S1280x640) ![128, 0] S64x640.size inb_S1280x640_S64x640_128_0).PackedRows (EltTy.packing .bf16)
  inb_S40x1280_S1x64_0_192 : ∀ a, (![0, 192] : Fin 2 → Nat) a + S1x64.size a ≤ S40x1280.size a
  inb_S40x1280_S1x64_1_192 : ∀ a, (![1, 192] : Fin 2 → Nat) a + S1x64.size a ≤ S40x1280.size a
  inb_S40x1280_S1x64_2_192 : ∀ a, (![2, 192] : Fin 2 → Nat) a + S1x64.size a ≤ S40x1280.size a
  inb_S40x1280_S1x64_3_192 : ∀ a, (![3, 192] : Fin 2 → Nat) a + S1x64.size a ≤ S40x1280.size a
  inb_S40x1280_S1x64_4_192 : ∀ a, (![4, 192] : Fin 2 → Nat) a + S1x64.size a ≤ S40x1280.size a
  inb_S40x1280_S1x64_5_192 : ∀ a, (![5, 192] : Fin 2 → Nat) a + S1x64.size a ≤ S40x1280.size a
  inb_S40x1280_S1x64_6_192 : ∀ a, (![6, 192] : Fin 2 → Nat) a + S1x64.size a ≤ S40x1280.size a
  inb_S40x1280_S1x64_7_192 : ∀ a, (![7, 192] : Fin 2 → Nat) a + S1x64.size a ≤ S40x1280.size a
  inb_S40x1280_S1x64_8_192 : ∀ a, (![8, 192] : Fin 2 → Nat) a + S1x64.size a ≤ S40x1280.size a
  inb_S40x1280_S1x64_9_192 : ∀ a, (![9, 192] : Fin 2 → Nat) a + S1x64.size a ≤ S40x1280.size a
  inb_S40x1280_S1x64_10_192 : ∀ a, (![10, 192] : Fin 2 → Nat) a + S1x64.size a ≤ S40x1280.size a
  inb_S40x1280_S1x64_11_192 : ∀ a, (![11, 192] : Fin 2 → Nat) a + S1x64.size a ≤ S40x1280.size a
  inb_S40x1280_S1x64_12_192 : ∀ a, (![12, 192] : Fin 2 → Nat) a + S1x64.size a ≤ S40x1280.size a
  inb_S40x1280_S1x64_13_192 : ∀ a, (![13, 192] : Fin 2 → Nat) a + S1x64.size a ≤ S40x1280.size a
  inb_S40x1280_S1x64_14_192 : ∀ a, (![14, 192] : Fin 2 → Nat) a + S1x64.size a ≤ S40x1280.size a
  inb_S40x1280_S1x64_15_192 : ∀ a, (![15, 192] : Fin 2 → Nat) a + S1x64.size a ≤ S40x1280.size a
  inb_S40x1280_S1x64_16_192 : ∀ a, (![16, 192] : Fin 2 → Nat) a + S1x64.size a ≤ S40x1280.size a
  inb_S40x1280_S1x64_17_192 : ∀ a, (![17, 192] : Fin 2 → Nat) a + S1x64.size a ≤ S40x1280.size a
  inb_S40x1280_S1x64_18_192 : ∀ a, (![18, 192] : Fin 2 → Nat) a + S1x64.size a ≤ S40x1280.size a
  inb_S40x1280_S1x64_19_192 : ∀ a, (![19, 192] : Fin 2 → Nat) a + S1x64.size a ≤ S40x1280.size a
  inb_S40x1280_S1x64_20_192 : ∀ a, (![20, 192] : Fin 2 → Nat) a + S1x64.size a ≤ S40x1280.size a
  inb_S40x1280_S1x64_21_192 : ∀ a, (![21, 192] : Fin 2 → Nat) a + S1x64.size a ≤ S40x1280.size a
  inb_S40x1280_S1x64_22_192 : ∀ a, (![22, 192] : Fin 2 → Nat) a + S1x64.size a ≤ S40x1280.size a
  inb_S40x1280_S1x64_23_192 : ∀ a, (![23, 192] : Fin 2 → Nat) a + S1x64.size a ≤ S40x1280.size a
  inb_S40x1280_S1x64_24_192 : ∀ a, (![24, 192] : Fin 2 → Nat) a + S1x64.size a ≤ S40x1280.size a
  inb_S40x1280_S1x64_25_192 : ∀ a, (![25, 192] : Fin 2 → Nat) a + S1x64.size a ≤ S40x1280.size a
  inb_S40x1280_S1x64_26_192 : ∀ a, (![26, 192] : Fin 2 → Nat) a + S1x64.size a ≤ S40x1280.size a
  inb_S40x1280_S1x64_27_192 : ∀ a, (![27, 192] : Fin 2 → Nat) a + S1x64.size a ≤ S40x1280.size a
  inb_S40x1280_S1x64_28_192 : ∀ a, (![28, 192] : Fin 2 → Nat) a + S1x64.size a ≤ S40x1280.size a
  inb_S40x1280_S1x64_29_192 : ∀ a, (![29, 192] : Fin 2 → Nat) a + S1x64.size a ≤ S40x1280.size a
  inb_S40x1280_S1x64_30_192 : ∀ a, (![30, 192] : Fin 2 → Nat) a + S1x64.size a ≤ S40x1280.size a
  inb_S40x1280_S1x64_31_192 : ∀ a, (![31, 192] : Fin 2 → Nat) a + S1x64.size a ≤ S40x1280.size a
  inb_S40x1280_S1x64_32_192 : ∀ a, (![32, 192] : Fin 2 → Nat) a + S1x64.size a ≤ S40x1280.size a
  inb_S40x1280_S1x64_33_192 : ∀ a, (![33, 192] : Fin 2 → Nat) a + S1x64.size a ≤ S40x1280.size a
  inb_S40x1280_S1x64_34_192 : ∀ a, (![34, 192] : Fin 2 → Nat) a + S1x64.size a ≤ S40x1280.size a
  inb_S40x1280_S1x64_35_192 : ∀ a, (![35, 192] : Fin 2 → Nat) a + S1x64.size a ≤ S40x1280.size a
  inb_S40x1280_S1x64_36_192 : ∀ a, (![36, 192] : Fin 2 → Nat) a + S1x64.size a ≤ S40x1280.size a
  inb_S40x1280_S1x64_37_192 : ∀ a, (![37, 192] : Fin 2 → Nat) a + S1x64.size a ≤ S40x1280.size a
  inb_S40x1280_S1x64_38_192 : ∀ a, (![38, 192] : Fin 2 → Nat) a + S1x64.size a ≤ S40x1280.size a
  inb_S40x1280_S1x64_39_192 : ∀ a, (![39, 192] : Fin 2 → Nat) a + S1x64.size a ≤ S40x1280.size a
  inb_S1280x640_S64x640_192_0 : ∀ a, (![192, 0] : Fin 2 → Nat) a + S64x640.size a ≤ S1280x640.size a
  packedbf16_S1280x640_S64x640_192_0 : (Rect.unit (s := S1280x640) ![192, 0] S64x640.size inb_S1280x640_S64x640_192_0).PackedRows (EltTy.packing .bf16)
  inb_S40x1280_S1x64_0_256 : ∀ a, (![0, 256] : Fin 2 → Nat) a + S1x64.size a ≤ S40x1280.size a
  inb_S40x1280_S1x64_1_256 : ∀ a, (![1, 256] : Fin 2 → Nat) a + S1x64.size a ≤ S40x1280.size a
  inb_S40x1280_S1x64_2_256 : ∀ a, (![2, 256] : Fin 2 → Nat) a + S1x64.size a ≤ S40x1280.size a
  inb_S40x1280_S1x64_3_256 : ∀ a, (![3, 256] : Fin 2 → Nat) a + S1x64.size a ≤ S40x1280.size a
  inb_S40x1280_S1x64_4_256 : ∀ a, (![4, 256] : Fin 2 → Nat) a + S1x64.size a ≤ S40x1280.size a
  inb_S40x1280_S1x64_5_256 : ∀ a, (![5, 256] : Fin 2 → Nat) a + S1x64.size a ≤ S40x1280.size a
  inb_S40x1280_S1x64_6_256 : ∀ a, (![6, 256] : Fin 2 → Nat) a + S1x64.size a ≤ S40x1280.size a
  inb_S40x1280_S1x64_7_256 : ∀ a, (![7, 256] : Fin 2 → Nat) a + S1x64.size a ≤ S40x1280.size a
  inb_S40x1280_S1x64_8_256 : ∀ a, (![8, 256] : Fin 2 → Nat) a + S1x64.size a ≤ S40x1280.size a
  inb_S40x1280_S1x64_9_256 : ∀ a, (![9, 256] : Fin 2 → Nat) a + S1x64.size a ≤ S40x1280.size a
  inb_S40x1280_S1x64_10_256 : ∀ a, (![10, 256] : Fin 2 → Nat) a + S1x64.size a ≤ S40x1280.size a
  inb_S40x1280_S1x64_11_256 : ∀ a, (![11, 256] : Fin 2 → Nat) a + S1x64.size a ≤ S40x1280.size a
  inb_S40x1280_S1x64_12_256 : ∀ a, (![12, 256] : Fin 2 → Nat) a + S1x64.size a ≤ S40x1280.size a
  inb_S40x1280_S1x64_13_256 : ∀ a, (![13, 256] : Fin 2 → Nat) a + S1x64.size a ≤ S40x1280.size a
  inb_S40x1280_S1x64_14_256 : ∀ a, (![14, 256] : Fin 2 → Nat) a + S1x64.size a ≤ S40x1280.size a
  inb_S40x1280_S1x64_15_256 : ∀ a, (![15, 256] : Fin 2 → Nat) a + S1x64.size a ≤ S40x1280.size a
  inb_S40x1280_S1x64_16_256 : ∀ a, (![16, 256] : Fin 2 → Nat) a + S1x64.size a ≤ S40x1280.size a
  inb_S40x1280_S1x64_17_256 : ∀ a, (![17, 256] : Fin 2 → Nat) a + S1x64.size a ≤ S40x1280.size a
  inb_S40x1280_S1x64_18_256 : ∀ a, (![18, 256] : Fin 2 → Nat) a + S1x64.size a ≤ S40x1280.size a
  inb_S40x1280_S1x64_19_256 : ∀ a, (![19, 256] : Fin 2 → Nat) a + S1x64.size a ≤ S40x1280.size a
  inb_S40x1280_S1x64_20_256 : ∀ a, (![20, 256] : Fin 2 → Nat) a + S1x64.size a ≤ S40x1280.size a
  inb_S40x1280_S1x64_21_256 : ∀ a, (![21, 256] : Fin 2 → Nat) a + S1x64.size a ≤ S40x1280.size a
  inb_S40x1280_S1x64_22_256 : ∀ a, (![22, 256] : Fin 2 → Nat) a + S1x64.size a ≤ S40x1280.size a
  inb_S40x1280_S1x64_23_256 : ∀ a, (![23, 256] : Fin 2 → Nat) a + S1x64.size a ≤ S40x1280.size a
  inb_S40x1280_S1x64_24_256 : ∀ a, (![24, 256] : Fin 2 → Nat) a + S1x64.size a ≤ S40x1280.size a
  inb_S40x1280_S1x64_25_256 : ∀ a, (![25, 256] : Fin 2 → Nat) a + S1x64.size a ≤ S40x1280.size a
  inb_S40x1280_S1x64_26_256 : ∀ a, (![26, 256] : Fin 2 → Nat) a + S1x64.size a ≤ S40x1280.size a
  inb_S40x1280_S1x64_27_256 : ∀ a, (![27, 256] : Fin 2 → Nat) a + S1x64.size a ≤ S40x1280.size a
  inb_S40x1280_S1x64_28_256 : ∀ a, (![28, 256] : Fin 2 → Nat) a + S1x64.size a ≤ S40x1280.size a
  inb_S40x1280_S1x64_29_256 : ∀ a, (![29, 256] : Fin 2 → Nat) a + S1x64.size a ≤ S40x1280.size a
  inb_S40x1280_S1x64_30_256 : ∀ a, (![30, 256] : Fin 2 → Nat) a + S1x64.size a ≤ S40x1280.size a
  inb_S40x1280_S1x64_31_256 : ∀ a, (![31, 256] : Fin 2 → Nat) a + S1x64.size a ≤ S40x1280.size a
  inb_S40x1280_S1x64_32_256 : ∀ a, (![32, 256] : Fin 2 → Nat) a + S1x64.size a ≤ S40x1280.size a
  inb_S40x1280_S1x64_33_256 : ∀ a, (![33, 256] : Fin 2 → Nat) a + S1x64.size a ≤ S40x1280.size a
  inb_S40x1280_S1x64_34_256 : ∀ a, (![34, 256] : Fin 2 → Nat) a + S1x64.size a ≤ S40x1280.size a
  inb_S40x1280_S1x64_35_256 : ∀ a, (![35, 256] : Fin 2 → Nat) a + S1x64.size a ≤ S40x1280.size a
  inb_S40x1280_S1x64_36_256 : ∀ a, (![36, 256] : Fin 2 → Nat) a + S1x64.size a ≤ S40x1280.size a
  inb_S40x1280_S1x64_37_256 : ∀ a, (![37, 256] : Fin 2 → Nat) a + S1x64.size a ≤ S40x1280.size a
  inb_S40x1280_S1x64_38_256 : ∀ a, (![38, 256] : Fin 2 → Nat) a + S1x64.size a ≤ S40x1280.size a
  inb_S40x1280_S1x64_39_256 : ∀ a, (![39, 256] : Fin 2 → Nat) a + S1x64.size a ≤ S40x1280.size a
  inb_S1280x640_S64x640_256_0 : ∀ a, (![256, 0] : Fin 2 → Nat) a + S64x640.size a ≤ S1280x640.size a
  packedbf16_S1280x640_S64x640_256_0 : (Rect.unit (s := S1280x640) ![256, 0] S64x640.size inb_S1280x640_S64x640_256_0).PackedRows (EltTy.packing .bf16)
  inb_S40x1280_S1x64_0_320 : ∀ a, (![0, 320] : Fin 2 → Nat) a + S1x64.size a ≤ S40x1280.size a
  inb_S40x1280_S1x64_1_320 : ∀ a, (![1, 320] : Fin 2 → Nat) a + S1x64.size a ≤ S40x1280.size a
  inb_S40x1280_S1x64_2_320 : ∀ a, (![2, 320] : Fin 2 → Nat) a + S1x64.size a ≤ S40x1280.size a
  inb_S40x1280_S1x64_3_320 : ∀ a, (![3, 320] : Fin 2 → Nat) a + S1x64.size a ≤ S40x1280.size a
  inb_S40x1280_S1x64_4_320 : ∀ a, (![4, 320] : Fin 2 → Nat) a + S1x64.size a ≤ S40x1280.size a
  inb_S40x1280_S1x64_5_320 : ∀ a, (![5, 320] : Fin 2 → Nat) a + S1x64.size a ≤ S40x1280.size a
  inb_S40x1280_S1x64_6_320 : ∀ a, (![6, 320] : Fin 2 → Nat) a + S1x64.size a ≤ S40x1280.size a
  inb_S40x1280_S1x64_7_320 : ∀ a, (![7, 320] : Fin 2 → Nat) a + S1x64.size a ≤ S40x1280.size a
  inb_S40x1280_S1x64_8_320 : ∀ a, (![8, 320] : Fin 2 → Nat) a + S1x64.size a ≤ S40x1280.size a
  inb_S40x1280_S1x64_9_320 : ∀ a, (![9, 320] : Fin 2 → Nat) a + S1x64.size a ≤ S40x1280.size a
  inb_S40x1280_S1x64_10_320 : ∀ a, (![10, 320] : Fin 2 → Nat) a + S1x64.size a ≤ S40x1280.size a
  inb_S40x1280_S1x64_11_320 : ∀ a, (![11, 320] : Fin 2 → Nat) a + S1x64.size a ≤ S40x1280.size a
  inb_S40x1280_S1x64_12_320 : ∀ a, (![12, 320] : Fin 2 → Nat) a + S1x64.size a ≤ S40x1280.size a
  inb_S40x1280_S1x64_13_320 : ∀ a, (![13, 320] : Fin 2 → Nat) a + S1x64.size a ≤ S40x1280.size a
  inb_S40x1280_S1x64_14_320 : ∀ a, (![14, 320] : Fin 2 → Nat) a + S1x64.size a ≤ S40x1280.size a
  inb_S40x1280_S1x64_15_320 : ∀ a, (![15, 320] : Fin 2 → Nat) a + S1x64.size a ≤ S40x1280.size a
  inb_S40x1280_S1x64_16_320 : ∀ a, (![16, 320] : Fin 2 → Nat) a + S1x64.size a ≤ S40x1280.size a
  inb_S40x1280_S1x64_17_320 : ∀ a, (![17, 320] : Fin 2 → Nat) a + S1x64.size a ≤ S40x1280.size a
  inb_S40x1280_S1x64_18_320 : ∀ a, (![18, 320] : Fin 2 → Nat) a + S1x64.size a ≤ S40x1280.size a
  inb_S40x1280_S1x64_19_320 : ∀ a, (![19, 320] : Fin 2 → Nat) a + S1x64.size a ≤ S40x1280.size a
  inb_S40x1280_S1x64_20_320 : ∀ a, (![20, 320] : Fin 2 → Nat) a + S1x64.size a ≤ S40x1280.size a
  inb_S40x1280_S1x64_21_320 : ∀ a, (![21, 320] : Fin 2 → Nat) a + S1x64.size a ≤ S40x1280.size a
  inb_S40x1280_S1x64_22_320 : ∀ a, (![22, 320] : Fin 2 → Nat) a + S1x64.size a ≤ S40x1280.size a
  inb_S40x1280_S1x64_23_320 : ∀ a, (![23, 320] : Fin 2 → Nat) a + S1x64.size a ≤ S40x1280.size a
  inb_S40x1280_S1x64_24_320 : ∀ a, (![24, 320] : Fin 2 → Nat) a + S1x64.size a ≤ S40x1280.size a
  inb_S40x1280_S1x64_25_320 : ∀ a, (![25, 320] : Fin 2 → Nat) a + S1x64.size a ≤ S40x1280.size a
  inb_S40x1280_S1x64_26_320 : ∀ a, (![26, 320] : Fin 2 → Nat) a + S1x64.size a ≤ S40x1280.size a
  inb_S40x1280_S1x64_27_320 : ∀ a, (![27, 320] : Fin 2 → Nat) a + S1x64.size a ≤ S40x1280.size a
  inb_S40x1280_S1x64_28_320 : ∀ a, (![28, 320] : Fin 2 → Nat) a + S1x64.size a ≤ S40x1280.size a
  inb_S40x1280_S1x64_29_320 : ∀ a, (![29, 320] : Fin 2 → Nat) a + S1x64.size a ≤ S40x1280.size a
  inb_S40x1280_S1x64_30_320 : ∀ a, (![30, 320] : Fin 2 → Nat) a + S1x64.size a ≤ S40x1280.size a
  inb_S40x1280_S1x64_31_320 : ∀ a, (![31, 320] : Fin 2 → Nat) a + S1x64.size a ≤ S40x1280.size a
  inb_S40x1280_S1x64_32_320 : ∀ a, (![32, 320] : Fin 2 → Nat) a + S1x64.size a ≤ S40x1280.size a
  inb_S40x1280_S1x64_33_320 : ∀ a, (![33, 320] : Fin 2 → Nat) a + S1x64.size a ≤ S40x1280.size a
  inb_S40x1280_S1x64_34_320 : ∀ a, (![34, 320] : Fin 2 → Nat) a + S1x64.size a ≤ S40x1280.size a
  inb_S40x1280_S1x64_35_320 : ∀ a, (![35, 320] : Fin 2 → Nat) a + S1x64.size a ≤ S40x1280.size a
  inb_S40x1280_S1x64_36_320 : ∀ a, (![36, 320] : Fin 2 → Nat) a + S1x64.size a ≤ S40x1280.size a
  inb_S40x1280_S1x64_37_320 : ∀ a, (![37, 320] : Fin 2 → Nat) a + S1x64.size a ≤ S40x1280.size a
  inb_S40x1280_S1x64_38_320 : ∀ a, (![38, 320] : Fin 2 → Nat) a + S1x64.size a ≤ S40x1280.size a
  inb_S40x1280_S1x64_39_320 : ∀ a, (![39, 320] : Fin 2 → Nat) a + S1x64.size a ≤ S40x1280.size a
  inb_S1280x640_S64x640_320_0 : ∀ a, (![320, 0] : Fin 2 → Nat) a + S64x640.size a ≤ S1280x640.size a
  packedbf16_S1280x640_S64x640_320_0 : (Rect.unit (s := S1280x640) ![320, 0] S64x640.size inb_S1280x640_S64x640_320_0).PackedRows (EltTy.packing .bf16)
  inb_S40x1280_S1x64_0_384 : ∀ a, (![0, 384] : Fin 2 → Nat) a + S1x64.size a ≤ S40x1280.size a
  inb_S40x1280_S1x64_1_384 : ∀ a, (![1, 384] : Fin 2 → Nat) a + S1x64.size a ≤ S40x1280.size a
  inb_S40x1280_S1x64_2_384 : ∀ a, (![2, 384] : Fin 2 → Nat) a + S1x64.size a ≤ S40x1280.size a
  inb_S40x1280_S1x64_3_384 : ∀ a, (![3, 384] : Fin 2 → Nat) a + S1x64.size a ≤ S40x1280.size a
  inb_S40x1280_S1x64_4_384 : ∀ a, (![4, 384] : Fin 2 → Nat) a + S1x64.size a ≤ S40x1280.size a
  inb_S40x1280_S1x64_5_384 : ∀ a, (![5, 384] : Fin 2 → Nat) a + S1x64.size a ≤ S40x1280.size a
  inb_S40x1280_S1x64_6_384 : ∀ a, (![6, 384] : Fin 2 → Nat) a + S1x64.size a ≤ S40x1280.size a
  inb_S40x1280_S1x64_7_384 : ∀ a, (![7, 384] : Fin 2 → Nat) a + S1x64.size a ≤ S40x1280.size a
  inb_S40x1280_S1x64_8_384 : ∀ a, (![8, 384] : Fin 2 → Nat) a + S1x64.size a ≤ S40x1280.size a
  inb_S40x1280_S1x64_9_384 : ∀ a, (![9, 384] : Fin 2 → Nat) a + S1x64.size a ≤ S40x1280.size a
  inb_S40x1280_S1x64_10_384 : ∀ a, (![10, 384] : Fin 2 → Nat) a + S1x64.size a ≤ S40x1280.size a
  inb_S40x1280_S1x64_11_384 : ∀ a, (![11, 384] : Fin 2 → Nat) a + S1x64.size a ≤ S40x1280.size a
  inb_S40x1280_S1x64_12_384 : ∀ a, (![12, 384] : Fin 2 → Nat) a + S1x64.size a ≤ S40x1280.size a
  inb_S40x1280_S1x64_13_384 : ∀ a, (![13, 384] : Fin 2 → Nat) a + S1x64.size a ≤ S40x1280.size a
  inb_S40x1280_S1x64_14_384 : ∀ a, (![14, 384] : Fin 2 → Nat) a + S1x64.size a ≤ S40x1280.size a
  inb_S40x1280_S1x64_15_384 : ∀ a, (![15, 384] : Fin 2 → Nat) a + S1x64.size a ≤ S40x1280.size a
  inb_S40x1280_S1x64_16_384 : ∀ a, (![16, 384] : Fin 2 → Nat) a + S1x64.size a ≤ S40x1280.size a
  inb_S40x1280_S1x64_17_384 : ∀ a, (![17, 384] : Fin 2 → Nat) a + S1x64.size a ≤ S40x1280.size a
  inb_S40x1280_S1x64_18_384 : ∀ a, (![18, 384] : Fin 2 → Nat) a + S1x64.size a ≤ S40x1280.size a
  inb_S40x1280_S1x64_19_384 : ∀ a, (![19, 384] : Fin 2 → Nat) a + S1x64.size a ≤ S40x1280.size a
  inb_S40x1280_S1x64_20_384 : ∀ a, (![20, 384] : Fin 2 → Nat) a + S1x64.size a ≤ S40x1280.size a
  inb_S40x1280_S1x64_21_384 : ∀ a, (![21, 384] : Fin 2 → Nat) a + S1x64.size a ≤ S40x1280.size a
  inb_S40x1280_S1x64_22_384 : ∀ a, (![22, 384] : Fin 2 → Nat) a + S1x64.size a ≤ S40x1280.size a
  inb_S40x1280_S1x64_23_384 : ∀ a, (![23, 384] : Fin 2 → Nat) a + S1x64.size a ≤ S40x1280.size a
  inb_S40x1280_S1x64_24_384 : ∀ a, (![24, 384] : Fin 2 → Nat) a + S1x64.size a ≤ S40x1280.size a
  inb_S40x1280_S1x64_25_384 : ∀ a, (![25, 384] : Fin 2 → Nat) a + S1x64.size a ≤ S40x1280.size a
  inb_S40x1280_S1x64_26_384 : ∀ a, (![26, 384] : Fin 2 → Nat) a + S1x64.size a ≤ S40x1280.size a
  inb_S40x1280_S1x64_27_384 : ∀ a, (![27, 384] : Fin 2 → Nat) a + S1x64.size a ≤ S40x1280.size a
  inb_S40x1280_S1x64_28_384 : ∀ a, (![28, 384] : Fin 2 → Nat) a + S1x64.size a ≤ S40x1280.size a
  inb_S40x1280_S1x64_29_384 : ∀ a, (![29, 384] : Fin 2 → Nat) a + S1x64.size a ≤ S40x1280.size a
  inb_S40x1280_S1x64_30_384 : ∀ a, (![30, 384] : Fin 2 → Nat) a + S1x64.size a ≤ S40x1280.size a
  inb_S40x1280_S1x64_31_384 : ∀ a, (![31, 384] : Fin 2 → Nat) a + S1x64.size a ≤ S40x1280.size a
  inb_S40x1280_S1x64_32_384 : ∀ a, (![32, 384] : Fin 2 → Nat) a + S1x64.size a ≤ S40x1280.size a
  inb_S40x1280_S1x64_33_384 : ∀ a, (![33, 384] : Fin 2 → Nat) a + S1x64.size a ≤ S40x1280.size a
  inb_S40x1280_S1x64_34_384 : ∀ a, (![34, 384] : Fin 2 → Nat) a + S1x64.size a ≤ S40x1280.size a
  inb_S40x1280_S1x64_35_384 : ∀ a, (![35, 384] : Fin 2 → Nat) a + S1x64.size a ≤ S40x1280.size a
  inb_S40x1280_S1x64_36_384 : ∀ a, (![36, 384] : Fin 2 → Nat) a + S1x64.size a ≤ S40x1280.size a
  inb_S40x1280_S1x64_37_384 : ∀ a, (![37, 384] : Fin 2 → Nat) a + S1x64.size a ≤ S40x1280.size a
  inb_S40x1280_S1x64_38_384 : ∀ a, (![38, 384] : Fin 2 → Nat) a + S1x64.size a ≤ S40x1280.size a
  inb_S40x1280_S1x64_39_384 : ∀ a, (![39, 384] : Fin 2 → Nat) a + S1x64.size a ≤ S40x1280.size a
  inb_S1280x640_S64x640_384_0 : ∀ a, (![384, 0] : Fin 2 → Nat) a + S64x640.size a ≤ S1280x640.size a
  packedbf16_S1280x640_S64x640_384_0 : (Rect.unit (s := S1280x640) ![384, 0] S64x640.size inb_S1280x640_S64x640_384_0).PackedRows (EltTy.packing .bf16)
  inb_S40x1280_S1x64_0_448 : ∀ a, (![0, 448] : Fin 2 → Nat) a + S1x64.size a ≤ S40x1280.size a
  inb_S40x1280_S1x64_1_448 : ∀ a, (![1, 448] : Fin 2 → Nat) a + S1x64.size a ≤ S40x1280.size a
  inb_S40x1280_S1x64_2_448 : ∀ a, (![2, 448] : Fin 2 → Nat) a + S1x64.size a ≤ S40x1280.size a
  inb_S40x1280_S1x64_3_448 : ∀ a, (![3, 448] : Fin 2 → Nat) a + S1x64.size a ≤ S40x1280.size a
  inb_S40x1280_S1x64_4_448 : ∀ a, (![4, 448] : Fin 2 → Nat) a + S1x64.size a ≤ S40x1280.size a
  inb_S40x1280_S1x64_5_448 : ∀ a, (![5, 448] : Fin 2 → Nat) a + S1x64.size a ≤ S40x1280.size a
  inb_S40x1280_S1x64_6_448 : ∀ a, (![6, 448] : Fin 2 → Nat) a + S1x64.size a ≤ S40x1280.size a
  inb_S40x1280_S1x64_7_448 : ∀ a, (![7, 448] : Fin 2 → Nat) a + S1x64.size a ≤ S40x1280.size a
  inb_S40x1280_S1x64_8_448 : ∀ a, (![8, 448] : Fin 2 → Nat) a + S1x64.size a ≤ S40x1280.size a
  inb_S40x1280_S1x64_9_448 : ∀ a, (![9, 448] : Fin 2 → Nat) a + S1x64.size a ≤ S40x1280.size a
  inb_S40x1280_S1x64_10_448 : ∀ a, (![10, 448] : Fin 2 → Nat) a + S1x64.size a ≤ S40x1280.size a
  inb_S40x1280_S1x64_11_448 : ∀ a, (![11, 448] : Fin 2 → Nat) a + S1x64.size a ≤ S40x1280.size a
  inb_S40x1280_S1x64_12_448 : ∀ a, (![12, 448] : Fin 2 → Nat) a + S1x64.size a ≤ S40x1280.size a
  inb_S40x1280_S1x64_13_448 : ∀ a, (![13, 448] : Fin 2 → Nat) a + S1x64.size a ≤ S40x1280.size a
  inb_S40x1280_S1x64_14_448 : ∀ a, (![14, 448] : Fin 2 → Nat) a + S1x64.size a ≤ S40x1280.size a
  inb_S40x1280_S1x64_15_448 : ∀ a, (![15, 448] : Fin 2 → Nat) a + S1x64.size a ≤ S40x1280.size a
  inb_S40x1280_S1x64_16_448 : ∀ a, (![16, 448] : Fin 2 → Nat) a + S1x64.size a ≤ S40x1280.size a
  inb_S40x1280_S1x64_17_448 : ∀ a, (![17, 448] : Fin 2 → Nat) a + S1x64.size a ≤ S40x1280.size a
  inb_S40x1280_S1x64_18_448 : ∀ a, (![18, 448] : Fin 2 → Nat) a + S1x64.size a ≤ S40x1280.size a
  inb_S40x1280_S1x64_19_448 : ∀ a, (![19, 448] : Fin 2 → Nat) a + S1x64.size a ≤ S40x1280.size a
  inb_S40x1280_S1x64_20_448 : ∀ a, (![20, 448] : Fin 2 → Nat) a + S1x64.size a ≤ S40x1280.size a
  inb_S40x1280_S1x64_21_448 : ∀ a, (![21, 448] : Fin 2 → Nat) a + S1x64.size a ≤ S40x1280.size a
  inb_S40x1280_S1x64_22_448 : ∀ a, (![22, 448] : Fin 2 → Nat) a + S1x64.size a ≤ S40x1280.size a
  inb_S40x1280_S1x64_23_448 : ∀ a, (![23, 448] : Fin 2 → Nat) a + S1x64.size a ≤ S40x1280.size a
  inb_S40x1280_S1x64_24_448 : ∀ a, (![24, 448] : Fin 2 → Nat) a + S1x64.size a ≤ S40x1280.size a
  inb_S40x1280_S1x64_25_448 : ∀ a, (![25, 448] : Fin 2 → Nat) a + S1x64.size a ≤ S40x1280.size a
  inb_S40x1280_S1x64_26_448 : ∀ a, (![26, 448] : Fin 2 → Nat) a + S1x64.size a ≤ S40x1280.size a
  inb_S40x1280_S1x64_27_448 : ∀ a, (![27, 448] : Fin 2 → Nat) a + S1x64.size a ≤ S40x1280.size a
  inb_S40x1280_S1x64_28_448 : ∀ a, (![28, 448] : Fin 2 → Nat) a + S1x64.size a ≤ S40x1280.size a
  inb_S40x1280_S1x64_29_448 : ∀ a, (![29, 448] : Fin 2 → Nat) a + S1x64.size a ≤ S40x1280.size a
  inb_S40x1280_S1x64_30_448 : ∀ a, (![30, 448] : Fin 2 → Nat) a + S1x64.size a ≤ S40x1280.size a
  inb_S40x1280_S1x64_31_448 : ∀ a, (![31, 448] : Fin 2 → Nat) a + S1x64.size a ≤ S40x1280.size a
  inb_S40x1280_S1x64_32_448 : ∀ a, (![32, 448] : Fin 2 → Nat) a + S1x64.size a ≤ S40x1280.size a
  inb_S40x1280_S1x64_33_448 : ∀ a, (![33, 448] : Fin 2 → Nat) a + S1x64.size a ≤ S40x1280.size a
  inb_S40x1280_S1x64_34_448 : ∀ a, (![34, 448] : Fin 2 → Nat) a + S1x64.size a ≤ S40x1280.size a
  inb_S40x1280_S1x64_35_448 : ∀ a, (![35, 448] : Fin 2 → Nat) a + S1x64.size a ≤ S40x1280.size a
  inb_S40x1280_S1x64_36_448 : ∀ a, (![36, 448] : Fin 2 → Nat) a + S1x64.size a ≤ S40x1280.size a
  inb_S40x1280_S1x64_37_448 : ∀ a, (![37, 448] : Fin 2 → Nat) a + S1x64.size a ≤ S40x1280.size a
  inb_S40x1280_S1x64_38_448 : ∀ a, (![38, 448] : Fin 2 → Nat) a + S1x64.size a ≤ S40x1280.size a
  inb_S40x1280_S1x64_39_448 : ∀ a, (![39, 448] : Fin 2 → Nat) a + S1x64.size a ≤ S40x1280.size a
  inb_S1280x640_S64x640_448_0 : ∀ a, (![448, 0] : Fin 2 → Nat) a + S64x640.size a ≤ S1280x640.size a
  packedbf16_S1280x640_S64x640_448_0 : (Rect.unit (s := S1280x640) ![448, 0] S64x640.size inb_S1280x640_S64x640_448_0).PackedRows (EltTy.packing .bf16)
  inb_S40x1280_S1x64_0_512 : ∀ a, (![0, 512] : Fin 2 → Nat) a + S1x64.size a ≤ S40x1280.size a
  inb_S40x1280_S1x64_1_512 : ∀ a, (![1, 512] : Fin 2 → Nat) a + S1x64.size a ≤ S40x1280.size a
  inb_S40x1280_S1x64_2_512 : ∀ a, (![2, 512] : Fin 2 → Nat) a + S1x64.size a ≤ S40x1280.size a
  inb_S40x1280_S1x64_3_512 : ∀ a, (![3, 512] : Fin 2 → Nat) a + S1x64.size a ≤ S40x1280.size a
  inb_S40x1280_S1x64_4_512 : ∀ a, (![4, 512] : Fin 2 → Nat) a + S1x64.size a ≤ S40x1280.size a
  inb_S40x1280_S1x64_5_512 : ∀ a, (![5, 512] : Fin 2 → Nat) a + S1x64.size a ≤ S40x1280.size a
  inb_S40x1280_S1x64_6_512 : ∀ a, (![6, 512] : Fin 2 → Nat) a + S1x64.size a ≤ S40x1280.size a
  inb_S40x1280_S1x64_7_512 : ∀ a, (![7, 512] : Fin 2 → Nat) a + S1x64.size a ≤ S40x1280.size a
  inb_S40x1280_S1x64_8_512 : ∀ a, (![8, 512] : Fin 2 → Nat) a + S1x64.size a ≤ S40x1280.size a
  inb_S40x1280_S1x64_9_512 : ∀ a, (![9, 512] : Fin 2 → Nat) a + S1x64.size a ≤ S40x1280.size a
  inb_S40x1280_S1x64_10_512 : ∀ a, (![10, 512] : Fin 2 → Nat) a + S1x64.size a ≤ S40x1280.size a
  inb_S40x1280_S1x64_11_512 : ∀ a, (![11, 512] : Fin 2 → Nat) a + S1x64.size a ≤ S40x1280.size a
  inb_S40x1280_S1x64_12_512 : ∀ a, (![12, 512] : Fin 2 → Nat) a + S1x64.size a ≤ S40x1280.size a
  inb_S40x1280_S1x64_13_512 : ∀ a, (![13, 512] : Fin 2 → Nat) a + S1x64.size a ≤ S40x1280.size a
  inb_S40x1280_S1x64_14_512 : ∀ a, (![14, 512] : Fin 2 → Nat) a + S1x64.size a ≤ S40x1280.size a
  inb_S40x1280_S1x64_15_512 : ∀ a, (![15, 512] : Fin 2 → Nat) a + S1x64.size a ≤ S40x1280.size a
  inb_S40x1280_S1x64_16_512 : ∀ a, (![16, 512] : Fin 2 → Nat) a + S1x64.size a ≤ S40x1280.size a
  inb_S40x1280_S1x64_17_512 : ∀ a, (![17, 512] : Fin 2 → Nat) a + S1x64.size a ≤ S40x1280.size a
  inb_S40x1280_S1x64_18_512 : ∀ a, (![18, 512] : Fin 2 → Nat) a + S1x64.size a ≤ S40x1280.size a
  inb_S40x1280_S1x64_19_512 : ∀ a, (![19, 512] : Fin 2 → Nat) a + S1x64.size a ≤ S40x1280.size a
  inb_S40x1280_S1x64_20_512 : ∀ a, (![20, 512] : Fin 2 → Nat) a + S1x64.size a ≤ S40x1280.size a
  inb_S40x1280_S1x64_21_512 : ∀ a, (![21, 512] : Fin 2 → Nat) a + S1x64.size a ≤ S40x1280.size a
  inb_S40x1280_S1x64_22_512 : ∀ a, (![22, 512] : Fin 2 → Nat) a + S1x64.size a ≤ S40x1280.size a
  inb_S40x1280_S1x64_23_512 : ∀ a, (![23, 512] : Fin 2 → Nat) a + S1x64.size a ≤ S40x1280.size a
  inb_S40x1280_S1x64_24_512 : ∀ a, (![24, 512] : Fin 2 → Nat) a + S1x64.size a ≤ S40x1280.size a
  inb_S40x1280_S1x64_25_512 : ∀ a, (![25, 512] : Fin 2 → Nat) a + S1x64.size a ≤ S40x1280.size a
  inb_S40x1280_S1x64_26_512 : ∀ a, (![26, 512] : Fin 2 → Nat) a + S1x64.size a ≤ S40x1280.size a
  inb_S40x1280_S1x64_27_512 : ∀ a, (![27, 512] : Fin 2 → Nat) a + S1x64.size a ≤ S40x1280.size a
  inb_S40x1280_S1x64_28_512 : ∀ a, (![28, 512] : Fin 2 → Nat) a + S1x64.size a ≤ S40x1280.size a
  inb_S40x1280_S1x64_29_512 : ∀ a, (![29, 512] : Fin 2 → Nat) a + S1x64.size a ≤ S40x1280.size a
  inb_S40x1280_S1x64_30_512 : ∀ a, (![30, 512] : Fin 2 → Nat) a + S1x64.size a ≤ S40x1280.size a
  inb_S40x1280_S1x64_31_512 : ∀ a, (![31, 512] : Fin 2 → Nat) a + S1x64.size a ≤ S40x1280.size a
  inb_S40x1280_S1x64_32_512 : ∀ a, (![32, 512] : Fin 2 → Nat) a + S1x64.size a ≤ S40x1280.size a
  inb_S40x1280_S1x64_33_512 : ∀ a, (![33, 512] : Fin 2 → Nat) a + S1x64.size a ≤ S40x1280.size a
  inb_S40x1280_S1x64_34_512 : ∀ a, (![34, 512] : Fin 2 → Nat) a + S1x64.size a ≤ S40x1280.size a
  inb_S40x1280_S1x64_35_512 : ∀ a, (![35, 512] : Fin 2 → Nat) a + S1x64.size a ≤ S40x1280.size a
  inb_S40x1280_S1x64_36_512 : ∀ a, (![36, 512] : Fin 2 → Nat) a + S1x64.size a ≤ S40x1280.size a
  inb_S40x1280_S1x64_37_512 : ∀ a, (![37, 512] : Fin 2 → Nat) a + S1x64.size a ≤ S40x1280.size a
  inb_S40x1280_S1x64_38_512 : ∀ a, (![38, 512] : Fin 2 → Nat) a + S1x64.size a ≤ S40x1280.size a
  inb_S40x1280_S1x64_39_512 : ∀ a, (![39, 512] : Fin 2 → Nat) a + S1x64.size a ≤ S40x1280.size a
  inb_S1280x640_S64x640_512_0 : ∀ a, (![512, 0] : Fin 2 → Nat) a + S64x640.size a ≤ S1280x640.size a
  packedbf16_S1280x640_S64x640_512_0 : (Rect.unit (s := S1280x640) ![512, 0] S64x640.size inb_S1280x640_S64x640_512_0).PackedRows (EltTy.packing .bf16)
  inb_S40x1280_S1x64_0_576 : ∀ a, (![0, 576] : Fin 2 → Nat) a + S1x64.size a ≤ S40x1280.size a
  inb_S40x1280_S1x64_1_576 : ∀ a, (![1, 576] : Fin 2 → Nat) a + S1x64.size a ≤ S40x1280.size a
  inb_S40x1280_S1x64_2_576 : ∀ a, (![2, 576] : Fin 2 → Nat) a + S1x64.size a ≤ S40x1280.size a
  inb_S40x1280_S1x64_3_576 : ∀ a, (![3, 576] : Fin 2 → Nat) a + S1x64.size a ≤ S40x1280.size a
  inb_S40x1280_S1x64_4_576 : ∀ a, (![4, 576] : Fin 2 → Nat) a + S1x64.size a ≤ S40x1280.size a
  inb_S40x1280_S1x64_5_576 : ∀ a, (![5, 576] : Fin 2 → Nat) a + S1x64.size a ≤ S40x1280.size a
  inb_S40x1280_S1x64_6_576 : ∀ a, (![6, 576] : Fin 2 → Nat) a + S1x64.size a ≤ S40x1280.size a
  inb_S40x1280_S1x64_7_576 : ∀ a, (![7, 576] : Fin 2 → Nat) a + S1x64.size a ≤ S40x1280.size a
  inb_S40x1280_S1x64_8_576 : ∀ a, (![8, 576] : Fin 2 → Nat) a + S1x64.size a ≤ S40x1280.size a
  inb_S40x1280_S1x64_9_576 : ∀ a, (![9, 576] : Fin 2 → Nat) a + S1x64.size a ≤ S40x1280.size a
  inb_S40x1280_S1x64_10_576 : ∀ a, (![10, 576] : Fin 2 → Nat) a + S1x64.size a ≤ S40x1280.size a
  inb_S40x1280_S1x64_11_576 : ∀ a, (![11, 576] : Fin 2 → Nat) a + S1x64.size a ≤ S40x1280.size a
  inb_S40x1280_S1x64_12_576 : ∀ a, (![12, 576] : Fin 2 → Nat) a + S1x64.size a ≤ S40x1280.size a
  inb_S40x1280_S1x64_13_576 : ∀ a, (![13, 576] : Fin 2 → Nat) a + S1x64.size a ≤ S40x1280.size a
  inb_S40x1280_S1x64_14_576 : ∀ a, (![14, 576] : Fin 2 → Nat) a + S1x64.size a ≤ S40x1280.size a
  inb_S40x1280_S1x64_15_576 : ∀ a, (![15, 576] : Fin 2 → Nat) a + S1x64.size a ≤ S40x1280.size a
  inb_S40x1280_S1x64_16_576 : ∀ a, (![16, 576] : Fin 2 → Nat) a + S1x64.size a ≤ S40x1280.size a
  inb_S40x1280_S1x64_17_576 : ∀ a, (![17, 576] : Fin 2 → Nat) a + S1x64.size a ≤ S40x1280.size a
  inb_S40x1280_S1x64_18_576 : ∀ a, (![18, 576] : Fin 2 → Nat) a + S1x64.size a ≤ S40x1280.size a
  inb_S40x1280_S1x64_19_576 : ∀ a, (![19, 576] : Fin 2 → Nat) a + S1x64.size a ≤ S40x1280.size a
  inb_S40x1280_S1x64_20_576 : ∀ a, (![20, 576] : Fin 2 → Nat) a + S1x64.size a ≤ S40x1280.size a
  inb_S40x1280_S1x64_21_576 : ∀ a, (![21, 576] : Fin 2 → Nat) a + S1x64.size a ≤ S40x1280.size a
  inb_S40x1280_S1x64_22_576 : ∀ a, (![22, 576] : Fin 2 → Nat) a + S1x64.size a ≤ S40x1280.size a
  inb_S40x1280_S1x64_23_576 : ∀ a, (![23, 576] : Fin 2 → Nat) a + S1x64.size a ≤ S40x1280.size a
  inb_S40x1280_S1x64_24_576 : ∀ a, (![24, 576] : Fin 2 → Nat) a + S1x64.size a ≤ S40x1280.size a
  inb_S40x1280_S1x64_25_576 : ∀ a, (![25, 576] : Fin 2 → Nat) a + S1x64.size a ≤ S40x1280.size a
  inb_S40x1280_S1x64_26_576 : ∀ a, (![26, 576] : Fin 2 → Nat) a + S1x64.size a ≤ S40x1280.size a
  inb_S40x1280_S1x64_27_576 : ∀ a, (![27, 576] : Fin 2 → Nat) a + S1x64.size a ≤ S40x1280.size a
  inb_S40x1280_S1x64_28_576 : ∀ a, (![28, 576] : Fin 2 → Nat) a + S1x64.size a ≤ S40x1280.size a
  inb_S40x1280_S1x64_29_576 : ∀ a, (![29, 576] : Fin 2 → Nat) a + S1x64.size a ≤ S40x1280.size a
  inb_S40x1280_S1x64_30_576 : ∀ a, (![30, 576] : Fin 2 → Nat) a + S1x64.size a ≤ S40x1280.size a
  inb_S40x1280_S1x64_31_576 : ∀ a, (![31, 576] : Fin 2 → Nat) a + S1x64.size a ≤ S40x1280.size a
  inb_S40x1280_S1x64_32_576 : ∀ a, (![32, 576] : Fin 2 → Nat) a + S1x64.size a ≤ S40x1280.size a
  inb_S40x1280_S1x64_33_576 : ∀ a, (![33, 576] : Fin 2 → Nat) a + S1x64.size a ≤ S40x1280.size a
  inb_S40x1280_S1x64_34_576 : ∀ a, (![34, 576] : Fin 2 → Nat) a + S1x64.size a ≤ S40x1280.size a
  inb_S40x1280_S1x64_35_576 : ∀ a, (![35, 576] : Fin 2 → Nat) a + S1x64.size a ≤ S40x1280.size a
  inb_S40x1280_S1x64_36_576 : ∀ a, (![36, 576] : Fin 2 → Nat) a + S1x64.size a ≤ S40x1280.size a
  inb_S40x1280_S1x64_37_576 : ∀ a, (![37, 576] : Fin 2 → Nat) a + S1x64.size a ≤ S40x1280.size a
  inb_S40x1280_S1x64_38_576 : ∀ a, (![38, 576] : Fin 2 → Nat) a + S1x64.size a ≤ S40x1280.size a
  inb_S40x1280_S1x64_39_576 : ∀ a, (![39, 576] : Fin 2 → Nat) a + S1x64.size a ≤ S40x1280.size a
  inb_S1280x640_S64x640_576_0 : ∀ a, (![576, 0] : Fin 2 → Nat) a + S64x640.size a ≤ S1280x640.size a
  packedbf16_S1280x640_S64x640_576_0 : (Rect.unit (s := S1280x640) ![576, 0] S64x640.size inb_S1280x640_S64x640_576_0).PackedRows (EltTy.packing .bf16)
  inb_S40x1280_S1x64_0_640 : ∀ a, (![0, 640] : Fin 2 → Nat) a + S1x64.size a ≤ S40x1280.size a
  inb_S40x1280_S1x64_1_640 : ∀ a, (![1, 640] : Fin 2 → Nat) a + S1x64.size a ≤ S40x1280.size a
  inb_S40x1280_S1x64_2_640 : ∀ a, (![2, 640] : Fin 2 → Nat) a + S1x64.size a ≤ S40x1280.size a
  inb_S40x1280_S1x64_3_640 : ∀ a, (![3, 640] : Fin 2 → Nat) a + S1x64.size a ≤ S40x1280.size a
  inb_S40x1280_S1x64_4_640 : ∀ a, (![4, 640] : Fin 2 → Nat) a + S1x64.size a ≤ S40x1280.size a
  inb_S40x1280_S1x64_5_640 : ∀ a, (![5, 640] : Fin 2 → Nat) a + S1x64.size a ≤ S40x1280.size a
  inb_S40x1280_S1x64_6_640 : ∀ a, (![6, 640] : Fin 2 → Nat) a + S1x64.size a ≤ S40x1280.size a
  inb_S40x1280_S1x64_7_640 : ∀ a, (![7, 640] : Fin 2 → Nat) a + S1x64.size a ≤ S40x1280.size a
  inb_S40x1280_S1x64_8_640 : ∀ a, (![8, 640] : Fin 2 → Nat) a + S1x64.size a ≤ S40x1280.size a
  inb_S40x1280_S1x64_9_640 : ∀ a, (![9, 640] : Fin 2 → Nat) a + S1x64.size a ≤ S40x1280.size a
  inb_S40x1280_S1x64_10_640 : ∀ a, (![10, 640] : Fin 2 → Nat) a + S1x64.size a ≤ S40x1280.size a
  inb_S40x1280_S1x64_11_640 : ∀ a, (![11, 640] : Fin 2 → Nat) a + S1x64.size a ≤ S40x1280.size a
  inb_S40x1280_S1x64_12_640 : ∀ a, (![12, 640] : Fin 2 → Nat) a + S1x64.size a ≤ S40x1280.size a
  inb_S40x1280_S1x64_13_640 : ∀ a, (![13, 640] : Fin 2 → Nat) a + S1x64.size a ≤ S40x1280.size a
  inb_S40x1280_S1x64_14_640 : ∀ a, (![14, 640] : Fin 2 → Nat) a + S1x64.size a ≤ S40x1280.size a
  inb_S40x1280_S1x64_15_640 : ∀ a, (![15, 640] : Fin 2 → Nat) a + S1x64.size a ≤ S40x1280.size a
  inb_S40x1280_S1x64_16_640 : ∀ a, (![16, 640] : Fin 2 → Nat) a + S1x64.size a ≤ S40x1280.size a
  inb_S40x1280_S1x64_17_640 : ∀ a, (![17, 640] : Fin 2 → Nat) a + S1x64.size a ≤ S40x1280.size a
  inb_S40x1280_S1x64_18_640 : ∀ a, (![18, 640] : Fin 2 → Nat) a + S1x64.size a ≤ S40x1280.size a
  inb_S40x1280_S1x64_19_640 : ∀ a, (![19, 640] : Fin 2 → Nat) a + S1x64.size a ≤ S40x1280.size a
  inb_S40x1280_S1x64_20_640 : ∀ a, (![20, 640] : Fin 2 → Nat) a + S1x64.size a ≤ S40x1280.size a
  inb_S40x1280_S1x64_21_640 : ∀ a, (![21, 640] : Fin 2 → Nat) a + S1x64.size a ≤ S40x1280.size a
  inb_S40x1280_S1x64_22_640 : ∀ a, (![22, 640] : Fin 2 → Nat) a + S1x64.size a ≤ S40x1280.size a
  inb_S40x1280_S1x64_23_640 : ∀ a, (![23, 640] : Fin 2 → Nat) a + S1x64.size a ≤ S40x1280.size a
  inb_S40x1280_S1x64_24_640 : ∀ a, (![24, 640] : Fin 2 → Nat) a + S1x64.size a ≤ S40x1280.size a
  inb_S40x1280_S1x64_25_640 : ∀ a, (![25, 640] : Fin 2 → Nat) a + S1x64.size a ≤ S40x1280.size a
  inb_S40x1280_S1x64_26_640 : ∀ a, (![26, 640] : Fin 2 → Nat) a + S1x64.size a ≤ S40x1280.size a
  inb_S40x1280_S1x64_27_640 : ∀ a, (![27, 640] : Fin 2 → Nat) a + S1x64.size a ≤ S40x1280.size a
  inb_S40x1280_S1x64_28_640 : ∀ a, (![28, 640] : Fin 2 → Nat) a + S1x64.size a ≤ S40x1280.size a
  inb_S40x1280_S1x64_29_640 : ∀ a, (![29, 640] : Fin 2 → Nat) a + S1x64.size a ≤ S40x1280.size a
  inb_S40x1280_S1x64_30_640 : ∀ a, (![30, 640] : Fin 2 → Nat) a + S1x64.size a ≤ S40x1280.size a
  inb_S40x1280_S1x64_31_640 : ∀ a, (![31, 640] : Fin 2 → Nat) a + S1x64.size a ≤ S40x1280.size a
  inb_S40x1280_S1x64_32_640 : ∀ a, (![32, 640] : Fin 2 → Nat) a + S1x64.size a ≤ S40x1280.size a
  inb_S40x1280_S1x64_33_640 : ∀ a, (![33, 640] : Fin 2 → Nat) a + S1x64.size a ≤ S40x1280.size a
  inb_S40x1280_S1x64_34_640 : ∀ a, (![34, 640] : Fin 2 → Nat) a + S1x64.size a ≤ S40x1280.size a
  inb_S40x1280_S1x64_35_640 : ∀ a, (![35, 640] : Fin 2 → Nat) a + S1x64.size a ≤ S40x1280.size a
  inb_S40x1280_S1x64_36_640 : ∀ a, (![36, 640] : Fin 2 → Nat) a + S1x64.size a ≤ S40x1280.size a
  inb_S40x1280_S1x64_37_640 : ∀ a, (![37, 640] : Fin 2 → Nat) a + S1x64.size a ≤ S40x1280.size a
  inb_S40x1280_S1x64_38_640 : ∀ a, (![38, 640] : Fin 2 → Nat) a + S1x64.size a ≤ S40x1280.size a
  inb_S40x1280_S1x64_39_640 : ∀ a, (![39, 640] : Fin 2 → Nat) a + S1x64.size a ≤ S40x1280.size a
  inb_S1280x640_S64x640_640_0 : ∀ a, (![640, 0] : Fin 2 → Nat) a + S64x640.size a ≤ S1280x640.size a
  packedbf16_S1280x640_S64x640_640_0 : (Rect.unit (s := S1280x640) ![640, 0] S64x640.size inb_S1280x640_S64x640_640_0).PackedRows (EltTy.packing .bf16)
  inb_S40x1280_S1x64_0_704 : ∀ a, (![0, 704] : Fin 2 → Nat) a + S1x64.size a ≤ S40x1280.size a
  inb_S40x1280_S1x64_1_704 : ∀ a, (![1, 704] : Fin 2 → Nat) a + S1x64.size a ≤ S40x1280.size a
  inb_S40x1280_S1x64_2_704 : ∀ a, (![2, 704] : Fin 2 → Nat) a + S1x64.size a ≤ S40x1280.size a
  inb_S40x1280_S1x64_3_704 : ∀ a, (![3, 704] : Fin 2 → Nat) a + S1x64.size a ≤ S40x1280.size a
  inb_S40x1280_S1x64_4_704 : ∀ a, (![4, 704] : Fin 2 → Nat) a + S1x64.size a ≤ S40x1280.size a
  inb_S40x1280_S1x64_5_704 : ∀ a, (![5, 704] : Fin 2 → Nat) a + S1x64.size a ≤ S40x1280.size a
  inb_S40x1280_S1x64_6_704 : ∀ a, (![6, 704] : Fin 2 → Nat) a + S1x64.size a ≤ S40x1280.size a
  inb_S40x1280_S1x64_7_704 : ∀ a, (![7, 704] : Fin 2 → Nat) a + S1x64.size a ≤ S40x1280.size a
  inb_S40x1280_S1x64_8_704 : ∀ a, (![8, 704] : Fin 2 → Nat) a + S1x64.size a ≤ S40x1280.size a
  inb_S40x1280_S1x64_9_704 : ∀ a, (![9, 704] : Fin 2 → Nat) a + S1x64.size a ≤ S40x1280.size a
  inb_S40x1280_S1x64_10_704 : ∀ a, (![10, 704] : Fin 2 → Nat) a + S1x64.size a ≤ S40x1280.size a
  inb_S40x1280_S1x64_11_704 : ∀ a, (![11, 704] : Fin 2 → Nat) a + S1x64.size a ≤ S40x1280.size a
  inb_S40x1280_S1x64_12_704 : ∀ a, (![12, 704] : Fin 2 → Nat) a + S1x64.size a ≤ S40x1280.size a
  inb_S40x1280_S1x64_13_704 : ∀ a, (![13, 704] : Fin 2 → Nat) a + S1x64.size a ≤ S40x1280.size a
  inb_S40x1280_S1x64_14_704 : ∀ a, (![14, 704] : Fin 2 → Nat) a + S1x64.size a ≤ S40x1280.size a
  inb_S40x1280_S1x64_15_704 : ∀ a, (![15, 704] : Fin 2 → Nat) a + S1x64.size a ≤ S40x1280.size a
  inb_S40x1280_S1x64_16_704 : ∀ a, (![16, 704] : Fin 2 → Nat) a + S1x64.size a ≤ S40x1280.size a
  inb_S40x1280_S1x64_17_704 : ∀ a, (![17, 704] : Fin 2 → Nat) a + S1x64.size a ≤ S40x1280.size a
  inb_S40x1280_S1x64_18_704 : ∀ a, (![18, 704] : Fin 2 → Nat) a + S1x64.size a ≤ S40x1280.size a
  inb_S40x1280_S1x64_19_704 : ∀ a, (![19, 704] : Fin 2 → Nat) a + S1x64.size a ≤ S40x1280.size a
  inb_S40x1280_S1x64_20_704 : ∀ a, (![20, 704] : Fin 2 → Nat) a + S1x64.size a ≤ S40x1280.size a
  inb_S40x1280_S1x64_21_704 : ∀ a, (![21, 704] : Fin 2 → Nat) a + S1x64.size a ≤ S40x1280.size a
  inb_S40x1280_S1x64_22_704 : ∀ a, (![22, 704] : Fin 2 → Nat) a + S1x64.size a ≤ S40x1280.size a
  inb_S40x1280_S1x64_23_704 : ∀ a, (![23, 704] : Fin 2 → Nat) a + S1x64.size a ≤ S40x1280.size a
  inb_S40x1280_S1x64_24_704 : ∀ a, (![24, 704] : Fin 2 → Nat) a + S1x64.size a ≤ S40x1280.size a
  inb_S40x1280_S1x64_25_704 : ∀ a, (![25, 704] : Fin 2 → Nat) a + S1x64.size a ≤ S40x1280.size a
  inb_S40x1280_S1x64_26_704 : ∀ a, (![26, 704] : Fin 2 → Nat) a + S1x64.size a ≤ S40x1280.size a
  inb_S40x1280_S1x64_27_704 : ∀ a, (![27, 704] : Fin 2 → Nat) a + S1x64.size a ≤ S40x1280.size a
  inb_S40x1280_S1x64_28_704 : ∀ a, (![28, 704] : Fin 2 → Nat) a + S1x64.size a ≤ S40x1280.size a
  inb_S40x1280_S1x64_29_704 : ∀ a, (![29, 704] : Fin 2 → Nat) a + S1x64.size a ≤ S40x1280.size a
  inb_S40x1280_S1x64_30_704 : ∀ a, (![30, 704] : Fin 2 → Nat) a + S1x64.size a ≤ S40x1280.size a
  inb_S40x1280_S1x64_31_704 : ∀ a, (![31, 704] : Fin 2 → Nat) a + S1x64.size a ≤ S40x1280.size a
  inb_S40x1280_S1x64_32_704 : ∀ a, (![32, 704] : Fin 2 → Nat) a + S1x64.size a ≤ S40x1280.size a
  inb_S40x1280_S1x64_33_704 : ∀ a, (![33, 704] : Fin 2 → Nat) a + S1x64.size a ≤ S40x1280.size a
  inb_S40x1280_S1x64_34_704 : ∀ a, (![34, 704] : Fin 2 → Nat) a + S1x64.size a ≤ S40x1280.size a
  inb_S40x1280_S1x64_35_704 : ∀ a, (![35, 704] : Fin 2 → Nat) a + S1x64.size a ≤ S40x1280.size a
  inb_S40x1280_S1x64_36_704 : ∀ a, (![36, 704] : Fin 2 → Nat) a + S1x64.size a ≤ S40x1280.size a
  inb_S40x1280_S1x64_37_704 : ∀ a, (![37, 704] : Fin 2 → Nat) a + S1x64.size a ≤ S40x1280.size a
  inb_S40x1280_S1x64_38_704 : ∀ a, (![38, 704] : Fin 2 → Nat) a + S1x64.size a ≤ S40x1280.size a
  inb_S40x1280_S1x64_39_704 : ∀ a, (![39, 704] : Fin 2 → Nat) a + S1x64.size a ≤ S40x1280.size a
  inb_S1280x640_S64x640_704_0 : ∀ a, (![704, 0] : Fin 2 → Nat) a + S64x640.size a ≤ S1280x640.size a
  packedbf16_S1280x640_S64x640_704_0 : (Rect.unit (s := S1280x640) ![704, 0] S64x640.size inb_S1280x640_S64x640_704_0).PackedRows (EltTy.packing .bf16)
  inb_S40x1280_S1x64_0_768 : ∀ a, (![0, 768] : Fin 2 → Nat) a + S1x64.size a ≤ S40x1280.size a
  inb_S40x1280_S1x64_1_768 : ∀ a, (![1, 768] : Fin 2 → Nat) a + S1x64.size a ≤ S40x1280.size a
  inb_S40x1280_S1x64_2_768 : ∀ a, (![2, 768] : Fin 2 → Nat) a + S1x64.size a ≤ S40x1280.size a
  inb_S40x1280_S1x64_3_768 : ∀ a, (![3, 768] : Fin 2 → Nat) a + S1x64.size a ≤ S40x1280.size a
  inb_S40x1280_S1x64_4_768 : ∀ a, (![4, 768] : Fin 2 → Nat) a + S1x64.size a ≤ S40x1280.size a
  inb_S40x1280_S1x64_5_768 : ∀ a, (![5, 768] : Fin 2 → Nat) a + S1x64.size a ≤ S40x1280.size a
  inb_S40x1280_S1x64_6_768 : ∀ a, (![6, 768] : Fin 2 → Nat) a + S1x64.size a ≤ S40x1280.size a
  inb_S40x1280_S1x64_7_768 : ∀ a, (![7, 768] : Fin 2 → Nat) a + S1x64.size a ≤ S40x1280.size a
  inb_S40x1280_S1x64_8_768 : ∀ a, (![8, 768] : Fin 2 → Nat) a + S1x64.size a ≤ S40x1280.size a
  inb_S40x1280_S1x64_9_768 : ∀ a, (![9, 768] : Fin 2 → Nat) a + S1x64.size a ≤ S40x1280.size a
  inb_S40x1280_S1x64_10_768 : ∀ a, (![10, 768] : Fin 2 → Nat) a + S1x64.size a ≤ S40x1280.size a
  inb_S40x1280_S1x64_11_768 : ∀ a, (![11, 768] : Fin 2 → Nat) a + S1x64.size a ≤ S40x1280.size a
  inb_S40x1280_S1x64_12_768 : ∀ a, (![12, 768] : Fin 2 → Nat) a + S1x64.size a ≤ S40x1280.size a
  inb_S40x1280_S1x64_13_768 : ∀ a, (![13, 768] : Fin 2 → Nat) a + S1x64.size a ≤ S40x1280.size a
  inb_S40x1280_S1x64_14_768 : ∀ a, (![14, 768] : Fin 2 → Nat) a + S1x64.size a ≤ S40x1280.size a
  inb_S40x1280_S1x64_15_768 : ∀ a, (![15, 768] : Fin 2 → Nat) a + S1x64.size a ≤ S40x1280.size a
  inb_S40x1280_S1x64_16_768 : ∀ a, (![16, 768] : Fin 2 → Nat) a + S1x64.size a ≤ S40x1280.size a
  inb_S40x1280_S1x64_17_768 : ∀ a, (![17, 768] : Fin 2 → Nat) a + S1x64.size a ≤ S40x1280.size a
  inb_S40x1280_S1x64_18_768 : ∀ a, (![18, 768] : Fin 2 → Nat) a + S1x64.size a ≤ S40x1280.size a
  inb_S40x1280_S1x64_19_768 : ∀ a, (![19, 768] : Fin 2 → Nat) a + S1x64.size a ≤ S40x1280.size a
  inb_S40x1280_S1x64_20_768 : ∀ a, (![20, 768] : Fin 2 → Nat) a + S1x64.size a ≤ S40x1280.size a
  inb_S40x1280_S1x64_21_768 : ∀ a, (![21, 768] : Fin 2 → Nat) a + S1x64.size a ≤ S40x1280.size a
  inb_S40x1280_S1x64_22_768 : ∀ a, (![22, 768] : Fin 2 → Nat) a + S1x64.size a ≤ S40x1280.size a
  inb_S40x1280_S1x64_23_768 : ∀ a, (![23, 768] : Fin 2 → Nat) a + S1x64.size a ≤ S40x1280.size a
  inb_S40x1280_S1x64_24_768 : ∀ a, (![24, 768] : Fin 2 → Nat) a + S1x64.size a ≤ S40x1280.size a
  inb_S40x1280_S1x64_25_768 : ∀ a, (![25, 768] : Fin 2 → Nat) a + S1x64.size a ≤ S40x1280.size a
  inb_S40x1280_S1x64_26_768 : ∀ a, (![26, 768] : Fin 2 → Nat) a + S1x64.size a ≤ S40x1280.size a
  inb_S40x1280_S1x64_27_768 : ∀ a, (![27, 768] : Fin 2 → Nat) a + S1x64.size a ≤ S40x1280.size a
  inb_S40x1280_S1x64_28_768 : ∀ a, (![28, 768] : Fin 2 → Nat) a + S1x64.size a ≤ S40x1280.size a
  inb_S40x1280_S1x64_29_768 : ∀ a, (![29, 768] : Fin 2 → Nat) a + S1x64.size a ≤ S40x1280.size a
  inb_S40x1280_S1x64_30_768 : ∀ a, (![30, 768] : Fin 2 → Nat) a + S1x64.size a ≤ S40x1280.size a
  inb_S40x1280_S1x64_31_768 : ∀ a, (![31, 768] : Fin 2 → Nat) a + S1x64.size a ≤ S40x1280.size a
  inb_S40x1280_S1x64_32_768 : ∀ a, (![32, 768] : Fin 2 → Nat) a + S1x64.size a ≤ S40x1280.size a
  inb_S40x1280_S1x64_33_768 : ∀ a, (![33, 768] : Fin 2 → Nat) a + S1x64.size a ≤ S40x1280.size a
  inb_S40x1280_S1x64_34_768 : ∀ a, (![34, 768] : Fin 2 → Nat) a + S1x64.size a ≤ S40x1280.size a
  inb_S40x1280_S1x64_35_768 : ∀ a, (![35, 768] : Fin 2 → Nat) a + S1x64.size a ≤ S40x1280.size a
  inb_S40x1280_S1x64_36_768 : ∀ a, (![36, 768] : Fin 2 → Nat) a + S1x64.size a ≤ S40x1280.size a
  inb_S40x1280_S1x64_37_768 : ∀ a, (![37, 768] : Fin 2 → Nat) a + S1x64.size a ≤ S40x1280.size a
  inb_S40x1280_S1x64_38_768 : ∀ a, (![38, 768] : Fin 2 → Nat) a + S1x64.size a ≤ S40x1280.size a
  inb_S40x1280_S1x64_39_768 : ∀ a, (![39, 768] : Fin 2 → Nat) a + S1x64.size a ≤ S40x1280.size a
  inb_S1280x640_S64x640_768_0 : ∀ a, (![768, 0] : Fin 2 → Nat) a + S64x640.size a ≤ S1280x640.size a
  packedbf16_S1280x640_S64x640_768_0 : (Rect.unit (s := S1280x640) ![768, 0] S64x640.size inb_S1280x640_S64x640_768_0).PackedRows (EltTy.packing .bf16)
  inb_S40x1280_S1x64_0_832 : ∀ a, (![0, 832] : Fin 2 → Nat) a + S1x64.size a ≤ S40x1280.size a
  inb_S40x1280_S1x64_1_832 : ∀ a, (![1, 832] : Fin 2 → Nat) a + S1x64.size a ≤ S40x1280.size a
  inb_S40x1280_S1x64_2_832 : ∀ a, (![2, 832] : Fin 2 → Nat) a + S1x64.size a ≤ S40x1280.size a
  inb_S40x1280_S1x64_3_832 : ∀ a, (![3, 832] : Fin 2 → Nat) a + S1x64.size a ≤ S40x1280.size a
  inb_S40x1280_S1x64_4_832 : ∀ a, (![4, 832] : Fin 2 → Nat) a + S1x64.size a ≤ S40x1280.size a
  inb_S40x1280_S1x64_5_832 : ∀ a, (![5, 832] : Fin 2 → Nat) a + S1x64.size a ≤ S40x1280.size a
  inb_S40x1280_S1x64_6_832 : ∀ a, (![6, 832] : Fin 2 → Nat) a + S1x64.size a ≤ S40x1280.size a
  inb_S40x1280_S1x64_7_832 : ∀ a, (![7, 832] : Fin 2 → Nat) a + S1x64.size a ≤ S40x1280.size a
  inb_S40x1280_S1x64_8_832 : ∀ a, (![8, 832] : Fin 2 → Nat) a + S1x64.size a ≤ S40x1280.size a
  inb_S40x1280_S1x64_9_832 : ∀ a, (![9, 832] : Fin 2 → Nat) a + S1x64.size a ≤ S40x1280.size a
  inb_S40x1280_S1x64_10_832 : ∀ a, (![10, 832] : Fin 2 → Nat) a + S1x64.size a ≤ S40x1280.size a
  inb_S40x1280_S1x64_11_832 : ∀ a, (![11, 832] : Fin 2 → Nat) a + S1x64.size a ≤ S40x1280.size a
  inb_S40x1280_S1x64_12_832 : ∀ a, (![12, 832] : Fin 2 → Nat) a + S1x64.size a ≤ S40x1280.size a
  inb_S40x1280_S1x64_13_832 : ∀ a, (![13, 832] : Fin 2 → Nat) a + S1x64.size a ≤ S40x1280.size a
  inb_S40x1280_S1x64_14_832 : ∀ a, (![14, 832] : Fin 2 → Nat) a + S1x64.size a ≤ S40x1280.size a
  inb_S40x1280_S1x64_15_832 : ∀ a, (![15, 832] : Fin 2 → Nat) a + S1x64.size a ≤ S40x1280.size a
  inb_S40x1280_S1x64_16_832 : ∀ a, (![16, 832] : Fin 2 → Nat) a + S1x64.size a ≤ S40x1280.size a
  inb_S40x1280_S1x64_17_832 : ∀ a, (![17, 832] : Fin 2 → Nat) a + S1x64.size a ≤ S40x1280.size a
  inb_S40x1280_S1x64_18_832 : ∀ a, (![18, 832] : Fin 2 → Nat) a + S1x64.size a ≤ S40x1280.size a
  inb_S40x1280_S1x64_19_832 : ∀ a, (![19, 832] : Fin 2 → Nat) a + S1x64.size a ≤ S40x1280.size a
  inb_S40x1280_S1x64_20_832 : ∀ a, (![20, 832] : Fin 2 → Nat) a + S1x64.size a ≤ S40x1280.size a
  inb_S40x1280_S1x64_21_832 : ∀ a, (![21, 832] : Fin 2 → Nat) a + S1x64.size a ≤ S40x1280.size a
  inb_S40x1280_S1x64_22_832 : ∀ a, (![22, 832] : Fin 2 → Nat) a + S1x64.size a ≤ S40x1280.size a
  inb_S40x1280_S1x64_23_832 : ∀ a, (![23, 832] : Fin 2 → Nat) a + S1x64.size a ≤ S40x1280.size a
  inb_S40x1280_S1x64_24_832 : ∀ a, (![24, 832] : Fin 2 → Nat) a + S1x64.size a ≤ S40x1280.size a
  inb_S40x1280_S1x64_25_832 : ∀ a, (![25, 832] : Fin 2 → Nat) a + S1x64.size a ≤ S40x1280.size a
  inb_S40x1280_S1x64_26_832 : ∀ a, (![26, 832] : Fin 2 → Nat) a + S1x64.size a ≤ S40x1280.size a
  inb_S40x1280_S1x64_27_832 : ∀ a, (![27, 832] : Fin 2 → Nat) a + S1x64.size a ≤ S40x1280.size a
  inb_S40x1280_S1x64_28_832 : ∀ a, (![28, 832] : Fin 2 → Nat) a + S1x64.size a ≤ S40x1280.size a
  inb_S40x1280_S1x64_29_832 : ∀ a, (![29, 832] : Fin 2 → Nat) a + S1x64.size a ≤ S40x1280.size a
  inb_S40x1280_S1x64_30_832 : ∀ a, (![30, 832] : Fin 2 → Nat) a + S1x64.size a ≤ S40x1280.size a
  inb_S40x1280_S1x64_31_832 : ∀ a, (![31, 832] : Fin 2 → Nat) a + S1x64.size a ≤ S40x1280.size a
  inb_S40x1280_S1x64_32_832 : ∀ a, (![32, 832] : Fin 2 → Nat) a + S1x64.size a ≤ S40x1280.size a
  inb_S40x1280_S1x64_33_832 : ∀ a, (![33, 832] : Fin 2 → Nat) a + S1x64.size a ≤ S40x1280.size a
  inb_S40x1280_S1x64_34_832 : ∀ a, (![34, 832] : Fin 2 → Nat) a + S1x64.size a ≤ S40x1280.size a
  inb_S40x1280_S1x64_35_832 : ∀ a, (![35, 832] : Fin 2 → Nat) a + S1x64.size a ≤ S40x1280.size a
  inb_S40x1280_S1x64_36_832 : ∀ a, (![36, 832] : Fin 2 → Nat) a + S1x64.size a ≤ S40x1280.size a
  inb_S40x1280_S1x64_37_832 : ∀ a, (![37, 832] : Fin 2 → Nat) a + S1x64.size a ≤ S40x1280.size a
  inb_S40x1280_S1x64_38_832 : ∀ a, (![38, 832] : Fin 2 → Nat) a + S1x64.size a ≤ S40x1280.size a
  inb_S40x1280_S1x64_39_832 : ∀ a, (![39, 832] : Fin 2 → Nat) a + S1x64.size a ≤ S40x1280.size a
  inb_S1280x640_S64x640_832_0 : ∀ a, (![832, 0] : Fin 2 → Nat) a + S64x640.size a ≤ S1280x640.size a
  packedbf16_S1280x640_S64x640_832_0 : (Rect.unit (s := S1280x640) ![832, 0] S64x640.size inb_S1280x640_S64x640_832_0).PackedRows (EltTy.packing .bf16)
  inb_S40x1280_S1x64_0_896 : ∀ a, (![0, 896] : Fin 2 → Nat) a + S1x64.size a ≤ S40x1280.size a
  inb_S40x1280_S1x64_1_896 : ∀ a, (![1, 896] : Fin 2 → Nat) a + S1x64.size a ≤ S40x1280.size a
  inb_S40x1280_S1x64_2_896 : ∀ a, (![2, 896] : Fin 2 → Nat) a + S1x64.size a ≤ S40x1280.size a
  inb_S40x1280_S1x64_3_896 : ∀ a, (![3, 896] : Fin 2 → Nat) a + S1x64.size a ≤ S40x1280.size a
  inb_S40x1280_S1x64_4_896 : ∀ a, (![4, 896] : Fin 2 → Nat) a + S1x64.size a ≤ S40x1280.size a
  inb_S40x1280_S1x64_5_896 : ∀ a, (![5, 896] : Fin 2 → Nat) a + S1x64.size a ≤ S40x1280.size a
  inb_S40x1280_S1x64_6_896 : ∀ a, (![6, 896] : Fin 2 → Nat) a + S1x64.size a ≤ S40x1280.size a
  inb_S40x1280_S1x64_7_896 : ∀ a, (![7, 896] : Fin 2 → Nat) a + S1x64.size a ≤ S40x1280.size a
  inb_S40x1280_S1x64_8_896 : ∀ a, (![8, 896] : Fin 2 → Nat) a + S1x64.size a ≤ S40x1280.size a
  inb_S40x1280_S1x64_9_896 : ∀ a, (![9, 896] : Fin 2 → Nat) a + S1x64.size a ≤ S40x1280.size a
  inb_S40x1280_S1x64_10_896 : ∀ a, (![10, 896] : Fin 2 → Nat) a + S1x64.size a ≤ S40x1280.size a
  inb_S40x1280_S1x64_11_896 : ∀ a, (![11, 896] : Fin 2 → Nat) a + S1x64.size a ≤ S40x1280.size a
  inb_S40x1280_S1x64_12_896 : ∀ a, (![12, 896] : Fin 2 → Nat) a + S1x64.size a ≤ S40x1280.size a
  inb_S40x1280_S1x64_13_896 : ∀ a, (![13, 896] : Fin 2 → Nat) a + S1x64.size a ≤ S40x1280.size a
  inb_S40x1280_S1x64_14_896 : ∀ a, (![14, 896] : Fin 2 → Nat) a + S1x64.size a ≤ S40x1280.size a
  inb_S40x1280_S1x64_15_896 : ∀ a, (![15, 896] : Fin 2 → Nat) a + S1x64.size a ≤ S40x1280.size a
  inb_S40x1280_S1x64_16_896 : ∀ a, (![16, 896] : Fin 2 → Nat) a + S1x64.size a ≤ S40x1280.size a
  inb_S40x1280_S1x64_17_896 : ∀ a, (![17, 896] : Fin 2 → Nat) a + S1x64.size a ≤ S40x1280.size a
  inb_S40x1280_S1x64_18_896 : ∀ a, (![18, 896] : Fin 2 → Nat) a + S1x64.size a ≤ S40x1280.size a
  inb_S40x1280_S1x64_19_896 : ∀ a, (![19, 896] : Fin 2 → Nat) a + S1x64.size a ≤ S40x1280.size a
  inb_S40x1280_S1x64_20_896 : ∀ a, (![20, 896] : Fin 2 → Nat) a + S1x64.size a ≤ S40x1280.size a
  inb_S40x1280_S1x64_21_896 : ∀ a, (![21, 896] : Fin 2 → Nat) a + S1x64.size a ≤ S40x1280.size a
  inb_S40x1280_S1x64_22_896 : ∀ a, (![22, 896] : Fin 2 → Nat) a + S1x64.size a ≤ S40x1280.size a
  inb_S40x1280_S1x64_23_896 : ∀ a, (![23, 896] : Fin 2 → Nat) a + S1x64.size a ≤ S40x1280.size a
  inb_S40x1280_S1x64_24_896 : ∀ a, (![24, 896] : Fin 2 → Nat) a + S1x64.size a ≤ S40x1280.size a
  inb_S40x1280_S1x64_25_896 : ∀ a, (![25, 896] : Fin 2 → Nat) a + S1x64.size a ≤ S40x1280.size a
  inb_S40x1280_S1x64_26_896 : ∀ a, (![26, 896] : Fin 2 → Nat) a + S1x64.size a ≤ S40x1280.size a
  inb_S40x1280_S1x64_27_896 : ∀ a, (![27, 896] : Fin 2 → Nat) a + S1x64.size a ≤ S40x1280.size a
  inb_S40x1280_S1x64_28_896 : ∀ a, (![28, 896] : Fin 2 → Nat) a + S1x64.size a ≤ S40x1280.size a
  inb_S40x1280_S1x64_29_896 : ∀ a, (![29, 896] : Fin 2 → Nat) a + S1x64.size a ≤ S40x1280.size a
  inb_S40x1280_S1x64_30_896 : ∀ a, (![30, 896] : Fin 2 → Nat) a + S1x64.size a ≤ S40x1280.size a
  inb_S40x1280_S1x64_31_896 : ∀ a, (![31, 896] : Fin 2 → Nat) a + S1x64.size a ≤ S40x1280.size a
  inb_S40x1280_S1x64_32_896 : ∀ a, (![32, 896] : Fin 2 → Nat) a + S1x64.size a ≤ S40x1280.size a
  inb_S40x1280_S1x64_33_896 : ∀ a, (![33, 896] : Fin 2 → Nat) a + S1x64.size a ≤ S40x1280.size a
  inb_S40x1280_S1x64_34_896 : ∀ a, (![34, 896] : Fin 2 → Nat) a + S1x64.size a ≤ S40x1280.size a
  inb_S40x1280_S1x64_35_896 : ∀ a, (![35, 896] : Fin 2 → Nat) a + S1x64.size a ≤ S40x1280.size a
  inb_S40x1280_S1x64_36_896 : ∀ a, (![36, 896] : Fin 2 → Nat) a + S1x64.size a ≤ S40x1280.size a
  inb_S40x1280_S1x64_37_896 : ∀ a, (![37, 896] : Fin 2 → Nat) a + S1x64.size a ≤ S40x1280.size a
  inb_S40x1280_S1x64_38_896 : ∀ a, (![38, 896] : Fin 2 → Nat) a + S1x64.size a ≤ S40x1280.size a
  inb_S40x1280_S1x64_39_896 : ∀ a, (![39, 896] : Fin 2 → Nat) a + S1x64.size a ≤ S40x1280.size a
  inb_S1280x640_S64x640_896_0 : ∀ a, (![896, 0] : Fin 2 → Nat) a + S64x640.size a ≤ S1280x640.size a
  packedbf16_S1280x640_S64x640_896_0 : (Rect.unit (s := S1280x640) ![896, 0] S64x640.size inb_S1280x640_S64x640_896_0).PackedRows (EltTy.packing .bf16)
  inb_S40x1280_S1x64_0_960 : ∀ a, (![0, 960] : Fin 2 → Nat) a + S1x64.size a ≤ S40x1280.size a
  inb_S40x1280_S1x64_1_960 : ∀ a, (![1, 960] : Fin 2 → Nat) a + S1x64.size a ≤ S40x1280.size a
  inb_S40x1280_S1x64_2_960 : ∀ a, (![2, 960] : Fin 2 → Nat) a + S1x64.size a ≤ S40x1280.size a
  inb_S40x1280_S1x64_3_960 : ∀ a, (![3, 960] : Fin 2 → Nat) a + S1x64.size a ≤ S40x1280.size a
  inb_S40x1280_S1x64_4_960 : ∀ a, (![4, 960] : Fin 2 → Nat) a + S1x64.size a ≤ S40x1280.size a
  inb_S40x1280_S1x64_5_960 : ∀ a, (![5, 960] : Fin 2 → Nat) a + S1x64.size a ≤ S40x1280.size a
  inb_S40x1280_S1x64_6_960 : ∀ a, (![6, 960] : Fin 2 → Nat) a + S1x64.size a ≤ S40x1280.size a
  inb_S40x1280_S1x64_7_960 : ∀ a, (![7, 960] : Fin 2 → Nat) a + S1x64.size a ≤ S40x1280.size a
  inb_S40x1280_S1x64_8_960 : ∀ a, (![8, 960] : Fin 2 → Nat) a + S1x64.size a ≤ S40x1280.size a
  inb_S40x1280_S1x64_9_960 : ∀ a, (![9, 960] : Fin 2 → Nat) a + S1x64.size a ≤ S40x1280.size a
  inb_S40x1280_S1x64_10_960 : ∀ a, (![10, 960] : Fin 2 → Nat) a + S1x64.size a ≤ S40x1280.size a
  inb_S40x1280_S1x64_11_960 : ∀ a, (![11, 960] : Fin 2 → Nat) a + S1x64.size a ≤ S40x1280.size a
  inb_S40x1280_S1x64_12_960 : ∀ a, (![12, 960] : Fin 2 → Nat) a + S1x64.size a ≤ S40x1280.size a
  inb_S40x1280_S1x64_13_960 : ∀ a, (![13, 960] : Fin 2 → Nat) a + S1x64.size a ≤ S40x1280.size a
  inb_S40x1280_S1x64_14_960 : ∀ a, (![14, 960] : Fin 2 → Nat) a + S1x64.size a ≤ S40x1280.size a
  inb_S40x1280_S1x64_15_960 : ∀ a, (![15, 960] : Fin 2 → Nat) a + S1x64.size a ≤ S40x1280.size a
  inb_S40x1280_S1x64_16_960 : ∀ a, (![16, 960] : Fin 2 → Nat) a + S1x64.size a ≤ S40x1280.size a
  inb_S40x1280_S1x64_17_960 : ∀ a, (![17, 960] : Fin 2 → Nat) a + S1x64.size a ≤ S40x1280.size a
  inb_S40x1280_S1x64_18_960 : ∀ a, (![18, 960] : Fin 2 → Nat) a + S1x64.size a ≤ S40x1280.size a
  inb_S40x1280_S1x64_19_960 : ∀ a, (![19, 960] : Fin 2 → Nat) a + S1x64.size a ≤ S40x1280.size a
  inb_S40x1280_S1x64_20_960 : ∀ a, (![20, 960] : Fin 2 → Nat) a + S1x64.size a ≤ S40x1280.size a
  inb_S40x1280_S1x64_21_960 : ∀ a, (![21, 960] : Fin 2 → Nat) a + S1x64.size a ≤ S40x1280.size a
  inb_S40x1280_S1x64_22_960 : ∀ a, (![22, 960] : Fin 2 → Nat) a + S1x64.size a ≤ S40x1280.size a
  inb_S40x1280_S1x64_23_960 : ∀ a, (![23, 960] : Fin 2 → Nat) a + S1x64.size a ≤ S40x1280.size a
  inb_S40x1280_S1x64_24_960 : ∀ a, (![24, 960] : Fin 2 → Nat) a + S1x64.size a ≤ S40x1280.size a
  inb_S40x1280_S1x64_25_960 : ∀ a, (![25, 960] : Fin 2 → Nat) a + S1x64.size a ≤ S40x1280.size a
  inb_S40x1280_S1x64_26_960 : ∀ a, (![26, 960] : Fin 2 → Nat) a + S1x64.size a ≤ S40x1280.size a
  inb_S40x1280_S1x64_27_960 : ∀ a, (![27, 960] : Fin 2 → Nat) a + S1x64.size a ≤ S40x1280.size a
  inb_S40x1280_S1x64_28_960 : ∀ a, (![28, 960] : Fin 2 → Nat) a + S1x64.size a ≤ S40x1280.size a
  inb_S40x1280_S1x64_29_960 : ∀ a, (![29, 960] : Fin 2 → Nat) a + S1x64.size a ≤ S40x1280.size a
  inb_S40x1280_S1x64_30_960 : ∀ a, (![30, 960] : Fin 2 → Nat) a + S1x64.size a ≤ S40x1280.size a
  inb_S40x1280_S1x64_31_960 : ∀ a, (![31, 960] : Fin 2 → Nat) a + S1x64.size a ≤ S40x1280.size a
  inb_S40x1280_S1x64_32_960 : ∀ a, (![32, 960] : Fin 2 → Nat) a + S1x64.size a ≤ S40x1280.size a
  inb_S40x1280_S1x64_33_960 : ∀ a, (![33, 960] : Fin 2 → Nat) a + S1x64.size a ≤ S40x1280.size a
  inb_S40x1280_S1x64_34_960 : ∀ a, (![34, 960] : Fin 2 → Nat) a + S1x64.size a ≤ S40x1280.size a
  inb_S40x1280_S1x64_35_960 : ∀ a, (![35, 960] : Fin 2 → Nat) a + S1x64.size a ≤ S40x1280.size a
  inb_S40x1280_S1x64_36_960 : ∀ a, (![36, 960] : Fin 2 → Nat) a + S1x64.size a ≤ S40x1280.size a
  inb_S40x1280_S1x64_37_960 : ∀ a, (![37, 960] : Fin 2 → Nat) a + S1x64.size a ≤ S40x1280.size a
  inb_S40x1280_S1x64_38_960 : ∀ a, (![38, 960] : Fin 2 → Nat) a + S1x64.size a ≤ S40x1280.size a
  inb_S40x1280_S1x64_39_960 : ∀ a, (![39, 960] : Fin 2 → Nat) a + S1x64.size a ≤ S40x1280.size a
  inb_S1280x640_S64x640_960_0 : ∀ a, (![960, 0] : Fin 2 → Nat) a + S64x640.size a ≤ S1280x640.size a
  packedbf16_S1280x640_S64x640_960_0 : (Rect.unit (s := S1280x640) ![960, 0] S64x640.size inb_S1280x640_S64x640_960_0).PackedRows (EltTy.packing .bf16)
  inb_S40x1280_S1x64_0_1024 : ∀ a, (![0, 1024] : Fin 2 → Nat) a + S1x64.size a ≤ S40x1280.size a
  inb_S40x1280_S1x64_1_1024 : ∀ a, (![1, 1024] : Fin 2 → Nat) a + S1x64.size a ≤ S40x1280.size a
  inb_S40x1280_S1x64_2_1024 : ∀ a, (![2, 1024] : Fin 2 → Nat) a + S1x64.size a ≤ S40x1280.size a
  inb_S40x1280_S1x64_3_1024 : ∀ a, (![3, 1024] : Fin 2 → Nat) a + S1x64.size a ≤ S40x1280.size a
  inb_S40x1280_S1x64_4_1024 : ∀ a, (![4, 1024] : Fin 2 → Nat) a + S1x64.size a ≤ S40x1280.size a
  inb_S40x1280_S1x64_5_1024 : ∀ a, (![5, 1024] : Fin 2 → Nat) a + S1x64.size a ≤ S40x1280.size a
  inb_S40x1280_S1x64_6_1024 : ∀ a, (![6, 1024] : Fin 2 → Nat) a + S1x64.size a ≤ S40x1280.size a
  inb_S40x1280_S1x64_7_1024 : ∀ a, (![7, 1024] : Fin 2 → Nat) a + S1x64.size a ≤ S40x1280.size a
  inb_S40x1280_S1x64_8_1024 : ∀ a, (![8, 1024] : Fin 2 → Nat) a + S1x64.size a ≤ S40x1280.size a
  inb_S40x1280_S1x64_9_1024 : ∀ a, (![9, 1024] : Fin 2 → Nat) a + S1x64.size a ≤ S40x1280.size a
  inb_S40x1280_S1x64_10_1024 : ∀ a, (![10, 1024] : Fin 2 → Nat) a + S1x64.size a ≤ S40x1280.size a
  inb_S40x1280_S1x64_11_1024 : ∀ a, (![11, 1024] : Fin 2 → Nat) a + S1x64.size a ≤ S40x1280.size a
  inb_S40x1280_S1x64_12_1024 : ∀ a, (![12, 1024] : Fin 2 → Nat) a + S1x64.size a ≤ S40x1280.size a
  inb_S40x1280_S1x64_13_1024 : ∀ a, (![13, 1024] : Fin 2 → Nat) a + S1x64.size a ≤ S40x1280.size a
  inb_S40x1280_S1x64_14_1024 : ∀ a, (![14, 1024] : Fin 2 → Nat) a + S1x64.size a ≤ S40x1280.size a
  inb_S40x1280_S1x64_15_1024 : ∀ a, (![15, 1024] : Fin 2 → Nat) a + S1x64.size a ≤ S40x1280.size a
  inb_S40x1280_S1x64_16_1024 : ∀ a, (![16, 1024] : Fin 2 → Nat) a + S1x64.size a ≤ S40x1280.size a
  inb_S40x1280_S1x64_17_1024 : ∀ a, (![17, 1024] : Fin 2 → Nat) a + S1x64.size a ≤ S40x1280.size a
  inb_S40x1280_S1x64_18_1024 : ∀ a, (![18, 1024] : Fin 2 → Nat) a + S1x64.size a ≤ S40x1280.size a
  inb_S40x1280_S1x64_19_1024 : ∀ a, (![19, 1024] : Fin 2 → Nat) a + S1x64.size a ≤ S40x1280.size a
  inb_S40x1280_S1x64_20_1024 : ∀ a, (![20, 1024] : Fin 2 → Nat) a + S1x64.size a ≤ S40x1280.size a
  inb_S40x1280_S1x64_21_1024 : ∀ a, (![21, 1024] : Fin 2 → Nat) a + S1x64.size a ≤ S40x1280.size a
  inb_S40x1280_S1x64_22_1024 : ∀ a, (![22, 1024] : Fin 2 → Nat) a + S1x64.size a ≤ S40x1280.size a
  inb_S40x1280_S1x64_23_1024 : ∀ a, (![23, 1024] : Fin 2 → Nat) a + S1x64.size a ≤ S40x1280.size a
  inb_S40x1280_S1x64_24_1024 : ∀ a, (![24, 1024] : Fin 2 → Nat) a + S1x64.size a ≤ S40x1280.size a
  inb_S40x1280_S1x64_25_1024 : ∀ a, (![25, 1024] : Fin 2 → Nat) a + S1x64.size a ≤ S40x1280.size a
  inb_S40x1280_S1x64_26_1024 : ∀ a, (![26, 1024] : Fin 2 → Nat) a + S1x64.size a ≤ S40x1280.size a
  inb_S40x1280_S1x64_27_1024 : ∀ a, (![27, 1024] : Fin 2 → Nat) a + S1x64.size a ≤ S40x1280.size a
  inb_S40x1280_S1x64_28_1024 : ∀ a, (![28, 1024] : Fin 2 → Nat) a + S1x64.size a ≤ S40x1280.size a
  inb_S40x1280_S1x64_29_1024 : ∀ a, (![29, 1024] : Fin 2 → Nat) a + S1x64.size a ≤ S40x1280.size a
  inb_S40x1280_S1x64_30_1024 : ∀ a, (![30, 1024] : Fin 2 → Nat) a + S1x64.size a ≤ S40x1280.size a
  inb_S40x1280_S1x64_31_1024 : ∀ a, (![31, 1024] : Fin 2 → Nat) a + S1x64.size a ≤ S40x1280.size a
  inb_S40x1280_S1x64_32_1024 : ∀ a, (![32, 1024] : Fin 2 → Nat) a + S1x64.size a ≤ S40x1280.size a
  inb_S40x1280_S1x64_33_1024 : ∀ a, (![33, 1024] : Fin 2 → Nat) a + S1x64.size a ≤ S40x1280.size a
  inb_S40x1280_S1x64_34_1024 : ∀ a, (![34, 1024] : Fin 2 → Nat) a + S1x64.size a ≤ S40x1280.size a
  inb_S40x1280_S1x64_35_1024 : ∀ a, (![35, 1024] : Fin 2 → Nat) a + S1x64.size a ≤ S40x1280.size a
  inb_S40x1280_S1x64_36_1024 : ∀ a, (![36, 1024] : Fin 2 → Nat) a + S1x64.size a ≤ S40x1280.size a
  inb_S40x1280_S1x64_37_1024 : ∀ a, (![37, 1024] : Fin 2 → Nat) a + S1x64.size a ≤ S40x1280.size a
  inb_S40x1280_S1x64_38_1024 : ∀ a, (![38, 1024] : Fin 2 → Nat) a + S1x64.size a ≤ S40x1280.size a
  inb_S40x1280_S1x64_39_1024 : ∀ a, (![39, 1024] : Fin 2 → Nat) a + S1x64.size a ≤ S40x1280.size a
  inb_S1280x640_S64x640_1024_0 : ∀ a, (![1024, 0] : Fin 2 → Nat) a + S64x640.size a ≤ S1280x640.size a
  packedbf16_S1280x640_S64x640_1024_0 : (Rect.unit (s := S1280x640) ![1024, 0] S64x640.size inb_S1280x640_S64x640_1024_0).PackedRows (EltTy.packing .bf16)
  inb_S40x1280_S1x64_0_1088 : ∀ a, (![0, 1088] : Fin 2 → Nat) a + S1x64.size a ≤ S40x1280.size a
  inb_S40x1280_S1x64_1_1088 : ∀ a, (![1, 1088] : Fin 2 → Nat) a + S1x64.size a ≤ S40x1280.size a
  inb_S40x1280_S1x64_2_1088 : ∀ a, (![2, 1088] : Fin 2 → Nat) a + S1x64.size a ≤ S40x1280.size a
  inb_S40x1280_S1x64_3_1088 : ∀ a, (![3, 1088] : Fin 2 → Nat) a + S1x64.size a ≤ S40x1280.size a
  inb_S40x1280_S1x64_4_1088 : ∀ a, (![4, 1088] : Fin 2 → Nat) a + S1x64.size a ≤ S40x1280.size a
  inb_S40x1280_S1x64_5_1088 : ∀ a, (![5, 1088] : Fin 2 → Nat) a + S1x64.size a ≤ S40x1280.size a
  inb_S40x1280_S1x64_6_1088 : ∀ a, (![6, 1088] : Fin 2 → Nat) a + S1x64.size a ≤ S40x1280.size a
  inb_S40x1280_S1x64_7_1088 : ∀ a, (![7, 1088] : Fin 2 → Nat) a + S1x64.size a ≤ S40x1280.size a
  inb_S40x1280_S1x64_8_1088 : ∀ a, (![8, 1088] : Fin 2 → Nat) a + S1x64.size a ≤ S40x1280.size a
  inb_S40x1280_S1x64_9_1088 : ∀ a, (![9, 1088] : Fin 2 → Nat) a + S1x64.size a ≤ S40x1280.size a
  inb_S40x1280_S1x64_10_1088 : ∀ a, (![10, 1088] : Fin 2 → Nat) a + S1x64.size a ≤ S40x1280.size a
  inb_S40x1280_S1x64_11_1088 : ∀ a, (![11, 1088] : Fin 2 → Nat) a + S1x64.size a ≤ S40x1280.size a
  inb_S40x1280_S1x64_12_1088 : ∀ a, (![12, 1088] : Fin 2 → Nat) a + S1x64.size a ≤ S40x1280.size a
  inb_S40x1280_S1x64_13_1088 : ∀ a, (![13, 1088] : Fin 2 → Nat) a + S1x64.size a ≤ S40x1280.size a
  inb_S40x1280_S1x64_14_1088 : ∀ a, (![14, 1088] : Fin 2 → Nat) a + S1x64.size a ≤ S40x1280.size a
  inb_S40x1280_S1x64_15_1088 : ∀ a, (![15, 1088] : Fin 2 → Nat) a + S1x64.size a ≤ S40x1280.size a
  inb_S40x1280_S1x64_16_1088 : ∀ a, (![16, 1088] : Fin 2 → Nat) a + S1x64.size a ≤ S40x1280.size a
  inb_S40x1280_S1x64_17_1088 : ∀ a, (![17, 1088] : Fin 2 → Nat) a + S1x64.size a ≤ S40x1280.size a
  inb_S40x1280_S1x64_18_1088 : ∀ a, (![18, 1088] : Fin 2 → Nat) a + S1x64.size a ≤ S40x1280.size a
  inb_S40x1280_S1x64_19_1088 : ∀ a, (![19, 1088] : Fin 2 → Nat) a + S1x64.size a ≤ S40x1280.size a
  inb_S40x1280_S1x64_20_1088 : ∀ a, (![20, 1088] : Fin 2 → Nat) a + S1x64.size a ≤ S40x1280.size a
  inb_S40x1280_S1x64_21_1088 : ∀ a, (![21, 1088] : Fin 2 → Nat) a + S1x64.size a ≤ S40x1280.size a
  inb_S40x1280_S1x64_22_1088 : ∀ a, (![22, 1088] : Fin 2 → Nat) a + S1x64.size a ≤ S40x1280.size a
  inb_S40x1280_S1x64_23_1088 : ∀ a, (![23, 1088] : Fin 2 → Nat) a + S1x64.size a ≤ S40x1280.size a
  inb_S40x1280_S1x64_24_1088 : ∀ a, (![24, 1088] : Fin 2 → Nat) a + S1x64.size a ≤ S40x1280.size a
  inb_S40x1280_S1x64_25_1088 : ∀ a, (![25, 1088] : Fin 2 → Nat) a + S1x64.size a ≤ S40x1280.size a
  inb_S40x1280_S1x64_26_1088 : ∀ a, (![26, 1088] : Fin 2 → Nat) a + S1x64.size a ≤ S40x1280.size a
  inb_S40x1280_S1x64_27_1088 : ∀ a, (![27, 1088] : Fin 2 → Nat) a + S1x64.size a ≤ S40x1280.size a
  inb_S40x1280_S1x64_28_1088 : ∀ a, (![28, 1088] : Fin 2 → Nat) a + S1x64.size a ≤ S40x1280.size a
  inb_S40x1280_S1x64_29_1088 : ∀ a, (![29, 1088] : Fin 2 → Nat) a + S1x64.size a ≤ S40x1280.size a
  inb_S40x1280_S1x64_30_1088 : ∀ a, (![30, 1088] : Fin 2 → Nat) a + S1x64.size a ≤ S40x1280.size a
  inb_S40x1280_S1x64_31_1088 : ∀ a, (![31, 1088] : Fin 2 → Nat) a + S1x64.size a ≤ S40x1280.size a
  inb_S40x1280_S1x64_32_1088 : ∀ a, (![32, 1088] : Fin 2 → Nat) a + S1x64.size a ≤ S40x1280.size a
  inb_S40x1280_S1x64_33_1088 : ∀ a, (![33, 1088] : Fin 2 → Nat) a + S1x64.size a ≤ S40x1280.size a
  inb_S40x1280_S1x64_34_1088 : ∀ a, (![34, 1088] : Fin 2 → Nat) a + S1x64.size a ≤ S40x1280.size a
  inb_S40x1280_S1x64_35_1088 : ∀ a, (![35, 1088] : Fin 2 → Nat) a + S1x64.size a ≤ S40x1280.size a
  inb_S40x1280_S1x64_36_1088 : ∀ a, (![36, 1088] : Fin 2 → Nat) a + S1x64.size a ≤ S40x1280.size a
  inb_S40x1280_S1x64_37_1088 : ∀ a, (![37, 1088] : Fin 2 → Nat) a + S1x64.size a ≤ S40x1280.size a
  inb_S40x1280_S1x64_38_1088 : ∀ a, (![38, 1088] : Fin 2 → Nat) a + S1x64.size a ≤ S40x1280.size a
  inb_S40x1280_S1x64_39_1088 : ∀ a, (![39, 1088] : Fin 2 → Nat) a + S1x64.size a ≤ S40x1280.size a
  inb_S1280x640_S64x640_1088_0 : ∀ a, (![1088, 0] : Fin 2 → Nat) a + S64x640.size a ≤ S1280x640.size a
  packedbf16_S1280x640_S64x640_1088_0 : (Rect.unit (s := S1280x640) ![1088, 0] S64x640.size inb_S1280x640_S64x640_1088_0).PackedRows (EltTy.packing .bf16)
  inb_S40x1280_S1x64_0_1152 : ∀ a, (![0, 1152] : Fin 2 → Nat) a + S1x64.size a ≤ S40x1280.size a
  inb_S40x1280_S1x64_1_1152 : ∀ a, (![1, 1152] : Fin 2 → Nat) a + S1x64.size a ≤ S40x1280.size a
  inb_S40x1280_S1x64_2_1152 : ∀ a, (![2, 1152] : Fin 2 → Nat) a + S1x64.size a ≤ S40x1280.size a
  inb_S40x1280_S1x64_3_1152 : ∀ a, (![3, 1152] : Fin 2 → Nat) a + S1x64.size a ≤ S40x1280.size a
  inb_S40x1280_S1x64_4_1152 : ∀ a, (![4, 1152] : Fin 2 → Nat) a + S1x64.size a ≤ S40x1280.size a
  inb_S40x1280_S1x64_5_1152 : ∀ a, (![5, 1152] : Fin 2 → Nat) a + S1x64.size a ≤ S40x1280.size a
  inb_S40x1280_S1x64_6_1152 : ∀ a, (![6, 1152] : Fin 2 → Nat) a + S1x64.size a ≤ S40x1280.size a
  inb_S40x1280_S1x64_7_1152 : ∀ a, (![7, 1152] : Fin 2 → Nat) a + S1x64.size a ≤ S40x1280.size a
  inb_S40x1280_S1x64_8_1152 : ∀ a, (![8, 1152] : Fin 2 → Nat) a + S1x64.size a ≤ S40x1280.size a
  inb_S40x1280_S1x64_9_1152 : ∀ a, (![9, 1152] : Fin 2 → Nat) a + S1x64.size a ≤ S40x1280.size a
  inb_S40x1280_S1x64_10_1152 : ∀ a, (![10, 1152] : Fin 2 → Nat) a + S1x64.size a ≤ S40x1280.size a
  inb_S40x1280_S1x64_11_1152 : ∀ a, (![11, 1152] : Fin 2 → Nat) a + S1x64.size a ≤ S40x1280.size a
  inb_S40x1280_S1x64_12_1152 : ∀ a, (![12, 1152] : Fin 2 → Nat) a + S1x64.size a ≤ S40x1280.size a
  inb_S40x1280_S1x64_13_1152 : ∀ a, (![13, 1152] : Fin 2 → Nat) a + S1x64.size a ≤ S40x1280.size a
  inb_S40x1280_S1x64_14_1152 : ∀ a, (![14, 1152] : Fin 2 → Nat) a + S1x64.size a ≤ S40x1280.size a
  inb_S40x1280_S1x64_15_1152 : ∀ a, (![15, 1152] : Fin 2 → Nat) a + S1x64.size a ≤ S40x1280.size a
  inb_S40x1280_S1x64_16_1152 : ∀ a, (![16, 1152] : Fin 2 → Nat) a + S1x64.size a ≤ S40x1280.size a
  inb_S40x1280_S1x64_17_1152 : ∀ a, (![17, 1152] : Fin 2 → Nat) a + S1x64.size a ≤ S40x1280.size a
  inb_S40x1280_S1x64_18_1152 : ∀ a, (![18, 1152] : Fin 2 → Nat) a + S1x64.size a ≤ S40x1280.size a
  inb_S40x1280_S1x64_19_1152 : ∀ a, (![19, 1152] : Fin 2 → Nat) a + S1x64.size a ≤ S40x1280.size a
  inb_S40x1280_S1x64_20_1152 : ∀ a, (![20, 1152] : Fin 2 → Nat) a + S1x64.size a ≤ S40x1280.size a
  inb_S40x1280_S1x64_21_1152 : ∀ a, (![21, 1152] : Fin 2 → Nat) a + S1x64.size a ≤ S40x1280.size a
  inb_S40x1280_S1x64_22_1152 : ∀ a, (![22, 1152] : Fin 2 → Nat) a + S1x64.size a ≤ S40x1280.size a
  inb_S40x1280_S1x64_23_1152 : ∀ a, (![23, 1152] : Fin 2 → Nat) a + S1x64.size a ≤ S40x1280.size a
  inb_S40x1280_S1x64_24_1152 : ∀ a, (![24, 1152] : Fin 2 → Nat) a + S1x64.size a ≤ S40x1280.size a
  inb_S40x1280_S1x64_25_1152 : ∀ a, (![25, 1152] : Fin 2 → Nat) a + S1x64.size a ≤ S40x1280.size a
  inb_S40x1280_S1x64_26_1152 : ∀ a, (![26, 1152] : Fin 2 → Nat) a + S1x64.size a ≤ S40x1280.size a
  inb_S40x1280_S1x64_27_1152 : ∀ a, (![27, 1152] : Fin 2 → Nat) a + S1x64.size a ≤ S40x1280.size a
  inb_S40x1280_S1x64_28_1152 : ∀ a, (![28, 1152] : Fin 2 → Nat) a + S1x64.size a ≤ S40x1280.size a
  inb_S40x1280_S1x64_29_1152 : ∀ a, (![29, 1152] : Fin 2 → Nat) a + S1x64.size a ≤ S40x1280.size a
  inb_S40x1280_S1x64_30_1152 : ∀ a, (![30, 1152] : Fin 2 → Nat) a + S1x64.size a ≤ S40x1280.size a
  inb_S40x1280_S1x64_31_1152 : ∀ a, (![31, 1152] : Fin 2 → Nat) a + S1x64.size a ≤ S40x1280.size a
  inb_S40x1280_S1x64_32_1152 : ∀ a, (![32, 1152] : Fin 2 → Nat) a + S1x64.size a ≤ S40x1280.size a
  inb_S40x1280_S1x64_33_1152 : ∀ a, (![33, 1152] : Fin 2 → Nat) a + S1x64.size a ≤ S40x1280.size a
  inb_S40x1280_S1x64_34_1152 : ∀ a, (![34, 1152] : Fin 2 → Nat) a + S1x64.size a ≤ S40x1280.size a
  inb_S40x1280_S1x64_35_1152 : ∀ a, (![35, 1152] : Fin 2 → Nat) a + S1x64.size a ≤ S40x1280.size a
  inb_S40x1280_S1x64_36_1152 : ∀ a, (![36, 1152] : Fin 2 → Nat) a + S1x64.size a ≤ S40x1280.size a
  inb_S40x1280_S1x64_37_1152 : ∀ a, (![37, 1152] : Fin 2 → Nat) a + S1x64.size a ≤ S40x1280.size a
  inb_S40x1280_S1x64_38_1152 : ∀ a, (![38, 1152] : Fin 2 → Nat) a + S1x64.size a ≤ S40x1280.size a
  inb_S40x1280_S1x64_39_1152 : ∀ a, (![39, 1152] : Fin 2 → Nat) a + S1x64.size a ≤ S40x1280.size a
  inb_S1280x640_S64x640_1152_0 : ∀ a, (![1152, 0] : Fin 2 → Nat) a + S64x640.size a ≤ S1280x640.size a
  packedbf16_S1280x640_S64x640_1152_0 : (Rect.unit (s := S1280x640) ![1152, 0] S64x640.size inb_S1280x640_S64x640_1152_0).PackedRows (EltTy.packing .bf16)
  inb_S40x1280_S1x64_0_1216 : ∀ a, (![0, 1216] : Fin 2 → Nat) a + S1x64.size a ≤ S40x1280.size a
  inb_S40x1280_S1x64_1_1216 : ∀ a, (![1, 1216] : Fin 2 → Nat) a + S1x64.size a ≤ S40x1280.size a
  inb_S40x1280_S1x64_2_1216 : ∀ a, (![2, 1216] : Fin 2 → Nat) a + S1x64.size a ≤ S40x1280.size a
  inb_S40x1280_S1x64_3_1216 : ∀ a, (![3, 1216] : Fin 2 → Nat) a + S1x64.size a ≤ S40x1280.size a
  inb_S40x1280_S1x64_4_1216 : ∀ a, (![4, 1216] : Fin 2 → Nat) a + S1x64.size a ≤ S40x1280.size a
  inb_S40x1280_S1x64_5_1216 : ∀ a, (![5, 1216] : Fin 2 → Nat) a + S1x64.size a ≤ S40x1280.size a
  inb_S40x1280_S1x64_6_1216 : ∀ a, (![6, 1216] : Fin 2 → Nat) a + S1x64.size a ≤ S40x1280.size a
  inb_S40x1280_S1x64_7_1216 : ∀ a, (![7, 1216] : Fin 2 → Nat) a + S1x64.size a ≤ S40x1280.size a
  inb_S40x1280_S1x64_8_1216 : ∀ a, (![8, 1216] : Fin 2 → Nat) a + S1x64.size a ≤ S40x1280.size a
  inb_S40x1280_S1x64_9_1216 : ∀ a, (![9, 1216] : Fin 2 → Nat) a + S1x64.size a ≤ S40x1280.size a
  inb_S40x1280_S1x64_10_1216 : ∀ a, (![10, 1216] : Fin 2 → Nat) a + S1x64.size a ≤ S40x1280.size a
  inb_S40x1280_S1x64_11_1216 : ∀ a, (![11, 1216] : Fin 2 → Nat) a + S1x64.size a ≤ S40x1280.size a
  inb_S40x1280_S1x64_12_1216 : ∀ a, (![12, 1216] : Fin 2 → Nat) a + S1x64.size a ≤ S40x1280.size a
  inb_S40x1280_S1x64_13_1216 : ∀ a, (![13, 1216] : Fin 2 → Nat) a + S1x64.size a ≤ S40x1280.size a
  inb_S40x1280_S1x64_14_1216 : ∀ a, (![14, 1216] : Fin 2 → Nat) a + S1x64.size a ≤ S40x1280.size a
  inb_S40x1280_S1x64_15_1216 : ∀ a, (![15, 1216] : Fin 2 → Nat) a + S1x64.size a ≤ S40x1280.size a
  inb_S40x1280_S1x64_16_1216 : ∀ a, (![16, 1216] : Fin 2 → Nat) a + S1x64.size a ≤ S40x1280.size a
  inb_S40x1280_S1x64_17_1216 : ∀ a, (![17, 1216] : Fin 2 → Nat) a + S1x64.size a ≤ S40x1280.size a
  inb_S40x1280_S1x64_18_1216 : ∀ a, (![18, 1216] : Fin 2 → Nat) a + S1x64.size a ≤ S40x1280.size a
  inb_S40x1280_S1x64_19_1216 : ∀ a, (![19, 1216] : Fin 2 → Nat) a + S1x64.size a ≤ S40x1280.size a
  inb_S40x1280_S1x64_20_1216 : ∀ a, (![20, 1216] : Fin 2 → Nat) a + S1x64.size a ≤ S40x1280.size a
  inb_S40x1280_S1x64_21_1216 : ∀ a, (![21, 1216] : Fin 2 → Nat) a + S1x64.size a ≤ S40x1280.size a
  inb_S40x1280_S1x64_22_1216 : ∀ a, (![22, 1216] : Fin 2 → Nat) a + S1x64.size a ≤ S40x1280.size a
  inb_S40x1280_S1x64_23_1216 : ∀ a, (![23, 1216] : Fin 2 → Nat) a + S1x64.size a ≤ S40x1280.size a
  inb_S40x1280_S1x64_24_1216 : ∀ a, (![24, 1216] : Fin 2 → Nat) a + S1x64.size a ≤ S40x1280.size a
  inb_S40x1280_S1x64_25_1216 : ∀ a, (![25, 1216] : Fin 2 → Nat) a + S1x64.size a ≤ S40x1280.size a
  inb_S40x1280_S1x64_26_1216 : ∀ a, (![26, 1216] : Fin 2 → Nat) a + S1x64.size a ≤ S40x1280.size a
  inb_S40x1280_S1x64_27_1216 : ∀ a, (![27, 1216] : Fin 2 → Nat) a + S1x64.size a ≤ S40x1280.size a
  inb_S40x1280_S1x64_28_1216 : ∀ a, (![28, 1216] : Fin 2 → Nat) a + S1x64.size a ≤ S40x1280.size a
  inb_S40x1280_S1x64_29_1216 : ∀ a, (![29, 1216] : Fin 2 → Nat) a + S1x64.size a ≤ S40x1280.size a
  inb_S40x1280_S1x64_30_1216 : ∀ a, (![30, 1216] : Fin 2 → Nat) a + S1x64.size a ≤ S40x1280.size a
  inb_S40x1280_S1x64_31_1216 : ∀ a, (![31, 1216] : Fin 2 → Nat) a + S1x64.size a ≤ S40x1280.size a
  inb_S40x1280_S1x64_32_1216 : ∀ a, (![32, 1216] : Fin 2 → Nat) a + S1x64.size a ≤ S40x1280.size a
  inb_S40x1280_S1x64_33_1216 : ∀ a, (![33, 1216] : Fin 2 → Nat) a + S1x64.size a ≤ S40x1280.size a
  inb_S40x1280_S1x64_34_1216 : ∀ a, (![34, 1216] : Fin 2 → Nat) a + S1x64.size a ≤ S40x1280.size a
  inb_S40x1280_S1x64_35_1216 : ∀ a, (![35, 1216] : Fin 2 → Nat) a + S1x64.size a ≤ S40x1280.size a
  inb_S40x1280_S1x64_36_1216 : ∀ a, (![36, 1216] : Fin 2 → Nat) a + S1x64.size a ≤ S40x1280.size a
  inb_S40x1280_S1x64_37_1216 : ∀ a, (![37, 1216] : Fin 2 → Nat) a + S1x64.size a ≤ S40x1280.size a
  inb_S40x1280_S1x64_38_1216 : ∀ a, (![38, 1216] : Fin 2 → Nat) a + S1x64.size a ≤ S40x1280.size a
  inb_S40x1280_S1x64_39_1216 : ∀ a, (![39, 1216] : Fin 2 → Nat) a + S1x64.size a ≤ S40x1280.size a
  inb_S1280x640_S64x640_1216_0 : ∀ a, (![1216, 0] : Fin 2 → Nat) a + S64x640.size a ≤ S1280x640.size a
  packedbf16_S1280x640_S64x640_1216_0 : (Rect.unit (s := S1280x640) ![1216, 0] S64x640.size inb_S1280x640_S64x640_1216_0).PackedRows (EltTy.packing .bf16)
  inb_S1280x640_S1280x640_0_0 : ∀ a, (![0, 0] : Fin 2 → Nat) a + S1280x640.size a ≤ S1280x640.size a
  h_S1280x640 : 0 < S1280x640.numel
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S1280x32_S1280x32_0_0 : ∀ a, (![0, 0] : Fin 2 → Nat) a + S1280x32.size a ≤ S1280x32.size a
  h_S1280x32 : 0 < S1280x32.numel
  shapeCasts_S1280x32_S1280x32 : S1280x32.ShapeCasts S1280x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S1280x512_S1280x512_0_0 : ∀ a, (![0, 0] : Fin 2 → Nat) a + S1280x512.size a ≤ S1280x512.size a
  h_S1280x512 : 0 < S1280x512.numel
  shapeCasts_S12800x512_S64x200x512 : S12800x512.ShapeCasts S64x200x512
  dot_S1280x640_S640x512_S1280x512_1_0_0_1_n_n_wf : DotDims.WF S1280x640 S640x512 S1280x512 [1] [0] [0] [1] [] []
  dot_S1280x32_S32x512_S1280x512_1_0_0_1_n_n_wf : DotDims.WF S1280x32 S32x512 S1280x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x1280.size a ≤ S40x12800.size a
  hwx0_0 : ∀ i : grid0.Coords, EltTy.bits .i32 = 32 ∨ (Rect.block (s := S40x12800) S40x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x32.size a ≤ S12800x32.size a
  hwx0_1 : ∀ i : grid0.Coords, EltTy.bits .f32 = 32 ∨ (Rect.block (s := S12800x32) S1280x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x512.size a ≤ S640x512.size a
  hwx0_2 : ∀ i : grid0.Coords, EltTy.bits .f32 = 32 ∨ (Rect.block (s := S640x512) S640x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x512.size a ≤ S12800x512.size a
  hwx0_5 : ∀ i : grid0.Coords, EltTy.bits .f32 = 32 ∨ (Rect.block (s := S12800x512) S1280x512.size (cc0_transform_5 i) (hinb0_5 i)).WholeWords (EltTy.packing .f32)

variable [Facts₀]

def dot_S1280x640_S640x512_S1280x512_1_0_0_1_n_n : DotDims S1280x640 S640x512 S1280x512 where
  lhsContracting := [1]
  rhsContracting := [0]
  lhsNonContracting := [0]
  rhsNonContracting := [1]
  lhsBatch := []
  rhsBatch := []
  wf := dot_S1280x640_S640x512_S1280x512_1_0_0_1_n_n_wf
def dot_S1280x32_S32x512_S1280x512_1_0_0_1_n_n : DotDims S1280x32 S32x512 S1280x512 where
  lhsContracting := [1]
  rhsContracting := [0]
  lhsNonContracting := [0]
  rhsNonContracting := [1]
  lhsBatch := []
  rhsBatch := []
  wf := dot_S1280x32_S32x512_S1280x512_1_0_0_1_n_n_wf

abbrev win0_0 : Pipeline.Window sig grid0 :=
  Pipeline.Window.ofSpec (Memref.whole main_v1) S40x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S640x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1280x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x200x40 : Shape := ⟨3, ![64, 200, 40]⟩
abbrev S64x200x32 : Shape := ⟨3, ![64, 200, 32]⟩
abbrev S64 : Shape := ⟨1, ![64]⟩
abbrev S558x512 : Shape := ⟨2, ![558, 512]⟩
abbrev S512 : Shape := ⟨1, ![512]⟩
abbrev S12800 : Shape := ⟨1, ![12800]⟩
abbrev S12800x40 : Shape := ⟨2, ![12800, 40]⟩
abbrev S512000 : Shape := ⟨1, ![512000]⟩
abbrev S_ : Shape := ⟨0, ![]⟩
abbrev S12800x526 : Shape := ⟨2, ![12800, 526]⟩
abbrev S512000x1 : Shape := ⟨2, ![512000, 1]⟩
abbrev S512000x2 : Shape := ⟨2, ![512000, 2]⟩
abbrev S64x200x526 : Shape := ⟨3, ![64, 200, 526]⟩
abbrev S64x200x558 : Shape := ⟨3, ![64, 200, 558]⟩
abbrev S64x200x512 : Shape := ⟨3, ![64, 200, 512]⟩
abbrev S1x1x512 : Shape := ⟨3, ![1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S64x200x40, .i32⟩
  | .hbm, ⟨1, _⟩ => ⟨S64x200x32, .f32⟩
  | .hbm, ⟨2, _⟩ => ⟨S64, .i32⟩
  | .hbm, ⟨3, _⟩ => ⟨S558x512, .f32⟩
  | .hbm, ⟨4, _⟩ => ⟨S512, .f32⟩
  | .hbm, ⟨5, _⟩ => ⟨S12800, .i32⟩
  | .hbm, ⟨6, _⟩ => ⟨S12800x40, .i32⟩
  | .hbm, ⟨7, _⟩ => ⟨S512000, .i32⟩
  | .hbm, ⟨8, _⟩ => ⟨S_, .f32⟩
  | .hbm, ⟨9, _⟩ => ⟨S12800x526, .f32⟩
  | .hbm, ⟨10, _⟩ => ⟨S512000, .i32⟩
  | .hbm, ⟨11, _⟩ => ⟨S_, .i32⟩
  | .hbm, ⟨12, _⟩ => ⟨S512000, .i32⟩
  | .hbm, ⟨13, _⟩ => ⟨S512000, .i1⟩
  | .hbm, ⟨14, _⟩ => ⟨S_, .i32⟩
  | .hbm, ⟨15, _⟩ => ⟨S512000, .i32⟩
  | .hbm, ⟨16, _⟩ => ⟨S512000, .i32⟩
  | .hbm, ⟨17, _⟩ => ⟨S512000, .i32⟩
  | .hbm, ⟨18, _⟩ => ⟨S_, .i32⟩
  | .hbm, ⟨19, _⟩ => ⟨S512000, .i32⟩
  | .hbm, ⟨20, _⟩ => ⟨S512000, .i1⟩
  | .hbm, ⟨21, _⟩ => ⟨S_, .i32⟩
  | .hbm, ⟨22, _⟩ => ⟨S512000, .i32⟩
  | .hbm, ⟨23, _⟩ => ⟨S512000, .i32⟩
  | .hbm, ⟨24, _⟩ => ⟨S512000, .i32⟩
  | .hbm, ⟨25, _⟩ => ⟨S512000x1, .i32⟩
  | .hbm, ⟨26, _⟩ => ⟨S512000x1, .i32⟩
  | .hbm, ⟨27, _⟩ => ⟨S512000x2, .i32⟩
  | .hbm, ⟨28, _⟩ => ⟨S_, .f32⟩
  | .hbm, ⟨29, _⟩ => ⟨S512000, .f32⟩
  | .hbm, ⟨30, _⟩ => ⟨S12800x526, .f32⟩
  | .hbm, ⟨31, _⟩ => ⟨S64x200x526, .f32⟩
  | .hbm, ⟨32, _⟩ => ⟨S64x200x558, .f32⟩
  | .hbm, ⟨33, _⟩ => ⟨S64x200x512, .f32⟩
  | .hbm, ⟨34, _⟩ => ⟨S1x1x512, .f32⟩
  | .hbm, ⟨35, _⟩ => ⟨S64x200x512, .f32⟩
  | .hbm, ⟨36, _⟩ => ⟨S64x200x512, .f32⟩
  | _, _ => ⟨S64x200x40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S12800_S12800x40_0 : S12800.BroadcastsInDim S12800x40 (![0] : Fin 1 → Fin S12800x40.rank)
  shapeCasts_S12800x40_S512000 : S12800x40.ShapeCasts S512000
  bcast_S_S12800x526 : S_.BroadcastsInDim S12800x526 (![] : Fin 0 → Fin S12800x526.rank)
  shapeCasts_S64x200x40_S512000 : S64x200x40.ShapeCasts S512000
  bcast_S_S512000 : S_.BroadcastsInDim S512000 (![] : Fin 0 → Fin S512000.rank)
  bcast_S512000_S512000x1_0 : S512000.BroadcastsInDim S512000x1 (![0] : Fin 1 → Fin S512000x1.rank)
  concatenates_S512000x1_S512000x1_S512000x2_d1 : Shape.Concatenates [S512000x1, S512000x1] S512000x2 1
  shapeCasts_S12800x526_S64x200x526 : S12800x526.ShapeCasts S64x200x526
  concatenates_S64x200x526_S64x200x32_S64x200x558_d2 : Shape.Concatenates [S64x200x526, S64x200x32] S64x200x558 2
  bcast_S512_S1x1x512_2 : S512.BroadcastsInDim S1x1x512 (![2] : Fin 1 → Fin S1x1x512.rank)
  bcast_S1x1x512_S64x200x512_0_1_2 : S1x1x512.BroadcastsInDim S64x200x512 (![0, 1, 2] : Fin 3 → Fin S64x200x512.rank)
  scatter_S12800x526_S512000x2_S512000_n_01_01_1_wf : ScatterDims.WF S12800x526 S512000x2 S512000 [] [0, 1] [0, 1] 1
  dot_S64x200x558_S558x512_S64x200x512_2_0_01_1_n_n_wf : DotDims.WF S64x200x558 S558x512 S64x200x512 [2] [0] [0, 1] [1] [] []

variable [Facts₀]

def scatter_S12800x526_S512000x2_S512000_n_01_01_1 : ScatterDims S12800x526 S512000x2 S512000 where
  updateWindowDims := []
  insertedWindowDims := [0, 1]
  scatterDimsToOperandDims := [0, 1]
  indexVectorDim := 1
  wf := scatter_S12800x526_S512000x2_S512000_n_01_01_1_wf
def dot_S64x200x558_S558x512_S64x200x512_2_0_01_1_n_n : DotDims S64x200x558 S558x512 S64x200x512 where
  lhsContracting := [2]
  rhsContracting := [0]
  lhsNonContracting := [0, 1]
  rhsNonContracting := [1]
  lhsBatch := []
  rhsBatch := []
  wf := dot_S64x200x558_S558x512_S64x200x512_2_0_01_1_n_n_wf

class Facts : Prop extends Facts₀ where

variable [Facts]
-- ==== Proof.Spec.lean ====
/-
  What both programs compute, as ONE function of the argument arrays.

  Row `(b, t)` of `code` holds forty integer words, the slots of a bag. Column `j` of the bag's multi-hot
  vector counts the slots whose word is `j`: `count code b t j = ∑ k, hit (code (b, t, k)) j`, where `hit w j`
  is one when the word `w` is the number `j` and zero otherwise. The feature vector of the row is the 526 counts
  followed by the 32 entries of `others`, and the result is its product with `W` plus the bias:

    `G (b, t, d) = ∑ j < 526, count b t j · W (j, d)  +  ∑ o < 32, others (b, t, o) · W (526 + o, d)  +  bias d`.

  On the extended reals this needs no finiteness: only that sums may be regrouped and that `x · 0 = 0`.
  The three sum lemmas below are the only algebra the certificate uses: a running sum built one slot at a time
  is the sum over the slots; a sum whose tail terms vanish is the sum of its head (rows of `W` padded with
  zeros contribute nothing); a sum over `p + q` terms is the sum of its first `p` and its last `q`.
-/
import Idealize.ShloMosaic.PureOps.Ideal
import Idealize.ShloMosaic.Lib.ValueIdx
import Mathlib.Algebra.BigOperators.Fin

noncomputable section

open scoped BigOperators

namespace Cert.MultiHot

open Idealize.ShloMosaic Idealize.ShloMosaic.ValueIdx

/-- The argument and result arrays' shapes, as literals (each printed program names the same literals). -/
abbrev CodeShape : Shape := ⟨3, ![64, 200, 40]⟩
abbrev OthersShape : Shape := ⟨3, ![64, 200, 32]⟩
abbrev WShape : Shape := ⟨2, ![558, 512]⟩
abbrev BiasShape : Shape := ⟨1, ![512]⟩
abbrev OutShape : Shape := ⟨3, ![64, 200, 512]⟩

/-- One slot seen from column `j`: one when the slot's word is the number `j`, zero otherwise. -/
def hit (w : BitVec 32) (j : Nat) : EReal := if w = BitVec.ofNat 32 j then 1 else 0

/-- How many of the forty slots of row `(b, t)` hold the word `j`. -/
def count (code : CodeShape.Idx → BitVec 32) (b : Fin 64) (t : Fin 200) (j : Nat) : EReal :=
  ∑ k : Fin 40, hit (code (ix3 b t k)) j

/-- The result both programs reach: the row's 526 counts against the first 526 rows of `W`, its 32 `others`
    against the last 32, plus the bias. -/
def G (code : CodeShape.Idx → BitVec 32) (others : OthersShape.Idx → EReal) (W : WShape.Idx → EReal)
    (bias : BiasShape.Idx → EReal) : OutShape.Idx → EReal := fun i =>
  (∑ j : Fin 526, count code (i 0) (i 1) j.val * W (ix2 (⟨j.val, by omega⟩ : Fin 558) (i 2)))
    + (∑ o : Fin 32, others (ix3 (i 0) (i 1) o) * W (ix2 (⟨526 + o.val, by omega⟩ : Fin 558) (i 2)))
    + bias (ix1 (i 2))

/-! ## Sums -/

/-- A running sum from `z`, one term at a time: after `n` terms it is `((z + f 0) + f 1) + … + f (n - 1)`. -/
def accum (z : EReal) (f : Nat → EReal) : Nat → EReal
  | 0 => z
  | n + 1 => accum z f n + f n

/-- Started at zero, the running sum after `n` terms is the sum of the first `n` terms. -/
theorem accum_zero_eq_sum (f : Nat → EReal) (n : Nat) : accum 0 f n = ∑ k ∈ Finset.range n, f k := by
  induction n with
  | zero => simp [accum]
  | succ n ih => rw [accum, ih, Finset.sum_range_succ]

/-- The same, with the terms indexed by `Fin n`. -/
theorem accum_zero_eq_sum_fin (f : Nat → EReal) (n : Nat) : accum 0 f n = ∑ k : Fin n, f k.val := by
  rw [accum_zero_eq_sum, Fin.sum_univ_eq_sum_range]

/-- A sum over `p + q` terms is the sum of the first `p` plus the sum of the last `q`. -/
theorem sum_split {n : Nat} (p q : Nat) (h : n = p + q) (a : Fin n → EReal) :
    ∑ f, a f = (∑ j : Fin p, a ⟨j.val, by omega⟩) + ∑ o : Fin q, a ⟨p + o.val, by omega⟩ := by
  subst h
  rw [Fin.sum_univ_add]
  rfl

/-- When the last `q` terms vanish, the sum is the sum of the first `p`. -/
theorem sum_head_of_tail_zero {n : Nat} (p q : Nat) (h : n = p + q) (a : Fin n → EReal)
    (h0 : ∀ o : Fin q, a ⟨p + o.val, by omega⟩ = 0) :
    ∑ f, a f = ∑ j : Fin p, a ⟨j.val, by omega⟩ := by
  rw [sum_split p q h a, Finset.sum_eq_zero (fun o _ => h0 o), add_zero]

end Cert.MultiHot

end
-- ==== Proof.KCounts.lean ====
/-
  The scratch of per-row code counts, as the kernel's body fills it.
  The body treats its 1280 rows in twenty chunks of 64. For one chunk it starts from zero and adds, for each of
  the forty slots `k`, the mask "the slot's code equals the column number": row `k` of the code block,
  columns `64 c … 64 c + 63`, laid along the chunk's 64 rows, compared with the column number `0 … 639`,
  the comparison bit widened to a float. The finished chunk is stored at rows `64 c …` of the scratch.
  So after the twenty stores, entry `(r, j)` of the scratch is the running sum over the forty slots of
  "code (k, r) = j", whichever chunk `r` lies in.
-/
import proofs.«413158_j8555574853999_3_alg».proof.Proof.KernelIdealFrame
import proofs.«413158_j8555574853999_3_alg».proof.Proof.Spec
import Idealize.ShloMosaic.Lib.Pipeline.Value
import Idealize.ShloMosaic.Lib.ValueIdx
import Idealize.ShloMosaic.Lib.StableHlo.Predicate
import Mathlib.Data.List.OfFn

set_option maxRecDepth 131072

noncomputable section

open scoped BigOperators

namespace Cert.KernelIdeal.Counts

open Idealize.ShloMosaic Idealize.ShloMosaic.ValueIdx Cert.KernelIdeal Cert.KernelIdeal.Gen Cert.MultiHot
open Cert.KernelIdeal.Facts₀ Cert.KernelIdeal.Facts

variable {F : FTy → Type} [FloatOps F]

/-- One slot's mask over a chunk: the slot's 64 codes laid along the rows, each compared with the column number. -/
def slotMask (row : Vec F S1x64 .i32) : FVec F S64x640 .bf16 :=
  truncf .bf16 (sitofp .f32 (extui 32 (cmpi .eq
    (broadcastTo S64x640 (shapeCast S64x1 (shapeCast S64 row Facts₀.shapeCasts_S1x64_S64) Facts₀.shapeCasts_S64_S64x1) Facts₀.broadcasts_S64x1_S64x640)
    (iota .tc S64x640 32 [1] Facts₀.iota_S64x640_d1_w32)) Facts₀.natLt_1_32)) Facts₀.bitsLt_bf16_f32

/-- A chunk's accumulator after `n` slots: zero, then one mask added per slot. -/
def chunkAcc (rows : Nat → Vec F S1x64 .i32) : Nat → FVec F S64x640 .bf16
  | 0 => broadcast S64x640 (Scalar.ofBits .bf16 0x0000#16)
  | n + 1 => addf (chunkAcc rows n) (slotMask (rows n))

/-- Row `k`, columns `64 c … 64 c + 63`, lies inside the code block. -/
theorem inbRow (k c : Nat) (hk : k < 40) (hc : c < 20) :
    ∀ a, (![k, 64 * c] : Fin 2 → Nat) a + S1x64.size a ≤ S40x1280.size a := fun a =>
  match a with
  | ⟨0, _⟩ => by show k + 1 ≤ 40; omega
  | ⟨1, _⟩ => by show 64 * c + 64 ≤ 1280; omega

/-- Rows `64 c … 64 c + 63`, all columns, lie inside the scratch. -/
theorem inbChunk (c : Nat) (hc : c < 20) :
    ∀ a, (![64 * c, 0] : Fin 2 → Nat) a + S64x640.size a ≤ S1280x640.size a := fun a =>
  match a with
  | ⟨0, _⟩ => by show 64 * c + 64 ≤ 1280; omega
  | ⟨1, _⟩ => by show 0 + 640 ≤ 640; omega

/-- Slot `k`'s 64 codes for chunk `c`, as the body loads them from the code block's buffer. -/
def codeRow (arg1 : Memref sig .tc .vmem S40x1280 .i32) (harg1 : arg1.IsWhole) (x0 : Vec F S40x1280 .i32)
    (c : Nat) (hc : c < 20) (k : Nat) : Vec F S1x64 .i32 :=
  if hk : k < 40 then
    View.readAt (Elt F) arg1.view (Rect.unit (s := S40x1280) ![k, 64 * c] S1x64.size (inbRow k c hk hc)).toLoadRect (harg1.unread x0)
  else fun _ => 0#32

/-- Chunk `c`'s store: the rectangle of rows `64 c …` and the accumulator after all forty slots. -/
def chunkPiece (arg1 : Memref sig .tc .vmem S40x1280 .i32) (harg1 : arg1.IsWhole) (x0 : Vec F S40x1280 .i32)
    (c : Nat) (hc : c < 20 := by decide) : View.Piece (Elt F) S1280x640 .bf16 :=
  ⟨Rect.unit (s := S1280x640) ![64 * c, 0] S64x640.size (inbChunk c hc),
    shapeCast S64x640 (chunkAcc (codeRow arg1 harg1 x0 c hc) 40) Facts₀.shapeCasts_S64x640_S64x640⟩

set_option maxHeartbeats 8000000 in
/-- The body's twenty stores into the scratch are the twenty chunks' pieces, last chunk first. -/
theorem pieces_eq (c : Dev nD) (arg1 : Memref sig .tc .vmem S40x1280 .i32) (harg1 : arg1.IsWhole) (x0 : Vec F S40x1280 .i32) :
    kernelRun0_A.sl.HS0_20 (F := F) c arg1 harg1 x0 =
      [chunkPiece arg1 harg1 x0 19, chunkPiece arg1 harg1 x0 18, chunkPiece arg1 harg1 x0 17, chunkPiece arg1 harg1 x0 16,
       chunkPiece arg1 harg1 x0 15, chunkPiece arg1 harg1 x0 14, chunkPiece arg1 harg1 x0 13, chunkPiece arg1 harg1 x0 12,
       chunkPiece arg1 harg1 x0 11, chunkPiece arg1 harg1 x0 10, chunkPiece arg1 harg1 x0 9, chunkPiece arg1 harg1 x0 8,
       chunkPiece arg1 harg1 x0 7, chunkPiece arg1 harg1 x0 6, chunkPiece arg1 harg1 x0 5, chunkPiece arg1 harg1 x0 4,
       chunkPiece arg1 harg1 x0 3, chunkPiece arg1 harg1 x0 2, chunkPiece arg1 harg1 x0 1, chunkPiece arg1 harg1 x0 0] := by
  rfl

/-- The twenty chunks' pieces as one list, last chunk first. -/
def chunkPieces (arg1 : Memref sig .tc .vmem S40x1280 .i32) (harg1 : arg1.IsWhole) (x0 : Vec F S40x1280 .i32) :
    List (View.Piece (Elt F) S1280x640 .bf16) :=
  List.ofFn fun i : Fin 20 => chunkPiece arg1 harg1 x0 (19 - i.val) (by omega)

/-- The body's twenty stores are that list. -/
theorem pieces_eq' (c : Dev nD) (arg1 : Memref sig .tc .vmem S40x1280 .i32) (harg1 : arg1.IsWhole) (x0 : Vec F S40x1280 .i32) :
    kernelRun0_A.sl.HS0_20 (F := F) c arg1 harg1 x0 = chunkPieces arg1 harg1 x0 :=
  (pieces_eq c arg1 harg1 x0).trans rfl

/-- A chunk's piece depends only on the chunk's number. -/
theorem chunkPiece_congr (arg1 : Memref sig .tc .vmem S40x1280 .i32) (harg1 : arg1.IsWhole) (x0 : Vec F S40x1280 .i32)
    {c c' : Nat} (h : c = c') (hc : c < 20) (hc' : c' < 20) :
    chunkPiece arg1 harg1 x0 c hc = chunkPiece arg1 harg1 x0 c' hc' := by
  subst h; rfl

/-- The bf16 zero word is the number zero. -/
theorem ofBits_zero_bf16 : Ideal.ofBits .bf16 0x0000#16 = 0 := by simp [Ideal.ofBits, Ideal.ieee]

/-- A length-64 vector viewed as a column and broadcast along 640 columns, at `(r', j)`, is its entry `r'`. -/
theorem bcast_col (v : IVec S64 32) (r' : Fin 64) (j : Fin 640) :
    broadcastTo S64x640 (shapeCast S64x1 v Facts₀.shapeCasts_S64_S64x1) Facts₀.broadcasts_S64x1_S64x640 (ix2 r' j) = v (ix1 r') := by
  rw [broadcastTo_apply _ _ _ (ix2 r' (0 : Fin 1)) (fun a => by
    match a with
    | ⟨0, _⟩ => show r'.val = if (64 : Nat) = 1 then 0 else r'.val; rw [if_neg (by decide)]
    | ⟨1, _⟩ => show (0 : Nat) = if (1 : Nat) = 1 then 0 else j.val; rw [if_pos rfl])]
  exact shapeCast_apply _ _ _ (ix1 r') (by rw [Shape.rowMajor_val_one, Shape.rowMajor_val_two]; show r'.val = r'.val * 1 + 0; omega)

/-- A [1, 64] row viewed as a length-64 vector, at `r'`, is the row's entry `(0, r')`. -/
theorem row_flat (row : Vec Ideal S1x64 .i32) (r' : Fin 64) :
    shapeCast S64 row Facts₀.shapeCasts_S1x64_S64 (ix1 r') = row (ix2 (0 : Fin 1) r') :=
  shapeCast_apply _ _ _ (ix2 (0 : Fin 1) r') (by rw [Shape.rowMajor_val_one, Shape.rowMajor_val_two]; show 0 * 64 + r'.val = r'.val; omega)

/-- One slot's mask at row `r'`, column `j`: one when the slot's code for that row is `j`, else zero. -/
theorem slotMask_apply (row : Vec Ideal S1x64 .i32) (r' : Fin 64) (j : Fin 640) :
    slotMask (F := Ideal) row (ix2 r' j) = hit (row (ix2 (0 : Fin 1) r')) j.val := by
  unfold slotMask
  rw [truncf_apply, sitofp_apply, extui_apply]
  show FloatOps.sitofp (F := Ideal) .f32 ((IntOp.cmpi .eq (broadcastTo S64x640 _ _ (ix2 r' j)) (iota .tc S64x640 32 [1] _ (ix2 r' j))).setWidth 32) = _
  rw [bcast_col, row_flat, iota_single_apply]
  show FloatOps.sitofp (F := Ideal) .f32 (BitVec.setWidth 32 (IntOp.cmpi .eq (row (ix2 (0 : Fin 1) r')) (BitVec.ofNat 32 j.val))) = _
  unfold hit
  by_cases h : row (ix2 (0 : Fin 1) r') = BitVec.ofNat 32 j.val
  · rw [if_pos h, StableHlo.Predicate.cmpi_eq_iff.mpr h]
    show (((BitVec.setWidth 32 (1#1)).toInt : ℝ) : EReal) = 1
    rw [show (BitVec.setWidth 32 (1#1)).toInt = 1 by decide]; norm_num
  · rw [if_neg h, eq_zero_of_ne_one (fun e => h (StableHlo.Predicate.cmpi_eq_iff.mp e))]
    show (((BitVec.setWidth 32 (0#1)).toInt : ℝ) : EReal) = 0
    rw [show (BitVec.setWidth 32 (0#1)).toInt = 0 by decide]; norm_num

/-- A chunk's accumulator after `n` slots, at row `r'` and column `j`: the running sum of the first `n` slots' hits. -/
theorem chunkAcc_apply (rows : Nat → Vec Ideal S1x64 .i32) (n : Nat) (r' : Fin 64) (j : Fin 640) :
    chunkAcc (F := Ideal) rows n (ix2 r' j) = accum 0 (fun k => hit (rows k (ix2 (0 : Fin 1) r')) j.val) n := by
  induction n with
  | zero => exact ofBits_zero_bf16
  | succ n ih =>
    show chunkAcc (F := Ideal) rows n (ix2 r' j) + slotMask (F := Ideal) (rows n) (ix2 r' j) = _
    rw [ih, slotMask_apply]; rfl

/-- Slot `k`'s loaded row for chunk `c`, at its entry `r'`: the code block at (slot `k`, row `64 c + r'`). -/
theorem codeRow_apply (arg1 : Memref sig .tc .vmem S40x1280 .i32) (harg1 : arg1.IsWhole) (x0 : Vec Ideal S40x1280 .i32)
    (c : Nat) (hc : c < 20) (k : Nat) (hk : k < 40) (r' : Fin 64) :
    codeRow arg1 harg1 x0 c hc k (ix2 (0 : Fin 1) r') = x0 (ix2 (⟨k, hk⟩ : Fin 40) (⟨64 * c + r'.val, by omega⟩ : Fin 1280)) := by
  unfold codeRow
  rw [dif_pos hk, View.readAt_eq_ld, harg1.read_unread]
  show x0 _ = x0 _
  refine congrArg x0 (funext fun a => Fin.ext ?_)
  match a with
  | ⟨0, _⟩ => show k + 1 * 0 = k; omega
  | ⟨1, _⟩ => show 64 * c + 1 * r'.val = 64 * c + r'.val; omega

/-- The scratch after the twenty stores, as one function of its index: entry `(r, j)` counts the slots whose code is `j`. -/
def scratchFn (x0 : Vec Ideal S40x1280 .i32) : S1280x640.Idx → EReal :=
  fun y => ∑ k : Fin 40, hit (x0 (ix2 k (y 0))) (y 1).val

/-- Chunk `c`'s stored accumulator is the block of `scratchFn` its rectangle names. -/
theorem chunkPiece_block (arg1 : Memref sig .tc .vmem S40x1280 .i32) (harg1 : arg1.IsWhole) (x0 : Vec Ideal S40x1280 .i32)
    (c : Nat) (hc : c < 20) :
    ∀ x : (chunkPiece (F := Ideal) arg1 harg1 x0 c hc).1.shape.Idx,
      (chunkPiece (F := Ideal) arg1 harg1 x0 c hc).2 x = scratchFn x0 ((chunkPiece (F := Ideal) arg1 harg1 x0 c hc).1.emb x) := by
  intro x
  obtain ⟨r', j, rfl⟩ : ∃ (r' : Fin 64) (j : Fin 640), x = ix2 r' j := ⟨x 0, x 1, eq_ix2 x⟩
  show shapeCast S64x640 (chunkAcc (F := Ideal) (codeRow arg1 harg1 x0 c hc) 40) _ (ix2 r' j) = _
  rw [shapeCast_self, chunkAcc_apply, accum_zero_eq_sum_fin]
  unfold scratchFn
  refine Finset.sum_congr rfl fun k _ => ?_
  rw [codeRow_apply arg1 harg1 x0 c hc k.val k.isLt r']
  have e0 : ((chunkPiece (F := Ideal) arg1 harg1 x0 c hc).1.emb (ix2 r' j)) 0 = (⟨64 * c + r'.val, by omega⟩ : Fin 1280) :=
    Fin.ext (by show 64 * c + 1 * r'.val = 64 * c + r'.val; omega)
  have e1 : (((chunkPiece (F := Ideal) arg1 harg1 x0 c hc).1.emb (ix2 r' j)) 1).val = j.val := by
    show 0 + 1 * j.val = j.val; omega
  rw [e0, e1]

/-- What the body reads back from the scratch after the twenty stores: entry `(r, j)` is the number of the row's
    forty slots whose code is `j`. Row `r` lies in chunk `r / 64`, whose stored block is a block of `scratchFn`. -/
theorem scratch_apply (c : Dev nD) (arg1 : Memref sig .tc .vmem S40x1280 .i32) (harg1 : arg1.IsWhole)
    (arg7 : Memref sig .tc .vmem S1280x640 .bf16) (x0 : Vec Ideal S40x1280 .i32) (r : Fin 1280) (j : Fin 640) :
    kernelRun0_A.sl.v7281 (F := Ideal) c arg1 harg1 arg7 x0 (ix2 r j) = ∑ k : Fin 40, hit (x0 (ix2 k r)) j.val := by
  unfold kernelRun0_A.sl.v7281
  rw [View.readCov_eq_canon', pieces_eq']
  have hidx : (Rect.unit (s := S1280x640) ![0, 0] S1280x640.size Facts₀.inb_S1280x640_S1280x640_0_0).toLoadRect.idx (ix2 r j) = ix2 r j :=
    funext fun a => Fin.ext (by
      match a with
      | ⟨0, _⟩ => show 0 + 1 * r.val = r.val; omega
      | ⟨1, _⟩ => show 0 + 1 * j.val = j.val; omega)
  show View.canon (chunkPieces (F := Ideal) arg1 harg1 x0) ((Rect.unit (s := S1280x640) ![0, 0] S1280x640.size _).toLoadRect.idx (ix2 r j)) = _
  rw [hidx]
  have hc : r.val / 64 < 20 := by omega
  rw [View.canon_apply_of_pieces (scratchFn x0) (chunkPieces (F := Ideal) arg1 harg1 x0)
    (fun p hp => by
      obtain ⟨i, rfl⟩ := List.mem_ofFn.1 hp
      exact chunkPiece_block arg1 harg1 x0 _ _)
    (ix2 r j)
    ⟨chunkPiece arg1 harg1 x0 (r.val / 64) hc,
      List.mem_ofFn.2 ⟨⟨19 - r.val / 64, by omega⟩, chunkPiece_congr arg1 harg1 x0 (by show 19 - (19 - r.val / 64) = r.val / 64; omega) _ _⟩,
      (Rect.mem_set_unit (inb := inbChunk (r.val / 64) hc)).2 fun a => by
        match a with
        | ⟨0, _⟩ => show 64 * (r.val / 64) ≤ r.val ∧ r.val < 64 * (r.val / 64) + 64; omega
        | ⟨1, _⟩ => show 0 ≤ j.val ∧ j.val < 0 + 640; omega⟩]
  rfl

end Cert.KernelIdeal.Counts

end
-- ==== Proof.KPay.lean ====
/-
  The kernel body's last value, read at an index.
  The body ends with one block of 1280 rows of the result: the accumulator `C` plus the product of the block's
  multi-hot rows `A` [1280, 640] with the padded head `B` [640, 512] of `W`, plus the product of the block's
  `others` rows `X1` [1280, 32] with the tail `X3` [32, 512] of `W`, plus the bias row `X4` [1, 512] repeated
  down the rows. At entry `(r, d)` this is

    `C (r, d) + ∑ j < 640, A (r, j) · B (j, d) + ∑ o < 32, X1 (r, o) · X3 (o, d) + X4 (0, d)`.

  On the extended reals a matrix product at an entry is the accumulator there plus the sum, over the contracted
  axis, of the operands' products; the sum over the contracted shape, which has one axis, is re-indexed by that
  axis' coordinate. The second product accumulates into zero. A cast to the same shape changes nothing.
-/
import proofs.«413158_j8555574853999_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## Where each product reads its operands

For a product of a [n, K] array with a [K, 512] array into [n, 512]: at result entry `i` and contraction position `q`
the left operand is read at row `i 0`, column `q`, and the right at row `q`, column `i 1`. -/

/-- First product, left operand: the row is the result's row. -/
theorem lhs_head_0 (i : S1280x512.Idx) (q : dot_S1280x640_S640x512_S1280x512_1_0_0_1_n_n.contr.Idx) :
    (dot_S1280x640_S640x512_S1280x512_1_0_0_1_n_n.lhsIdx i q 0).val = (i 0).val := by
  unfold DotDims.lhsIdx
  rw [dif_neg (show ¬(0 : Fin S1280x640.rank) ∈ dot_S1280x640_S640x512_S1280x512_1_0_0_1_n_n.lhsBatch by decide), dif_pos (show (0 : Fin S1280x640.rank) ∈ dot_S1280x640_S640x512_S1280x512_1_0_0_1_n_n.lhsNonContracting by decide)]
  rfl
/-- First product, left operand: the column is the contraction position. -/
theorem lhs_head_1 (i : S1280x512.Idx) (q : dot_S1280x640_S640x512_S1280x512_1_0_0_1_n_n.contr.Idx) :
    (dot_S1280x640_S640x512_S1280x512_1_0_0_1_n_n.lhsIdx i q 1).val = (q ⟨0, by decide⟩).val :=
  dot_S1280x640_S640x512_S1280x512_1_0_0_1_n_n.lhsIdx_val_of_single rfl i q
/-- First product, right operand: the row is the contraction position. -/
theorem rhs_head_0 (i : S1280x512.Idx) (q : dot_S1280x640_S640x512_S1280x512_1_0_0_1_n_n.contr.Idx) :
    (dot_S1280x640_S640x512_S1280x512_1_0_0_1_n_n.rhsIdx i q 0).val = (q ⟨0, by decide⟩).val :=
  dot_S1280x640_S640x512_S1280x512_1_0_0_1_n_n.rhsIdx_val_of_single rfl i q
/-- First product, right operand: the column is the result's column. -/
theorem rhs_head_1 (i : S1280x512.Idx) (q : dot_S1280x640_S640x512_S1280x512_1_0_0_1_n_n.contr.Idx) :
    (dot_S1280x640_S640x512_S1280x512_1_0_0_1_n_n.rhsIdx i q 1).val = (i 1).val := by
  unfold DotDims.rhsIdx
  rw [dif_neg (show ¬(1 : Fin S640x512.rank) ∈ dot_S1280x640_S640x512_S1280x512_1_0_0_1_n_n.rhsBatch by decide), dif_pos (show (1 : Fin S640x512.rank) ∈ dot_S1280x640_S640x512_S1280x512_1_0_0_1_n_n.rhsNonContracting by decide)]
  rfl
/-- Second product, left operand: the row is the result's row. -/
theorem lhs_tail_0 (i : S1280x512.Idx) (q : dot_S1280x32_S32x512_S1280x512_1_0_0_1_n_n.contr.Idx) :
    (dot_S1280x32_S32x512_S1280x512_1_0_0_1_n_n.lhsIdx i q 0).val = (i 0).val := by
  unfold DotDims.lhsIdx
  rw [dif_neg (show ¬(0 : Fin S1280x32.rank) ∈ dot_S1280x32_S32x512_S1280x512_1_0_0_1_n_n.lhsBatch by decide), dif_pos (show (0 : Fin S1280x32.rank) ∈ dot_S1280x32_S32x512_S1280x512_1_0_0_1_n_n.lhsNonContracting by decide)]
  rfl
/-- Second product, left operand: the column is the contraction position. -/
theorem lhs_tail_1 (i : S1280x512.Idx) (q : dot_S1280x32_S32x512_S1280x512_1_0_0_1_n_n.contr.Idx) :
    (dot_S1280x32_S32x512_S1280x512_1_0_0_1_n_n.lhsIdx i q 1).val = (q ⟨0, by decide⟩).val :=
  dot_S1280x32_S32x512_S1280x512_1_0_0_1_n_n.lhsIdx_val_of_single rfl i q
/-- Second product, right operand: the row is the contraction position. -/
theorem rhs_tail_0 (i : S1280x512.Idx) (q : dot_S1280x32_S32x512_S1280x512_1_0_0_1_n_n.contr.Idx) :
    (dot_S1280x32_S32x512_S1280x512_1_0_0_1_n_n.rhsIdx i q 0).val = (q ⟨0, by decide⟩).val :=
  dot_S1280x32_S32x512_S1280x512_1_0_0_1_n_n.rhsIdx_val_of_single rfl i q
/-- Second product, right operand: the column is the result's column. -/
theorem rhs_tail_1 (i : S1280x512.Idx) (q : dot_S1280x32_S32x512_S1280x512_1_0_0_1_n_n.contr.Idx) :
    (dot_S1280x32_S32x512_S1280x512_1_0_0_1_n_n.rhsIdx i q 1).val = (i 1).val := by
  unfold DotDims.rhsIdx
  rw [dif_neg (show ¬(1 : Fin S32x512.rank) ∈ dot_S1280x32_S32x512_S1280x512_1_0_0_1_n_n.rhsBatch by decide), dif_pos (show (1 : Fin S32x512.rank) ∈ dot_S1280x32_S32x512_S1280x512_1_0_0_1_n_n.rhsNonContracting by decide)]
  rfl
/-! ## The three pieces at an entry -/

/-- The first product at `(r, d)`: the accumulator there plus `∑ j < 640, A (r, j) · B (j, d)`. -/
theorem head_apply (A : FVec Ideal S1280x640 .f32) (B : FVec Ideal S640x512 .f32) (C : FVec Ideal S1280x512 .f32)
    (r : Fin 1280) (d : Fin 512) :
    matmul dot_S1280x640_S640x512_S1280x512_1_0_0_1_n_n none A B C (ix2 r d) = C (ix2 r d) + ∑ j : Fin 640, A (ix2 r j) * B (ix2 j d) := by
  simp only [matmul]
  rw [Ideal.matmul_apply, ← Equiv.sum_comp (ValueIdx.contrEquiv1 dot_S1280x640_S640x512_S1280x512_1_0_0_1_n_n 640 rfl rfl).symm]
  refine congrArg (C (ix2 r d) + ·) (Finset.sum_congr rfl fun k _ => ?_)
  have hk := ValueIdx.contrEquiv1_symm_val dot_S1280x640_S640x512_S1280x512_1_0_0_1_n_n 640 rfl rfl k
  have el : dot_S1280x640_S640x512_S1280x512_1_0_0_1_n_n.lhsIdx (ix2 r d) ((ValueIdx.contrEquiv1 dot_S1280x640_S640x512_S1280x512_1_0_0_1_n_n 640 rfl rfl).symm k) = ix2 r k := funext fun a => Fin.ext (by
    match a with
    | ⟨0, _⟩ => exact lhs_head_0 _ _
    | ⟨1, _⟩ => exact (lhs_head_1 _ _).trans hk)
  have er : dot_S1280x640_S640x512_S1280x512_1_0_0_1_n_n.rhsIdx (ix2 r d) ((ValueIdx.contrEquiv1 dot_S1280x640_S640x512_S1280x512_1_0_0_1_n_n 640 rfl rfl).symm k) = ix2 k d := funext fun a => Fin.ext (by
    match a with
    | ⟨0, _⟩ => exact (rhs_head_0 _ _).trans hk
    | ⟨1, _⟩ => exact rhs_head_1 _ _)
  rw [el, er]

/-- The second product, into a zero accumulator, at `(r, d)`: `∑ o < 32, X1 (r, o) · X3 (o, d)`. -/
theorem tail_apply (X1 : FVec Ideal S1280x32 .f32) (X3 : FVec Ideal S32x512 .f32) (r : Fin 1280) (d : Fin 512) :
    matmul dot_S1280x32_S32x512_S1280x512_1_0_0_1_n_n none X1 X3 (constant (F := Ideal) S1280x512 .f32 0x00000000#32) (ix2 r d) = ∑ o : Fin 32, X1 (ix2 r o) * X3 (ix2 o d) := by
  simp only [matmul]
  rw [Ideal.matmul_constant_zero_apply, ← Equiv.sum_comp (ValueIdx.contrEquiv1 dot_S1280x32_S32x512_S1280x512_1_0_0_1_n_n 32 rfl rfl).symm]
  refine Finset.sum_congr rfl fun k _ => ?_
  have hk := ValueIdx.contrEquiv1_symm_val dot_S1280x32_S32x512_S1280x512_1_0_0_1_n_n 32 rfl rfl k
  have el : dot_S1280x32_S32x512_S1280x512_1_0_0_1_n_n.lhsIdx (ix2 r d) ((ValueIdx.contrEquiv1 dot_S1280x32_S32x512_S1280x512_1_0_0_1_n_n 32 rfl rfl).symm k) = ix2 r k := funext fun a => Fin.ext (by
    match a with
    | ⟨0, _⟩ => exact lhs_tail_0 _ _
    | ⟨1, _⟩ => exact (lhs_tail_1 _ _).trans hk)
  have er : dot_S1280x32_S32x512_S1280x512_1_0_0_1_n_n.rhsIdx (ix2 r d) ((ValueIdx.contrEquiv1 dot_S1280x32_S32x512_S1280x512_1_0_0_1_n_n 32 rfl rfl).symm k) = ix2 k d := funext fun a => Fin.ext (by
    match a with
    | ⟨0, _⟩ => exact (rhs_tail_0 _ _).trans hk
    | ⟨1, _⟩ => exact rhs_tail_1 _ _)
  rw [el, er]

/-- The bias row repeated down 1280 rows, at `(r, d)`: the row's entry `d`. -/
theorem bias_apply (X4 : FVec Ideal S1x512 .f32) (r : Fin 1280) (d : Fin 512) :
    broadcastTo S1280x512 X4 Facts₀.broadcasts_S1x512_S1280x512 (ix2 r d) = X4 (ix2 (0 : Fin 1) d) :=
  broadcastTo_apply X4 Facts₀.broadcasts_S1x512_S1280x512 (ix2 r d) (ix2 (0 : Fin 1) d) (fun a => match a with
    | ⟨0, _⟩ => by show (0 : Nat) = if (1 : Nat) = 1 then 0 else r.val; rw [if_pos rfl]
    | ⟨1, _⟩ => by show d.val = if (512 : Nat) = 1 then 0 else d.val; rw [if_neg (by decide)])

/-- The body's last value at `(r, d)`. -/
theorem pay1_apply (A : FVec Ideal S1280x640 .f32) (B : FVec Ideal S640x512 .f32) (C : FVec Ideal S1280x512 .f32)
    (X1 : Vec Ideal S1280x32 .f32) (X3 : Vec Ideal S32x512 .f32) (X4 : Vec Ideal S1x512 .f32) (r : Fin 1280) (d : Fin 512) :
    k0_pay1 (F := Ideal) A B C X1 X3 X4 (ix2 r d)
      = ((C (ix2 r d) + ∑ j : Fin 640, A (ix2 r j) * B (ix2 j d)) + ∑ o : Fin 32, X1 (ix2 r o) * X3 (ix2 o d)) + X4 (ix2 (0 : Fin 1) d) := by
  unfold k0_pay1
  rw [addf_apply, addf_apply, shapeCast_self, shapeCast_self, shapeCast_self, head_apply, tail_apply, bias_apply]

end Cert.KernelIdeal.Pay

end
-- ==== Proof.KBlock.lean ====
/-
  What one grid point leaves in its output block, as a function of its five input blocks.
  The point's code block is [40, 1280] (slot, row), its `others` block [1280, 32], and it sees the whole padded
  `W` head [640, 512], the `W` tail [32, 512] and the bias [1, 512]. Row `r`, column `d` of its output is

    `∑ j < 640, (∑ k < 40, hit (code (k, r)) j) · Whead (j, d)  +  ∑ o < 32, others (r, o) · Wtail (o, d)  +  bias (0, d)`:

  the scratch's counts against the padded head by one matrix product from a zero accumulator, the `others`
  against the tail by a second, the two added, and the bias row added to every row.
-/
import proofs.«413158_j8555574853999_3_alg».proof.Proof.KCounts
import proofs.«413158_j8555574853999_3_alg».proof.Proof.KPay
import Idealize.ShloMosaic.PureOps.Ideal.Laws

set_option maxRecDepth 131072

noncomputable section

open scoped BigOperators

namespace Cert.KernelIdeal.Block

open Idealize.ShloMosaic Idealize.ShloMosaic.ValueIdx Cert.KernelIdeal Cert.KernelIdeal.Gen Cert.MultiHot
open Cert.KernelIdeal.Facts₀ Cert.KernelIdeal.Facts

/-- The output block of one grid point, from its input blocks. -/
def blockOut (x0 : Vec Ideal S40x1280 .i32) (x1 : Vec Ideal S1280x32 .f32) (x2 : Vec Ideal S640x512 .f32)
    (x3 : Vec Ideal S32x512 .f32) (x4 : Vec Ideal S1x512 .f32) : Vec Ideal S1280x512 .f32 := fun y =>
  (∑ j : Fin 640, (∑ k : Fin 40, hit (x0 (ix2 k (y 0))) j.val) * x2 (ix2 j (y 1)))
    + (∑ o : Fin 32, x1 (ix2 (y 0) o) * x3 (ix2 o (y 1)))
    + x4 (ix2 (0 : Fin 1) (y 1))

/-- The zero offsets of a whole-buffer load or store. -/
theorem off_zero : (![0, 0] : Fin 2 → Nat) = fun _ => 0 :=
  funext fun a => match a with | ⟨0, _⟩ => rfl | ⟨1, _⟩ => rfl

/-- The counts the first product takes: the scratch read back and widened, at `(r, j)`. -/
theorem counts_apply (c : Dev nD) (arg1 : Memref sig .tc .vmem S40x1280 .i32) (harg1 : arg1.IsWhole)
    (arg7 : Memref sig .tc .vmem S1280x640 .bf16) (x0 : Vec Ideal S40x1280 .i32) (r : Fin 1280) (j : Fin 640) :
    kernelRun0_A.sl.r_253 (F := Ideal) c arg1 harg1 arg7 x0 (ix2 r j) = ∑ k : Fin 40, hit (x0 (ix2 k r)) j.val := by
  unfold kernelRun0_A.sl.r_253 k0_pay266
  rw [extf_apply]
  exact Counts.scratch_apply c arg1 harg1 arg7 x0 r j

/-- The padded head of `W` the first product takes is the window's block as loaded. -/
theorem whead_eq (c : Dev nD) (arg3 : Memref sig .tc .vmem S640x512 .f32) (harg3 : arg3.IsWhole) (x2 : Vec Ideal S640x512 .f32) :
    kernelRun0_A.sl.r_254 (F := Ideal) c arg3 harg3 x2 = x2 := by
  unfold kernelRun0_A.sl.r_254 k0_pay267
  rw [shapeCast_self, View.readAt_eq_ld, harg3.read_unread, View.ld_unit_zero (S := S640x512) off_zero]

/-- What the body's run leaves in the output's staging buffer is `blockOut` of the input blocks. -/
theorem out0_A_5_eq (c : Dev nD) (i : grid0.Coords) (arg1 : Memref sig .tc .vmem S40x1280 .i32) (harg1 : arg1.IsWhole) (arg2 : Memref sig .tc .vmem S1280x32 .f32) (harg2 : arg2.IsWhole) (arg3 : Memref sig .tc .vmem S640x512 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1280x512 .f32) (harg6 : arg6.IsWhole) (arg7 : Memref sig .tc .vmem S1280x640 .bf16) (harg7 : arg7.IsWhole)
    (x0 : Vec Ideal S40x1280 .i32) (x1 : Vec Ideal S1280x32 .f32) (x2 : Vec Ideal S640x512 .f32)
    (x3 : Vec Ideal S32x512 .f32) (x4 : Vec Ideal S1x512 .f32) :
    Cert.KernelIdeal.GenP.out0_A_5 (F := Ideal) c i arg1 harg1 arg2 harg2 arg3 harg3 arg4 harg4 arg5 harg5 arg6 harg6 arg7 harg7 x0 x1 x2 x3 x4 = blockOut x0 x1 x2 x3 x4 := by
  unfold Cert.KernelIdeal.GenP.out0_A_5
  rw [View.read_writes_eq_canon _ _ _ (Cert.KernelIdeal.GenP.cover0_A_5 c i arg1 harg1 arg2 harg2 arg3 harg3 arg4 harg4 arg5 harg5 arg6 harg6 arg7 harg7 x0 x1 x2 x3 x4)]
  unfold kernelRun0_A
  dsimp only
  rw [View.canon_unit_zero (S := S1280x512) off_zero]
  funext y
  obtain ⟨r, d, rfl⟩ : ∃ (r : Fin 1280) (d : Fin 512), y = ix2 r d := ⟨y 0, y 1, eq_ix2 y⟩
  rw [Pay.pay1_apply]
  simp only [counts_apply, whead_eq, View.readAt_eq_ld, harg2.read_unread, harg4.read_unread, harg5.read_unread,
    View.ld_unit_zero (S := S1280x32) off_zero, View.ld_unit_zero (S := S32x512) off_zero, View.ld_unit_zero (S := S1x512) off_zero]
  show ((constant (F := Ideal) S1280x512 .f32 0#32) (ix2 r d) + _) + _ + _ = _
  rw [constant_apply, Ideal.ofBits_zero_f32, zero_add]
  have e1 : View.ld x1 (Rect.unit (s := S1280x32) ![0, 0] ![1280, 32] Gen.inb_S1280x32_S1280x32_0_0) = x1 :=
    View.ld_unit_zero (S := S1280x32) off_zero _ x1
  have e3 : View.ld x3 (Rect.unit (s := S32x512) ![0, 0] ![32, 512] Gen.inb_S32x512_S32x512_0_0) = x3 :=
    View.ld_unit_zero (S := S32x512) off_zero _ x3
  have e4 : View.ld x4 (Rect.unit (s := S1x512) ![0, 0] ![1, 512] Gen.inb_S1x512_S1x512_0_0) = x4 :=
    View.ld_unit_zero (S := S1x512) off_zero _ x4
  rw [e1, e3, e4]
  rfl

end Cert.KernelIdeal.Block

end
-- ==== Proof.KHost.lean ====
/-
  The arrays the pallas_call is handed, read at an index, in terms of the program's arguments.
  Before the call @main flattens the batch and time axes of `code` into 12800 rows and transposes it to
  [40, 12800] (slot, row); flattens `others` to [12800, 32]; takes the first 526 rows of `W` and pads them
  with 114 zero rows to [640, 512]; takes the last 32 rows of `W`; and views the bias as one row [1, 512].
  Flat row `r` is batch `r / 200`, time `r % 200`.

  Each array is first named as a term of layout operations over the arguments (the `_term` lemmas), then that
  term is read at an index: a flattening keeps the row-major position, `(200 (r / 200) + r % 200) · n + k = r · n + k`;
  a transpose swaps the two coordinates; a slice adds its offset; a pad is its operand inside the operand's extent
  and the fill value, the integer zero as a real, outside it.
-/
import proofs.«413158_j8555574853999_3_alg».proof.Proof.KernelIdealFrame
import proofs.«413158_j8555574853999_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

noncomputable section

namespace Cert.KernelIdeal.HostValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The code array handed to the call: `code` flattened to [12800, 40], then transposed. -/
theorem code_term (c : Dev nD) :
    (V m c main_v1 : S40x12800.Idx → BitVec 32)
      = transpose S40x12800 [1, 0] (shapeCast S12800x40 (m ((c : Thread nD τ).loc main_arg0) : S64x200x40.Idx → BitVec 32) Facts₀.shapeCasts_S64x200x40_S12800x40) Facts₀.transposes_S12800x40_S40x12800_1_0 := by
  dsimp only [Gen.V, Gen.V0]
  simp only [Gen.hostOps0, Gen.hostOps0_1, Gen.hostOps0_2, List.flatten_cons, List.flatten_nil, List.append_nil, List.cons_append, List.nil_append]
  after_results <;> rfl

/-- The `others` array handed to the call: `others` flattened to [12800, 32]. -/
theorem others_term (c : Dev nD) :
    (V m c main_v2 : S12800x32.Idx → EReal)
      = shapeCast S12800x32 (m ((c : Thread nD τ).loc main_arg1) : S64x200x32.Idx → EReal) Facts₀.shapeCasts_S64x200x32_S12800x32 := by
  dsimp only [Gen.V, Gen.V0]
  simp only [Gen.hostOps0, Gen.hostOps0_1, Gen.hostOps0_2, List.flatten_cons, List.flatten_nil, List.append_nil, List.cons_append, List.nil_append]
  after_results <;> rfl

/-- The head of `W` handed to the call: rows 0 to 525 of `W`, then 114 rows of the integer zero made a real. -/
theorem whead_term (c : Dev nD) :
    (V m c main_v4 : S640x512.Idx → EReal)
      = pad S640x512 ![0, 0] ![114, 0] ![0, 0]
          (extractStridedSlice S526x512 ![0, 0] (m ((c : Thread nD τ).loc main_arg3) : S558x512.Idx → EReal) Facts₀.slices_S558x512_S526x512_0_0)
          (sitofp (F := Ideal) .f32 (constantI S_ 32 0#32)) Facts₀.pads_S526x512_S640x512_01140_000 Facts₀.h_S_ := by
  dsimp only [Gen.V, Gen.V0]
  simp only [Gen.hostOps0, Gen.hostOps0_1, Gen.hostOps0_2, List.flatten_cons, List.flatten_nil, List.append_nil, List.cons_append, List.nil_append]
  after_results <;> rfl

/-- The tail of `W` handed to the call: rows 526 to 557 of `W`. -/
theorem wtail_term (c : Dev nD) :
    (V m c main_v5 : S32x512.Idx → EReal)
      = extractStridedSlice S32x512 ![526, 0] (m ((c : Thread nD τ).loc main_arg3) : S558x512.Idx → EReal) Facts₀.slices_S558x512_S32x512_526_0 := by
  dsimp only [Gen.V, Gen.V0]
  simp only [Gen.hostOps0, Gen.hostOps0_1, Gen.hostOps0_2, List.flatten_cons, List.flatten_nil, List.append_nil, List.cons_append, List.nil_append]
  after_results <;> rfl

/-- The bias handed to the call: the bias as a [1, 512] array. -/
theorem bias_term (c : Dev nD) :
    (V m c main_v6 : S1x512.Idx → EReal)
      = shapeCast S1x512 (m ((c : Thread nD τ).loc main_arg4) : S512.Idx → EReal) Facts₀.shapeCasts_S512_S1x512 := by
  dsimp only [Gen.V, Gen.V0]
  simp only [Gen.hostOps0, Gen.hostOps0_1, Gen.hostOps0_2, List.flatten_cons, List.flatten_nil, List.append_nil, List.cons_append, List.nil_append]
  after_results <;> rfl

/-- The transposed, flattened code array at (slot `k`, flat row `r`) is `code (r / 200, r % 200, k)`. -/
theorem V_code (c : Dev nD) (k : Fin 40) (r : Fin 12800) :
    (V m c main_v1 : S40x12800.Idx → BitVec 32) (ix2 k r)
      = (m ((c : Thread nD τ).loc main_arg0) : S64x200x40.Idx → BitVec 32)
          (ix3 (⟨r.val / 200, by omega⟩ : Fin 64) (⟨r.val % 200, by omega⟩ : Fin 200) k) := by
  rw [code_term, transpose_ix2_apply]
  exact shapeCast_apply (s := S64x200x40) (t := S12800x40) _ _ _ _ (by
    rw [Shape.rowMajor_val_three, Shape.rowMajor_val_two]
    show (r.val / 200 * 200 + r.val % 200) * 40 + k.val = r.val * 40 + k.val
    omega)

/-- The flattened `others` at (flat row `r`, `o`) is `others (r / 200, r % 200, o)`. -/
theorem V_others (c : Dev nD) (r : Fin 12800) (o : Fin 32) :
    (V m c main_v2 : S12800x32.Idx → EReal) (ix2 r o)
      = (m ((c : Thread nD τ).loc main_arg1) : S64x200x32.Idx → EReal)
          (ix3 (⟨r.val / 200, by omega⟩ : Fin 64) (⟨r.val % 200, by omega⟩ : Fin 200) o) := by
  rw [others_term]
  exact shapeCast_apply (s := S64x200x32) (t := S12800x32) _ _ _ _ (by
    rw [Shape.rowMajor_val_three, Shape.rowMajor_val_two]
    show (r.val / 200 * 200 + r.val % 200) * 32 + o.val = r.val * 32 + o.val
    omega)

/-- The padded head of `W`: its first 526 rows are `W`'s. -/
theorem V_whead_lt (c : Dev nD) (j : Fin 640) (d : Fin 512) (hj : j.val < 526) :
    (V m c main_v4 : S640x512.Idx → EReal) (ix2 j d)
      = (m ((c : Thread nD τ).loc main_arg3) : S558x512.Idx → EReal) (ix2 (⟨j.val, by omega⟩ : Fin 558) d) := by
  rw [whead_term]
  rw [pad_apply_of_inside _ _ _ _ _ _ _ (ix2 j d) (ix2 (⟨j.val, hj⟩ : Fin 526) d) (fun a => match a with
    | ⟨0, _⟩ => by show j.val = 0 + j.val * (0 + 1); omega
    | ⟨1, _⟩ => by show d.val = 0 + d.val * (0 + 1); omega)]
  exact extractStridedSlice_apply _ _ _ _ _ (fun a => match a with
    | ⟨0, _⟩ => by show j.val = 0 + j.val; omega
    | ⟨1, _⟩ => by show d.val = 0 + d.val; omega)

/-- The padded head of `W`: its last 114 rows are zero. -/
theorem V_whead_ge (c : Dev nD) (j : Fin 640) (d : Fin 512) (hj : 526 ≤ j.val) :
    (V m c main_v4 : S640x512.Idx → EReal) (ix2 j d) = (0 : EReal) := by
  rw [whead_term]
  rw [pad_apply_of_not_inside _ _ _ _ _ _ _ (ix2 j d) (0 : Fin 2) (by
    show ¬(0 ≤ j.val ∧ (j.val - 0) % (0 + 1) = 0 ∧ (j.val - 0) / (0 + 1) < 526)
    omega)]
  show (((0#32 : BitVec 32).toInt : ℝ) : EReal) = 0
  simp

/-- The tail of `W`: row `o` is `W`'s row `526 + o`. -/
theorem V_wtail (c : Dev nD) (o : Fin 32) (d : Fin 512) :
    (V m c main_v5 : S32x512.Idx → EReal) (ix2 o d)
      = (m ((c : Thread nD τ).loc main_arg3) : S558x512.Idx → EReal) (ix2 (⟨526 + o.val, by omega⟩ : Fin 558) d) := by
  rw [wtail_term]
  exact extractStridedSlice_apply _ _ _ _ _ (fun a => match a with
    | ⟨0, _⟩ => rfl
    | ⟨1, _⟩ => by show d.val = 0 + d.val; omega)

/-- The bias viewed as one row. -/
theorem V_bias (c : Dev nD) (d : Fin 512) :
    (V m c main_v6 : S1x512.Idx → EReal) (ix2 (0 : Fin 1) d)
      = (m ((c : Thread nD τ).loc main_arg4) : S512.Idx → EReal) (ix1 d) := by
  rw [bias_term]
  exact shapeCast_apply (s := S512) (t := S1x512) _ _ _ _ (by
    rw [Shape.rowMajor_val_one, Shape.rowMajor_val_two]
    show d.val = 0 * 512 + d.val
    omega)

end Cert.KernelIdeal.HostValue

end
-- ==== Proof.KArray.lean ====
/-
  The idealized kernel's run, with its result array named: it ends at `G` of the arguments.
  The grid has ten points; point `t` works on flat rows `1280 t … 1280 t + 1279`: it is handed columns
  `1280 t …` of the transposed code array, rows `1280 t …` of the flattened `others`, and the whole of the
  padded head of `W`, the tail of `W` and the bias row, and writes rows `1280 t …` of the [12800, 512] output.
  The ten output blocks tile the output, so entry `(r, d)` of it is the block function of the point `r / 1280`
  at row `r % 1280`; in the head's product the 114 padded rows contribute `x · 0 = 0`, which leaves the 526
  counts against `W`'s first rows. @main's last operation views the [12800, 512] output as [64, 200, 512].
-/
import proofs.«413158_j8555574853999_3_alg».proof.Proof.KBlock
import proofs.«413158_j8555574853999_3_alg».proof.Proof.KHost

set_option maxRecDepth 131072

noncomputable section

open scoped BigOperators

namespace Cert.KernelIdeal.ArrayValue

open Idealize.ShloMosaic Idealize.ShloMosaic.TcCoe Idealize.ShloMosaic.ValueIdx Idealize.SL.Sem
open Cert.KernelIdeal Cert.KernelIdeal.Gen Cert.MultiHot

variable (m : (ℓ : Loc nD τ sig) → Buf (Elt Ideal) ℓ) (ρ : Dev nD → PrngReg)

/-! ## The result with batch and time flattened -/

/-- Entry `(r, d)` of the [12800, 512] output: `G` at batch `r / 200`, time `r % 200`, column `d`. -/
def Gflat (code : S64x200x40.Idx → BitVec 32) (others : S64x200x32.Idx → EReal) (W : S558x512.Idx → EReal)
    (bias : S512.Idx → EReal) : S12800x512.Idx → EReal := fun i =>
  G code others W bias (ix3 (⟨(i 0).val / 200, by have := idx2_lt0 i; omega⟩ : Fin 64)
    (⟨(i 0).val % 200, Nat.mod_lt _ (by decide)⟩ : Fin 200) (⟨(i 1).val, idx2_lt1 i⟩ : Fin 512))

/-! ## One grid point -/

/-- The index maps over the ten grid points: at point `t` the code block is block `(0, t)`, the `others` block and
    the output block are block `(t, 0)`, and the padded head of `W`, the tail of `W` and the bias row are each
    their one block `(0, 0)`. -/
theorem block_indices : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a point's output block. Suppose row `p` of the point's blocks is flat row `(b, s)` of the
    arguments — its forty code words are `code (b, s, ·)`, its `others` row is `others (b, s, ·)` — and column `d`
    of the padded head is `W`'s column `d` on the first 526 rows and zero on the last 114, column `d` of the tail
    is `W`'s rows 526 … 557, and the bias row holds `bias d`. Then entry `(p, d)` of the block is `G (b, s, d)`:
    each of the 114 padded terms is `x · 0 = 0`, and what is left is, term by term, the sum that defines `G`. -/
theorem blockOut_entry (x0 : Vec Ideal S40x1280 .i32) (x1 : Vec Ideal S1280x32 .f32) (x2 : Vec Ideal S640x512 .f32)
    (x3 : Vec Ideal S32x512 .f32) (x4 : Vec Ideal S1x512 .f32)
    (code : S64x200x40.Idx → BitVec 32) (others : S64x200x32.Idx → EReal) (W : S558x512.Idx → EReal)
    (bias : S512.Idx → EReal) (p : Fin 1280) (d : Fin 512) (b : Fin 64) (s : Fin 200)
    (h0 : ∀ k : Fin 40, x0 (ix2 k p) = code (ix3 b s k))
    (h1 : ∀ o : Fin 32, x1 (ix2 p o) = others (ix3 b s o))
    (h2 : ∀ (j : Fin 640) (hj : j.val < 526), x2 (ix2 j d) = W (ix2 (⟨j.val, by omega⟩ : Fin 558) d))
    (h2z : ∀ j : Fin 640, 526 ≤ j.val → x2 (ix2 j d) = 0)
    (h3 : ∀ o : Fin 32, x3 (ix2 o d) = W (ix2 (⟨526 + o.val, by omega⟩ : Fin 558) d))
    (h4 : x4 (ix2 (0 : Fin 1) d) = bias (ix1 d)) :
    Block.blockOut x0 x1 x2 x3 x4 (ix2 p d) = G code others W bias (ix3 b s d) := by
  unfold Block.blockOut Cert.MultiHot.G Cert.MultiHot.count
  show (∑ j : Fin 640, (∑ k : Fin 40, hit (x0 (ix2 k p)) j.val) * x2 (ix2 j d))
        + (∑ o : Fin 32, x1 (ix2 p o) * x3 (ix2 o d)) + x4 (ix2 (0 : Fin 1) d)
      = (∑ j : Fin 526, (∑ k : Fin 40, hit (code (ix3 b s k)) j.val) * W (ix2 (⟨j.val, by omega⟩ : Fin 558) d))
        + (∑ o : Fin 32, others (ix3 b s o) * W (ix2 (⟨526 + o.val, by omega⟩ : Fin 558) d)) + bias (ix1 d)
  rw [h4]
  congr 1
  congr 1
  · rw [sum_head_of_tail_zero 526 114 rfl _ (fun o => by rw [h2z _ (Nat.le_add_right 526 o.val)]; exact mul_zero _)]
    refine Finset.sum_congr rfl fun j _ => ?_
    rw [h2 _ j.isLt]
    simp only [h0]
  · exact Finset.sum_congr rfl fun o _ => by rw [h1, h3]

/-- Entry `(k, p)` of the code block at point `t` is entry `(k, 1280 t + p)` of the transposed code array. -/
theorem codeBlock_apply (c : Dev nD) (t : Fin cfg0.N) (k : Fin 40) (p : Fin 1280) (r : Fin 12800)
    (hr : r.val = 1280 * t.val + p.val) :
    (iblk m c 0 t : Vec Ideal S40x1280 .i32) (ix2 k p) = (V m c main_v1 : S40x12800.Idx → BitVec 32) (ix2 k r) := by
  obtain ⟨e00, e01, -⟩ := block_indices t
  unfold iblk
  rw [View.read_apply]
  show V m c main_v1 _ = V m c main_v1 _
  congr 1
  funext a
  apply Fin.ext
  match a with
  | ⟨0, _⟩ => show win0_0.index t (0 : Fin 2) * 40 + 1 * k.val = k.val; rw [e00]; omega
  | ⟨1, _⟩ => show win0_0.index t (1 : Fin 2) * 1280 + 1 * p.val = r.val; rw [e01, hr]; omega

/-- Entry `(p, o)` of the `others` block at point `t` is entry `(1280 t + p, o)` of the flattened `others`. -/
theorem othersBlock_apply (c : Dev nD) (t : Fin cfg0.N) (p : Fin 1280) (o : Fin 32) (r : Fin 12800)
    (hr : r.val = 1280 * t.val + p.val) :
    (iblk m c 1 t : Vec Ideal S1280x32 .f32) (ix2 p o) = (V m c main_v2 : S12800x32.Idx → EReal) (ix2 r o) := by
  obtain ⟨-, -, e10, e11, -⟩ := block_indices t
  unfold iblk
  rw [View.read_apply]
  show V m c main_v2 _ = V m c main_v2 _
  congr 1
  funext a
  apply Fin.ext
  match a with
  | ⟨0, _⟩ => show win0_1.index t (0 : Fin 2) * 1280 + 1 * p.val = r.val; rw [e10, hr]; omega
  | ⟨1, _⟩ => show win0_1.index t (1 : Fin 2) * 32 + 1 * o.val = o.val; rw [e11]; omega

/-- Every point sees the whole padded head of `W`. -/
theorem wheadBlock_apply (c : Dev nD) (t : Fin cfg0.N) (j : Fin 640) (d : Fin 512) :
    (iblk m c 2 t : Vec Ideal S640x512 .f32) (ix2 j d) = (V m c main_v4 : S640x512.Idx → EReal) (ix2 j d) := by
  obtain ⟨-, -, -, -, e20, e21, -⟩ := block_indices t
  unfold iblk
  rw [View.read_apply]
  show V m c main_v4 _ = V m c main_v4 _
  congr 1
  funext a
  apply Fin.ext
  match a with
  | ⟨0, _⟩ => show win0_2.index t (0 : Fin 2) * 640 + 1 * j.val = j.val; rw [e20]; omega
  | ⟨1, _⟩ => show win0_2.index t (1 : Fin 2) * 512 + 1 * d.val = d.val; rw [e21]; omega

/-- Every point sees the whole tail of `W`. -/
theorem wtailBlock_apply (c : Dev nD) (t : Fin cfg0.N) (o : Fin 32) (d : Fin 512) :
    (iblk m c 3 t : Vec Ideal S32x512 .f32) (ix2 o d) = (V m c main_v5 : S32x512.Idx → EReal) (ix2 o d) := by
  obtain ⟨-, -, -, -, -, -, e30, e31, -⟩ := block_indices t
  unfold iblk
  rw [View.read_apply]
  show V m c main_v5 _ = V m c main_v5 _
  congr 1
  funext a
  apply Fin.ext
  match a with
  | ⟨0, _⟩ => show win0_3.index t (0 : Fin 2) * 32 + 1 * o.val = o.val; rw [e30]; omega
  | ⟨1, _⟩ => show win0_3.index t (1 : Fin 2) * 512 + 1 * d.val = d.val; rw [e31]; omega

/-- Every point sees the whole bias row. -/
theorem biasBlock_apply (c : Dev nD) (t : Fin cfg0.N) (z : Fin 1) (d : Fin 512) :
    (iblk m c 4 t : Vec Ideal S1x512 .f32) (ix2 z d) = (V m c main_v6 : S1x512.Idx → EReal) (ix2 z d) := by
  obtain ⟨-, -, -, -, -, -, -, -, e40, e41, -⟩ := block_indices t
  unfold iblk
  rw [View.read_apply]
  show V m c main_v6 _ = V m c main_v6 _
  congr 1
  funext a
  apply Fin.ext
  match a with
  | ⟨0, _⟩ => show win0_4.index t (0 : Fin 2) * 1 + 1 * z.val = z.val; rw [e40]; omega
  | ⟨1, _⟩ => show win0_4.index t (1 : Fin 2) * 512 + 1 * d.val = d.val; rw [e41]; omega

/-- Entry `(p, d)` of the output block at point `t` sits at `(1280 t + p, d)` of the output array. -/
theorem outBlock_emb (t : Fin cfg0.N) (p : Fin 1280) (d : Fin 512) (r : Fin 12800) (hr : r.val = 1280 * t.val + p.val) :
    ((cfg0.win 5).blk t).view.emb (ix2 p d) = (ix2 r d : S12800x512.Idx) := by
  obtain ⟨-, -, -, -, -, -, -, -, -, -, e50, e51⟩ := block_indices t
  funext a
  apply Fin.ext
  match a with
  | ⟨0, _⟩ => show win0_5.index t (0 : Fin 2) * 1280 + 1 * p.val = r.val; rw [e50, hr]; omega
  | ⟨1, _⟩ => show win0_5.index t (1 : Fin 2) * 512 + 1 * d.val = d.val; rw [e51]; omega

/-- What point `t` writes back is block `t` of `Gflat` of the arguments: row `p` of the point's blocks is flat row
    `1280 t + p`, which the arrays handed to the call read at batch `(1280 t + p) / 200`, time
    `(1280 t + p) % 200` of the arguments. -/
theorem written_back_eq (c : Dev nD) (t : Fin cfg0.N) :
    (GenP.dats m 0 c).flushed 5 t = ((cfg0.win 5).blk t).view.read (Elt Ideal)
      (Gflat (m ((c : Thread nD τ).loc main_arg0)) (m ((c : Thread nD τ).loc main_arg1))
        (m ((c : Thread nD τ).loc main_arg3)) (m ((c : Thread nD τ).loc main_arg4))) := by
  show (cfg0.win 5).cut (grid0.coords t) ((GenP.dats m 0 c).after 5 t) = _
  rw [GenP.after0_5]
  unfold GenP.outsAt0
  rw [Block.out0_A_5_eq]
  funext y
  obtain ⟨p, d, rfl⟩ : ∃ (p : Fin 1280) (d : Fin 512), y = ix2 p d := ⟨y 0, y 1, eq_ix2 y⟩
  have hN : cfg0.N = 10 := N_0
  have ht : t.val < 10 := hN ▸ t.isLt
  have hrlt : 1280 * t.val + p.val < 12800 := by have := p.isLt; omega
  rw [View.read_apply, outBlock_emb t p d ⟨1280 * t.val + p.val, hrlt⟩ rfl]
  exact blockOut_entry (iblk m c 0 t) (iblk m c 1 t) (iblk m c 2 t) (iblk m c 3 t) (iblk m c 4 t)
    (m ((c : Thread nD τ).loc main_arg0)) (m ((c : Thread nD τ).loc main_arg1))
    (m ((c : Thread nD τ).loc main_arg3)) (m ((c : Thread nD τ).loc main_arg4)) p d
    (⟨(1280 * t.val + p.val) / 200, by omega⟩ : Fin 64) (⟨(1280 * t.val + p.val) % 200, Nat.mod_lt _ (by decide)⟩ : Fin 200)
    (fun k => (codeBlock_apply m c t k p ⟨1280 * t.val + p.val, hrlt⟩ rfl).trans
      (HostValue.V_code m c k ⟨1280 * t.val + p.val, hrlt⟩))
    (fun o => (othersBlock_apply m c t p o ⟨1280 * t.val + p.val, hrlt⟩ rfl).trans
      (HostValue.V_others m c ⟨1280 * t.val + p.val, hrlt⟩ o))
    (fun j hj => (wheadBlock_apply m c t j d).trans (HostValue.V_whead_lt m c j d hj))
    (fun j hj => (wheadBlock_apply m c t j d).trans (HostValue.V_whead_ge m c j d hj))
    (fun o => (wtailBlock_apply m c t o d).trans (HostValue.V_wtail m c o d))
    ((biasBlock_apply m c t 0 d).trans (HostValue.V_bias m c d))

/-! ## The ten blocks tile the output -/

/-- An index of the output array lies in point `t`'s block iff on each axis its coordinate lies in the block's
    range: block index times block size, and one block size further. -/
theorem mem_outBlock (t : Fin cfg0.N) (i : S12800x512.Idx) :
    i ∈ ((cfg0.win 5).blk t).view.set ↔ ∀ a : Fin 2, win0_5.index t a * S1280x512.size a ≤ (i a).val
      ∧ (i a).val < win0_5.index t a * S1280x512.size a + S1280x512.size a := by
  show i ∈ ((View.whole main_v7).slice (win0_5.rect t)).set ↔ _
  rw [View.set_slice_whole, Rect.mem_set_unit]
  exact Iff.rfl

/-- Every index `(r, d)` of the output array lies in the block of the point `r / 1280`, which writes it back. -/
theorem rows_covered (i : S12800x512.Idx) :
    ∃ t : Fin cfg0.N, (cfg0.win 5).flush t = true ∧ i ∈ ((cfg0.win 5).blk t).view.set := by
  have hN : cfg0.N = 10 := N_0
  have h0 : (i 0).val < 12800 := idx2_lt0 i
  have h1 : (i 1).val < 512 := idx2_lt1 i
  have hq : (i 0).val / 1280 < cfg0.N := by rw [hN]; omega
  obtain ⟨-, -, -, -, -, -, -, -, -, -, e50, e51⟩ := block_indices ⟨(i 0).val / 1280, hq⟩
  refine ⟨⟨(i 0).val / 1280, hq⟩, flush0_5 _, ?_⟩
  rw [mem_outBlock]
  intro a
  match a with
  | ⟨0, _⟩ =>
    show win0_5.index ⟨(i 0).val / 1280, hq⟩ (0 : Fin 2) * 1280 ≤ (i 0).val
      ∧ (i 0).val < win0_5.index ⟨(i 0).val / 1280, hq⟩ (0 : Fin 2) * 1280 + 1280
    rw [e50]; show (i 0).val / 1280 * 1280 ≤ (i 0).val ∧ (i 0).val < (i 0).val / 1280 * 1280 + 1280; omega
  | ⟨1, _⟩ =>
    show win0_5.index ⟨(i 0).val / 1280, hq⟩ (1 : Fin 2) * 512 ≤ (i 1).val
      ∧ (i 1).val < win0_5.index ⟨(i 0).val / 1280, hq⟩ (1 : Fin 2) * 512 + 512
    rw [e51]; omega

/-- So after the ten points the [12800, 512] output array is `Gflat` of the arguments. -/
theorem out_array_eq (c : Dev nD) : (GenP.dats m 0 c).arrAt 5 cfg0.N
    = Gflat (m ((c : Thread nD τ).loc main_arg0)) (m ((c : Thread nD τ).loc main_arg1))
        (m ((c : Thread nD τ).loc main_arg3)) (m ((c : Thread nD τ).loc main_arg4)) :=
  (GenP.dats m 0 c).arrAt_eq_of_cover 5 _ (fun t _ => written_back_eq m c t) rows_covered

/-! ## The view as [64, 200, 512], and the run -/

/-- @main's last operation views the [12800, 512] output as [64, 200, 512]: entry `(b, s, d)` is entry
    `(200 b + s, d)`, whose batch and time are `(200 b + s) / 200 = b` and `(200 b + s) % 200 = s`. -/
theorem reshaped_eq (c : Dev nD) :
    Pipeline.afterTail₀ cfgs (GenP.dats m) 0 (V0 m) [hostOps1] c main_v8
      = G (m ((c : Thread nD τ).loc main_arg0)) (m ((c : Thread nD τ).loc main_arg1))
          (m ((c : Thread nD τ).loc main_arg3)) (m ((c : Thread nD τ).loc main_arg4)) := by
  unfold Pipeline.afterTail₀
  show StableHlo.after hostOps1 _ (Proc.devRef .tc main_v8) = _
  after_results
  rw [(Pipeline.withArrays_arr spec0 launch0.win.arr_inj c _ _ 5).trans (out_array_eq m c)]
  funext i
  obtain ⟨b, s, d, rfl⟩ : ∃ (b : Fin 64) (s : Fin 200) (d : Fin 512), i = ix3 b s d := ⟨i 0, i 1, i 2, eq_ix3 i⟩
  have hr : b.val * 200 + s.val < 12800 := by have := b.isLt; have := s.isLt; omega
  refine (shapeCast_apply (s := S12800x512) (t := S64x200x512) _ _ (ix3 b s d)
    (ix2 (⟨b.val * 200 + s.val, hr⟩ : Fin 12800) d) ?_).trans ?_
  · rw [Shape.rowMajor_val_two, Shape.rowMajor_val_three]
    rfl
  · have hb : (⟨(b.val * 200 + s.val) / 200, by omega⟩ : Fin 64) = b :=
      Fin.ext (by have := s.isLt; show (b.val * 200 + s.val) / 200 = b.val; omega)
    have hs : (⟨(b.val * 200 + s.val) % 200, Nat.mod_lt _ (by decide)⟩ : Fin 200) = s :=
      Fin.ext (by have := s.isLt; show (b.val * 200 + s.val) % 200 = s.val; omega)
    show G _ _ _ _ (ix3 (⟨(b.val * 200 + s.val) / 200, _⟩ : Fin 64) (⟨(b.val * 200 + s.val) % 200, _⟩ : Fin 200) d) = _
    rw [hb, hs]

/-- Every weakly fair execution of the idealized kernel's @main terminates with the result array at `G` of the
    arguments and the arguments unchanged. -/
theorem run_value :
    θ_run (defs (F := Ideal)) (onTc (τ := τ) (main (F := Ideal))) ⟨m, fun _ => 0, ρ⟩ (fun r => ∀ c : Dev nD,
      r.2.mem ((c.tc : Thread nD τ).loc main_v8)
          = G (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (reshaped_eq m c),
      ((h c).2 main_arg0 (Pipeline.mem_restRefs_of main_arg0 (by decide) (by decide))).trans (W_main_arg0 m (GenP.dats m) c),
      ((h c).2 main_arg1 (Pipeline.mem_restRefs_of main_arg1 (by decide) (by decide))).trans (W_main_arg1 m (GenP.dats m) c),
      ((h c).2 main_arg2 (Pipeline.mem_restRefs_of main_arg2 (by decide) (by decide))).trans (W_main_arg2 m (GenP.dats m) c),
      ((h c).2 main_arg3 (Pipeline.mem_restRefs_of main_arg3 (by decide) (by decide))).trans (W_main_arg3 m (GenP.dats m) c),
      ((h c).2 main_arg4 (Pipeline.mem_restRefs_of main_arg4 (by decide) (by decide))).trans (W_main_arg4 m (GenP.dats m) c)⟩)
    (GenP.run_main m ρ)

end Cert.KernelIdeal.ArrayValue

end
-- ==== Proof.RefRun.lean ====
/-
  The reference's run and its read-at-an-index lemmas, brought into the certificate: the reference is a
  straight-line host program (a scatter-add of ones building the multi-hot bag, a concatenation with
  `others`, one contraction with `W` and the bias), and every later module that speaks of what it computes
  reads it through these two.
-/
import proofs.«413158_j8555574853999_3_alg».proof.Proof.Gen.ReferenceIdeal.Run
import proofs.«413158_j8555574853999_3_alg».proof.Proof.Gen.ReferenceIdeal.Read
-- ==== Proof.RefBag.lean ====
/-
  The bag the reference builds by scatter-add, read at one entry.
  The reference scatters a one for each of the 512000 slots `n` into a zero array of shape [12800, 526], at row
  `n / 40` (the slot's flat row) and column `code n`, a negative column first moved up by 526; an update whose
  target lies outside the array is dropped. When every code is non-negative the column is the code itself, so
  entry `(r, j)` ends at the number of slots `k < 40` of flat row `r = 200 b + t` whose code is `j`.

  The steps: an update lands at `(r, j)` exactly when its index vector, read signed, is `(r, j)`; slot `n`'s index
  vector is `(n / 40, code n)`; so the entry is the sum, over all slots, of one for each slot of flat row `r` with
  code `j`. Writing the slots as pairs (flat row, slot in the row), the sum over the rows keeps the one row `r`, and
  what is left is the count of that row's forty slots.
-/
import proofs.«413158_j8555574853999_3_alg».proof.Proof.RefRun
import proofs.«413158_j8555574853999_3_alg».proof.Proof.Spec
import Idealize.ShloMosaic.Lib.IdealHost

noncomputable section

open scoped BigOperators

namespace Cert.ReferenceIdeal.RefBag

open Idealize.ShloMosaic Idealize.ShloMosaic.ValueIdx Cert.ReferenceIdeal Cert.ReferenceIdeal.Gen Cert.ReferenceIdeal.Read Cert.MultiHot

/-! ## Where an update lands -/

/-- The scatter's dimension numbers: both operand axes are indexed (the index vector has two components), no window axes. -/
abbrev dS := scatter_S12800x526_S512000x2_S512000_n_01_01_1

/-- The start of update `n` on the row axis is the first component of its index vector, read signed. -/
theorem start_zero (n : S512000.Idx) (idx : IVec S512000x2 32) :
    dS.start n idx (0 : Fin 2) = (idx (ix2 (n 0) (0 : Fin 2))).toInt := by
  unfold ScatterDims.start
  rw [dif_pos (show (0 : Fin S12800x526.rank) ∈ dS.scatterDimsToOperandDims by decide)]
  congr 2
  funext b
  match b with
  | ⟨0, _⟩ => rfl
  | ⟨1, _⟩ => rfl

/-- The start of update `n` on the column axis is the second component of its index vector, read signed. -/
theorem start_one (n : S512000.Idx) (idx : IVec S512000x2 32) :
    dS.start n idx (1 : Fin 2) = (idx (ix2 (n 0) (1 : Fin 2))).toInt := by
  unfold ScatterDims.start
  rw [dif_pos (show (1 : Fin S12800x526.rank) ∈ dS.scatterDimsToOperandDims by decide)]
  congr 2
  funext b
  match b with
  | ⟨0, _⟩ => rfl
  | ⟨1, _⟩ => rfl

/-- There are no window axes: an update is one element, at offset zero from its start on both axes. -/
theorem window_eq (n : S512000.Idx) (a : Fin 2) : dS.window n a = 0 := by
  have hk : dS.sKept = [] := by decide
  unfold ScatterDims.window
  rw [dif_neg (by rw [hk]; exact List.not_mem_nil)]

/-- Where an update lands. Update `n` of the scatter lands at entry `(r, j)` exactly when the two components of its
    index vector, read as signed integers, are `r` and `j`: with no window axes the landing index is the start index,
    and a start outside the array drops the update. -/
theorem resultIdx_iff (n : S512000.Idx) (idx : IVec S512000x2 32) (r : Fin 12800) (j : Fin 526) :
    dS.resultIdx? n idx = some (ix2 r j) ↔
      (idx (ix2 (n 0) (0 : Fin 2))).toInt = (r.val : Int) ∧ (idx (ix2 (n 0) (1 : Fin 2))).toInt = (j.val : Int) := by
  have h0 := start_zero n idx
  have h1 := start_one n idx
  have w0 := window_eq n 0
  have w1 := window_eq n 1
  unfold ScatterDims.resultIdx?
  constructor
  · intro h
    split at h
    · next hh =>
      have e := Option.some.inj h
      have e0 := congrArg Fin.val (congrFun e (0 : Fin 2))
      have e1 := congrArg Fin.val (congrFun e (1 : Fin 2))
      have g0 := (hh (0 : Fin 2)).1
      have g1 := (hh (1 : Fin 2)).1
      simp only [] at e0 e1
      rw [h0, w0] at e0 g0
      rw [h1, w1] at e1 g1
      have e0' : ((idx (ix2 (n 0) (0 : Fin 2))).toInt + ((0 : Nat) : Int)).toNat = r.val := e0
      have e1' : ((idx (ix2 (n 0) (1 : Fin 2))).toInt + ((0 : Nat) : Int)).toNat = j.val := e1
      constructor <;> omega
    · exact absurd h (by simp)
  · rintro ⟨a0, a1⟩
    have hh : ∀ a, 0 ≤ dS.start n idx a + dS.window n a ∧ dS.start n idx a + dS.window n a < S12800x526.size a := by
      intro a
      match a with
      | ⟨0, _⟩ =>
        show 0 ≤ dS.start n idx (0 : Fin 2) + dS.window n (0 : Fin 2) ∧ dS.start n idx (0 : Fin 2) + dS.window n (0 : Fin 2) < ((12800 : Nat) : Int)
        rw [h0, w0, a0]; have := r.isLt; omega
      | ⟨1, _⟩ =>
        show 0 ≤ dS.start n idx (1 : Fin 2) + dS.window n (1 : Fin 2) ∧ dS.start n idx (1 : Fin 2) + dS.window n (1 : Fin 2) < ((526 : Nat) : Int)
        rw [h1, w1, a1]; have := j.isLt; omega
    rw [dif_pos hh]
    congr 1
    funext a
    apply Fin.ext
    match a with
    | ⟨0, _⟩ =>
      show (dS.start n idx (0 : Fin 2) + dS.window n (0 : Fin 2)).toNat = r.val
      rw [h0, w0, a0]; omega
    | ⟨1, _⟩ =>
      show (dS.start n idx (1 : Fin 2) + dS.window n (1 : Fin 2)).toNat = j.val
      rw [h1, w1, a1]; omega

/-! ## Words -/

/-- A word below 2^31 read as a signed integer is itself. -/
theorem toInt_ofNat_small (q : Nat) (h : q < 2147483648) : (BitVec.ofNat 32 q).toInt = (q : Int) := by
  have hq : (BitVec.ofNat 32 q).toNat = q := by rw [BitVec.toNat_ofNat]; omega
  rw [BitVec.toInt_eq_toNat_of_lt (by rw [hq]; omega), hq]

/-- A word is the number `j < 526` as a signed integer exactly when it is the word of `j`. -/
theorem toInt_eq_iff (w : BitVec 32) (j : Nat) (hj : j < 526) : w.toInt = (j : Int) ↔ w = BitVec.ofNat 32 j := by
  constructor
  · intro h
    apply BitVec.eq_of_toInt_eq
    rw [h, toInt_ofNat_small j (by omega)]
  · intro h
    rw [h, toInt_ofNat_small j (by omega)]

/-- The signed test "below zero" fails on a word that is not negative. -/
theorem cmpi_slt_zero (w : BitVec 32) (h : 0 ≤ w.toInt) : IntOp.cmpi .slt w 0#32 = 0#1 := by
  have hs : w.slt 0#32 = false := by
    rw [BitVec.slt_eq_decide, BitVec.toInt_zero]
    exact decide_eq_false (by omega)
  show BitVec.ofBool (w.slt 0#32) = 0#1
  rw [hs]; rfl

/-! ## The index vector of a slot -/

/-- The first component of slot `m`'s index vector: the word of the slot's flat row `m / 40`, which is never negative,
    so the reference's wrap of negative rows leaves it alone. -/
theorem col0 (x0 : (⟨S64x200x40, .i32⟩ : BufTy).Contents (Elt Ideal)) (m : Fin 512000) :
    val_main_v17 (F := Ideal) x0 (ix2 m (0 : Fin 2)) = BitVec.ofNat 32 (m.val / 40) := by
  unfold val_main_v17
  rw [concatenate_pair_apply_left (1 : Fin 2) (val_main_v15 (F := Ideal)) (val_main_v16 (F := Ideal) x0)
    concatenates_S512000x1_S512000x1_S512000x2_d1 (ix2 m (0 : Fin 2)) rfl (ix2 m (0 : Fin 1))
    (fun b => match b with | ⟨0, _⟩ => rfl | ⟨1, _⟩ => rfl)]
  rw [val_main_v15_apply, val_main_v9_apply, val_main_v6_apply, val_main_v2_apply, val_main_v1_apply, val_main_v0_apply,
    val_main_v5_apply, val_main_c_apply]
  show Scalar.select (IntOp.cmpi .slt (BitVec.ofNat 32 (m.val / 40)) 0#32) _ (BitVec.ofNat 32 (m.val / 40)) = _
  rw [cmpi_slt_zero _ (by rw [toInt_ofNat_small _ (by have := m.isLt; omega)]; omega), select_zero]

/-- The second component of slot `m`'s index vector: the slot's code, when that is not negative (a negative code
    would be moved up by 526). Slot `m` is slot `m % 40` of row `(m / 8000, m / 40 % 200)`. -/
theorem col1 (x0 : (⟨S64x200x40, .i32⟩ : BufTy).Contents (Elt Ideal)) (hpos : ∀ i, 0 ≤ (x0 i).toInt) (m : Fin 512000) :
    val_main_v17 (F := Ideal) x0 (ix2 m (1 : Fin 2)) = x0 (idx_main_v4 (ix1 m)) := by
  unfold val_main_v17
  rw [concatenate_pair_apply_right (1 : Fin 2) (val_main_v15 (F := Ideal)) (val_main_v16 (F := Ideal) x0)
    concatenates_S512000x1_S512000x1_S512000x2_d1 (ix2 m (1 : Fin 2)) rfl rfl (ix2 m (0 : Fin 1))
    (fun b => match b with | ⟨0, _⟩ => fun _ => rfl | ⟨1, _⟩ => fun hb => absurd rfl hb) rfl]
  rw [val_main_v16_apply, val_main_v14_apply, val_main_v11_apply, val_main_v4_apply, val_main_v10_apply, val_main_c_1_apply]
  show Scalar.select (IntOp.cmpi .slt (x0 (idx_main_v4 (ix1 m))) 0#32) _ (x0 (idx_main_v4 (ix1 m))) = _
  rw [cmpi_slt_zero _ (hpos _), select_zero]

/-! ## The entry as a sum over rows and slots -/

/-- The 512000 slots are the pairs (flat row, slot in the row): slot `40 r + k` is slot `k` of flat row `r`. -/
def slotEquiv : Fin 12800 × Fin 40 ≃ S512000.Idx where
  toFun p := ix1 (⟨p.1.val * 40 + p.2.val, by have := p.1.isLt; have := p.2.isLt; omega⟩ : Fin 512000)
  invFun n := (⟨(n 0).val / 40, by have h : (n 0).val < 512000 := (n 0).isLt; omega⟩,
    ⟨(n 0).val % 40, Nat.mod_lt _ (by decide)⟩)
  left_inv p := Prod.ext
    (Fin.ext (by show (p.1.val * 40 + p.2.val) / 40 = p.1.val; have := p.2.isLt; omega))
    (Fin.ext (by show (p.1.val * 40 + p.2.val) % 40 = p.2.val; have := p.2.isLt; omega))
  right_inv n := funext fun a => match a with
    | ⟨0, _⟩ => Fin.ext (by show (n 0).val / 40 * 40 + (n 0).val % 40 = (n 0).val; omega)

/-- What slot `k` of flat row `r'` adds to entry `(r, j)`: one when `r'` is `r` and the slot's code is `j`, else nothing.
    Flat row `r'` is row `(r' / 200, r' % 200)` of the code array. -/
theorem term_eq (x0 : (⟨S64x200x40, .i32⟩ : BufTy).Contents (Elt Ideal)) (hpos : ∀ i, 0 ≤ (x0 i).toInt)
    (r r' : Fin 12800) (k : Fin 40) (j : Fin 526) :
    (if dS.resultIdx? (slotEquiv (r', k)) (val_main_v17 (F := Ideal) x0) = some (ix2 r j)
      then val_main_v18 (F := Ideal) (slotEquiv (r', k)) else 0)
    = if r' = r then hit (x0 (ix3 (⟨r'.val / 200, by have := r'.isLt; omega⟩ : Fin 64)
        (⟨r'.val % 200, Nat.mod_lt _ (by decide)⟩ : Fin 200) k)) j.val else 0 := by
  have hm : r'.val * 40 + k.val < 512000 := by have := r'.isLt; have := k.isLt; omega
  have key : dS.resultIdx? (slotEquiv (r', k)) (val_main_v17 (F := Ideal) x0) = some (ix2 r j) ↔
      (r' = r ∧ x0 (ix3 (⟨r'.val / 200, by have := r'.isLt; omega⟩ : Fin 64)
        (⟨r'.val % 200, Nat.mod_lt _ (by decide)⟩ : Fin 200) k) = BitVec.ofNat 32 j.val) := by
    rw [resultIdx_iff]
    show (val_main_v17 (F := Ideal) x0 (ix2 (⟨r'.val * 40 + k.val, hm⟩ : Fin 512000) (0 : Fin 2))).toInt = _ ∧
      (val_main_v17 (F := Ideal) x0 (ix2 (⟨r'.val * 40 + k.val, hm⟩ : Fin 512000) (1 : Fin 2))).toInt = _ ↔ _
    rw [col0, col1 x0 hpos, toInt_ofNat_small _ (by show (r'.val * 40 + k.val) / 40 < 2147483648; omega),
      toInt_eq_iff _ _ j.isLt]
    have hi : idx_main_v4 (ix1 (⟨r'.val * 40 + k.val, hm⟩ : Fin 512000)) =
        ix3 (⟨r'.val / 200, by have := r'.isLt; omega⟩ : Fin 64) (⟨r'.val % 200, Nat.mod_lt _ (by decide)⟩ : Fin 200) k :=
      funext fun a => match a with
        | ⟨0, _⟩ => Fin.ext (by show (r'.val * 40 + k.val) / 8000 = r'.val / 200; have := k.isLt; omega)
        | ⟨1, _⟩ => Fin.ext (by show (r'.val * 40 + k.val) / 40 % 200 = r'.val % 200; have := k.isLt; omega)
        | ⟨2, _⟩ => Fin.ext (by show (r'.val * 40 + k.val) % 40 = k.val; have := k.isLt; omega)
    rw [hi]
    have hk := k.isLt
    constructor
    · rintro ⟨h1, h2⟩
      exact ⟨Fin.ext (by show r'.val = r.val; change (((r'.val * 40 + k.val) / 40 : Nat) : Int) = (r.val : Int) at h1; omega), h2⟩
    · rintro ⟨h1, h2⟩
      subst h1
      exact ⟨by show (((r'.val * 40 + k.val) / 40 : Nat) : Int) = (r'.val : Int); omega, h2⟩
  rw [val_main_v18_apply, val_main_cst_3_apply, Ideal.ofBits_def, Ideal.ofBits_one_f32]
  unfold hit
  by_cases h1 : r' = r
  · by_cases h2 : x0 (ix3 (⟨r'.val / 200, by have := r'.isLt; omega⟩ : Fin 64)
        (⟨r'.val % 200, Nat.mod_lt _ (by decide)⟩ : Fin 200) k) = BitVec.ofNat 32 j.val
    · rw [if_pos (key.2 ⟨h1, h2⟩), if_pos h1, if_pos h2]
    · rw [if_neg (fun h => h2 (key.1 h).2), if_pos h1, if_neg h2]
  · rw [if_neg (fun h => h1 (key.1 h).1), if_neg h1]

/-- The scatter-add at the ideal values, read at an entry: the operand there plus, over all slots, the update of each
    slot that lands at the entry. -/
theorem scatterAdd_apply (x : FVec Ideal S12800x526 .f32) (idx : IVec S512000x2 32) (upd : FVec Ideal S512000 .f32)
    (i : S12800x526.Idx) :
    Host.scatterAdd (F := Ideal) dS x idx upd i = x i + ∑ n, if dS.resultIdx? n idx = some i then upd n else 0 := by
  rw [show Host.scatterAdd (F := Ideal) dS x idx upd = Ideal.hostScatterAdd dS x idx upd from
    Ideal.hostScatterAdd_def dS .single x idx upd]
  unfold Ideal.hostScatterAdd
  rw [Finset.sum_filter]

/-- The bag at an entry: the scatter starts from zeros, so the entry is the sum of the landing updates alone. -/
theorem bag_as_sum (x0 : (⟨S64x200x40, .i32⟩ : BufTy).Contents (Elt Ideal)) (i : S12800x526.Idx) :
    val_main_v19 (F := Ideal) x0 i =
      ∑ n : S512000.Idx, if dS.resultIdx? n (val_main_v17 (F := Ideal) x0) = some i then val_main_v18 (F := Ideal) n else 0 := by
  unfold val_main_v19
  rw [scatterAdd_apply, val_main_v3_apply, val_main_cst_apply, Ideal.ofBits_def, Ideal.ofBits_zero_f32, zero_add]

/-- A sum over the 512000 slots is the sum over the flat rows of the sums over each row's forty slots. -/
theorem sum_slots (f : S512000.Idx → EReal) : ∑ n, f n = ∑ r : Fin 12800, ∑ k : Fin 40, f (slotEquiv (r, k)) := by
  rw [← Equiv.sum_comp slotEquiv, Fintype.sum_prod_type]

/-- Entry `(200 b + t, j)` of the scattered bag is the count of row `(b, t)`'s slots holding `j`, when no code is negative. -/
theorem bag_apply (x0 : (⟨S64x200x40, .i32⟩ : BufTy).Contents (Elt Ideal)) (hpos : ∀ i, 0 ≤ (x0 i).toInt)
    (b : Fin 64) (t : Fin 200) (j : Fin 526) :
    val_main_v19 (F := Ideal) x0 (ix2 (⟨b.val * 200 + t.val, by omega⟩ : Fin 12800) j) = count x0 b t j.val := by
  rw [bag_as_sum, sum_slots]
  rw [Finset.sum_eq_single (⟨b.val * 200 + t.val, by omega⟩ : Fin 12800)]
  · unfold Cert.MultiHot.count
    refine Finset.sum_congr rfl fun k _ => ?_
    rw [term_eq x0 hpos, if_pos rfl]
    congr 2
    funext a
    match a with
    | ⟨0, _⟩ => exact Fin.ext (by show (b.val * 200 + t.val) / 200 = b.val; have := t.isLt; omega)
    | ⟨1, _⟩ => exact Fin.ext (by show (b.val * 200 + t.val) % 200 = t.val; have := t.isLt; omega)
    | ⟨2, _⟩ => rfl
  · intro r' _ hr
    refine Finset.sum_eq_zero fun k _ => ?_
    rw [term_eq x0 hpos, if_neg hr]
  · intro h
    exact absurd (Finset.mem_univ _) h

end Cert.ReferenceIdeal.RefBag

end
-- ==== Proof.RefValue.lean ====
/-
  The reference's result is `G`.
  Its feature vector is the bag's 526 counts followed by the 32 `others`; the contraction with `W` over the 558
  features splits into the first 526 terms and the last 32; the bias is added last.

  Feature `k` of row `(b, t)` is read from the joined array: for `k < 526` it is entry `(b, t, k)` of the bag,
  which is entry `(200 b + t, k)` of the bag's flat form (the flat position `(200 b + t) · 526 + k` divided by 526,
  and its remainder), hence the count of `k` in the row; for `k = 526 + o` it is `others (b, t, o)`. Term by term,
  the contraction is then `G`'s two sums, and the broadcast bias at `(b, t, d)` is `bias d`.
-/
import proofs.«413158_j8555574853999_3_alg».proof.Proof.RefBag

noncomputable section

open scoped BigOperators

namespace Cert.ReferenceIdeal.RefValue

open Idealize.ShloMosaic Idealize.ShloMosaic.ValueIdx Cert.ReferenceIdeal Cert.ReferenceIdeal.Gen Cert.ReferenceIdeal.Read Cert.MultiHot

/-- A feature below 526 of the joined array is the bag's entry with the same coordinates. -/
theorem feat_left (x0 : (⟨S64x200x40, .i32⟩ : BufTy).Contents (Elt Ideal)) (x1 : (⟨S64x200x32, .f32⟩ : BufTy).Contents (Elt Ideal))
    (a : Fin 64) (b : Fin 200) (j : Fin 526) :
    val_main_v21 (F := Ideal) x0 x1 (ix3 a b (⟨j.val, by omega⟩ : Fin 558)) = val_main_v20 (F := Ideal) x0 (ix3 a b j) := by
  unfold val_main_v21
  exact concatenate_pair_apply_left (t := S64x200x558) (s₁ := S64x200x526) (s₂ := S64x200x32) 2 (val_main_v20 (F := Ideal) x0) x1
    concatenates_S64x200x526_S64x200x32_S64x200x558_d2 (ix3 a b (⟨j.val, by omega⟩ : Fin 558)) rfl (ix3 a b j) (fun c => match c with
    | ⟨0, _⟩ => rfl
    | ⟨1, _⟩ => rfl
    | ⟨2, _⟩ => rfl)

/-- Feature `526 + o` of the joined array is `others` at `o`: the last coordinate less the bag's 526 columns. -/
theorem feat_right (x0 : (⟨S64x200x40, .i32⟩ : BufTy).Contents (Elt Ideal)) (x1 : (⟨S64x200x32, .f32⟩ : BufTy).Contents (Elt Ideal))
    (a : Fin 64) (b : Fin 200) (o : Fin 32) :
    val_main_v21 (F := Ideal) x0 x1 (ix3 a b (⟨526 + o.val, by omega⟩ : Fin 558)) = x1 (ix3 a b o) := by
  unfold val_main_v21
  exact concatenate_pair_apply_right (t := S64x200x558) (s₁ := S64x200x526) (s₂ := S64x200x32) 2 (val_main_v20 (F := Ideal) x0) x1
    concatenates_S64x200x526_S64x200x32_S64x200x558_d2 (ix3 a b (⟨526 + o.val, by omega⟩ : Fin 558)) rfl rfl (ix3 a b o) (fun c hc => match c, hc with
    | ⟨0, _⟩, _ => rfl
    | ⟨1, _⟩, _ => rfl
    | ⟨2, _⟩, hc => absurd rfl hc) (by show o.val + 526 = 526 + o.val; omega)

/-- Entry `(b, t, j)` of the bag in its three-axis form is entry `(200 b + t, j)` of its flat form — the flat position
    `(200 b + t) · 526 + j` has quotient `200 b + t` and remainder `j` by 526 —, the count of `j` in row `(b, t)`. -/
theorem bag_reshape (x0 : (⟨S64x200x40, .i32⟩ : BufTy).Contents (Elt Ideal)) (hpos : ∀ i, 0 ≤ (x0 i).toInt)
    (a : Fin 64) (b : Fin 200) (j : Fin 526) :
    val_main_v20 (F := Ideal) x0 (ix3 a b j) = count x0 a b j.val := by
  rw [val_main_v20_apply, ← RefBag.bag_apply x0 hpos a b j]
  refine congrArg (val_main_v19 (F := Ideal) x0) (funext fun c => ?_)
  match c with
  | ⟨0, _⟩ => exact Fin.ext (by show ((a.val * 200 + b.val) * 526 + j.val) / 526 = a.val * 200 + b.val; omega)
  | ⟨1, _⟩ => exact Fin.ext (by show ((a.val * 200 + b.val) * 526 + j.val) % 526 = j.val; omega)

/-- One of the contraction's first 526 terms at `(b, t, d)`: the count of `j` times `W (j, d)`. -/
theorem term_left (x0 : (⟨S64x200x40, .i32⟩ : BufTy).Contents (Elt Ideal)) (x1 : (⟨S64x200x32, .f32⟩ : BufTy).Contents (Elt Ideal))
    (x3 : (⟨S558x512, .f32⟩ : BufTy).Contents (Elt Ideal)) (hpos : ∀ i, 0 ≤ (x0 i).toInt)
    (a : Fin 64) (b : Fin 200) (d : Fin 512) (j : Fin 526) :
    val_main_v21 (F := Ideal) x0 x1 (lidx_main_v22 (ix3 a b d) (⟨j.val, by omega⟩ : Fin 558)) * x3 (ridx_main_v22 (ix3 a b d) (⟨j.val, by omega⟩ : Fin 558))
      = count x0 a b j.val * x3 (ix2 (⟨j.val, by omega⟩ : Fin 558) d) := by
  have el : lidx_main_v22 (ix3 a b d) (⟨j.val, by omega⟩ : Fin 558) = ix3 a b (⟨j.val, by omega⟩ : Fin 558) :=
    funext fun c => Fin.ext (by match c with | ⟨0, _⟩ => rfl | ⟨1, _⟩ => rfl | ⟨2, _⟩ => rfl)
  have er : ridx_main_v22 (ix3 a b d) (⟨j.val, by omega⟩ : Fin 558) = ix2 (⟨j.val, by omega⟩ : Fin 558) d :=
    funext fun c => Fin.ext (by match c with | ⟨0, _⟩ => rfl | ⟨1, _⟩ => rfl)
  rw [el, er, feat_left, bag_reshape x0 hpos]

/-- One of the contraction's last 32 terms at `(b, t, d)`: `others (b, t, o)` times `W (526 + o, d)`. -/
theorem term_right (x0 : (⟨S64x200x40, .i32⟩ : BufTy).Contents (Elt Ideal)) (x1 : (⟨S64x200x32, .f32⟩ : BufTy).Contents (Elt Ideal))
    (x3 : (⟨S558x512, .f32⟩ : BufTy).Contents (Elt Ideal))
    (a : Fin 64) (b : Fin 200) (d : Fin 512) (o : Fin 32) :
    val_main_v21 (F := Ideal) x0 x1 (lidx_main_v22 (ix3 a b d) (⟨526 + o.val, by omega⟩ : Fin 558)) * x3 (ridx_main_v22 (ix3 a b d) (⟨526 + o.val, by omega⟩ : Fin 558))
      = x1 (ix3 a b o) * x3 (ix2 (⟨526 + o.val, by omega⟩ : Fin 558) d) := by
  have el : lidx_main_v22 (ix3 a b d) (⟨526 + o.val, by omega⟩ : Fin 558) = ix3 a b (⟨526 + o.val, by omega⟩ : Fin 558) :=
    funext fun c => Fin.ext (by match c with | ⟨0, _⟩ => rfl | ⟨1, _⟩ => rfl | ⟨2, _⟩ => rfl)
  have er : ridx_main_v22 (ix3 a b d) (⟨526 + o.val, by omega⟩ : Fin 558) = ix2 (⟨526 + o.val, by omega⟩ : Fin 558) d :=
    funext fun c => Fin.ext (by match c with | ⟨0, _⟩ => rfl | ⟨1, _⟩ => rfl)
  rw [el, er, feat_right]

/-- The bias broadcast over rows, read at `(b, t, d)`, is `bias d`. -/
theorem bias_read (x4 : (⟨S512, .f32⟩ : BufTy).Contents (Elt Ideal)) (a : Fin 64) (b : Fin 200) (d : Fin 512) :
    val_main_v24 (F := Ideal) x4 (ix3 a b d) = x4 (ix1 d) := by
  rw [val_main_v24_apply, val_main_v23_apply]
  exact congrArg x4 (funext fun c => match c with | ⟨0, _⟩ => rfl)

/-- `G` at explicit coordinates `(b, t, d)`. -/
theorem G_apply (code : CodeShape.Idx → BitVec 32) (others : OthersShape.Idx → EReal) (W : WShape.Idx → EReal)
    (bias : BiasShape.Idx → EReal) (a : Fin 64) (b : Fin 200) (d : Fin 512) :
    G code others W bias (ix3 a b d)
      = (∑ j : Fin 526, count code a b j.val * W (ix2 (⟨j.val, by omega⟩ : Fin 558) d))
        + (∑ o : Fin 32, others (ix3 a b o) * W (ix2 (⟨526 + o.val, by omega⟩ : Fin 558) d))
        + bias (ix1 d) := rfl

/-- With no negative code, the reference's result array is `G` of the arguments. -/
theorem ref_eq_G (x0 : (⟨S64x200x40, .i32⟩ : BufTy).Contents (Elt Ideal)) (x1 : (⟨S64x200x32, .f32⟩ : BufTy).Contents (Elt Ideal))
    (x3 : (⟨S558x512, .f32⟩ : BufTy).Contents (Elt Ideal)) (x4 : (⟨S512, .f32⟩ : BufTy).Contents (Elt Ideal))
    (hpos : ∀ i, 0 ≤ (x0 i).toInt) :
    val_main_v25 (F := Ideal) x0 x1 x3 x4 = G x0 x1 x3 x4 := by
  funext i
  obtain ⟨a, b, d, rfl⟩ : ∃ a b d, i = ix3 a b d := ⟨i 0, i 1, i 2, eq_ix3 i⟩
  -- the sum over the 558 features, split at 526, plus the bias; then term by term
  rw [val_main_v25_apply, Ideal.addf_def, val_main_v22_apply, bias_read, sum_split 526 32 rfl, G_apply]
  simp only [term_left x0 x1 x3 hpos, term_right x0 x1 x3]

end Cert.ReferenceIdeal.RefValue

end
-- ==== Proof.PreDecode.lean ====
/-
  What the precondition says about the integer input: every code word is non-negative as a signed number.
  The precondition is a conjunction of four "all entries satisfy" tests folded with `and`; the last one is
  the signed comparison `code ≥ 0` at every entry.
-/
import proofs.«413158_j8555574853999_3_alg».proof.Pre_finite_inputs
import proofs.«413158_j8555574853999_3_alg».proof.Proof.Gen.Pre_finite_inputs
import Idealize.ShloMosaic.Lib.ReduceAll
import Idealize.ShloMosaic.Lib.StableHlo.Predicate
import Idealize.ShloMosaic.Lib.ValueIdx

noncomputable section

namespace Cert.MultiHot.PreDecode

open Idealize.ShloMosaic Idealize.ShloMosaic.ValueIdx Cert.Pre_finite_inputs

variable {F : FTy → Type} [FloatOps F]

/-- The scalar shape has one index: a function on the empty set of axes. -/
instance : Subsingleton S_.Idx := ⟨fun a b => funext fun d => d.elim0⟩

/-- Under the precondition every code word is non-negative as a signed integer. -/
theorem code_nonneg (a0 : IVec S64x200x40 32) (a1 : FVec F S64x200x32 .f32) (a2 : IVec S64 32)
    (a3 : FVec F S558x512 .f32) (a4 : FVec F S512 .f32)
    (h : Cert.Pre_finite_inputs.fn (F := F) a0 a1 a2 a3 a4 = fun _ => 1#1) :
    ∀ i : S64x200x40.Idx, 0 ≤ (a0 i).toInt := by
  intro i
  -- the precondition's one word is 1
  have h0 := congrFun h ix0
  dsimp only [Cert.Pre_finite_inputs.fn, Cert.Pre_finite_inputs.fn_part1] at h0
  -- it is the `and` of the three finiteness tests with "all entries of `code ≥ 0`": keep the second half
  have h1 := (IntOp.andi_eq_one.1 h0).2
  -- an `and` over all entries that is 1 met a 1 at every entry, so at `i`
  have h2 := Host.reduce_andi_all _ _ _ _ _ h1 i
  -- the signed comparison at `i` reads `0 ≤ code i`: the word compared with is the constant zero at every index
  exact IntOp.cmpi_sge.1 h2

end Cert.MultiHot.PreDecode

end
-- ==== Proof.lean ====
/-
  The certificate's claims, assembled.

  Both programs, read at the ideal instance (floats extended reals, every operation exact), end at ONE function of the
  arguments: `G (b, t, d) = ∑ j < 526, count (b, t, j) · W (j, d) + ∑ o < 32, others (b, t, o) · W (526 + o, d) + bias d`,
  where `count (b, t, j)` is the number of the forty slots of row `(b, t)` of `code` that hold `j` (Proof/Spec.lean).

  The kernel flattens the rows, builds the counts of each row over 640 columns by comparing every slot's code with
  the column number, multiplies them by `W`'s first 526 rows padded with 114 zero rows, adds the `others` against
  `W`'s last 32 rows and the bias (Proof/KCounts.lean, KBlock.lean, KHost.lean, KArray.lean): the padded columns meet zero
  rows and contribute nothing, whatever the codes. The reference scatters a one per slot into a [rows, 526] array at
  column `code`, a NEGATIVE code first moved up by 526, and contracts the 558 features with `W` (Proof/RefBag.lean,
  RefValue.lean). Where no code is negative — the precondition's conjunct on the integer input, read in
  Proof/PreDecode.lean — the reference's column is the code itself and its bag is the same count. No finiteness of
  a float input is used: the two sides differ only by the regrouping of sums and by terms `x · 0`.

  The three frames: the two kernel programs' are their frame certificates (Proof/KernelFrame.lean and
  Proof/KernelIdealFrame.lean); the reference, a straight-line host program, has its run. The idealization rewrote
  no operation, so `preserves` has nothing to state.
-/
import proofs.«413158_j8555574853999_3_alg».proof.Defs
import proofs.«413158_j8555574853999_3_alg».proof.Proof.KernelFrame
import proofs.«413158_j8555574853999_3_alg».proof.Proof.KArray
import proofs.«413158_j8555574853999_3_alg».proof.Proof.RefValue
import proofs.«413158_j8555574853999_3_alg».proof.Proof.PreDecode
import Idealize.ShloMosaic.Adequacy
import Idealize.ShloMosaic.Init

noncomputable section

namespace Cert.Proof

open Idealize.ShloMosaic Idealize.SL.Sem Cert.MultiHot

/-- The word-level kernel runs and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, with no negative code, both idealized programs end at `G` of the arguments. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ArrayValue.run_value m ρ, ?_⟩
  refine (θ_run Cert.ReferenceIdeal.defs _ _).mono (fun _ h c => ⟨?_, (h c).2⟩)
    (Cert.ReferenceIdeal.Value.run (F := Ideal) m' ρ')
  have hpos := Cert.MultiHot.PreDecode.code_nonneg (F := Ideal) _ _ _ _ _ (hpre c)
  rw [(h c).1, Cert.ReferenceIdeal.Read.val_main_v25_eq, (hagree c).1, (hagree c).2.1, (hagree c).2.2.2.1, (hagree c).2.2.2.2]
  exact Cert.ReferenceIdeal.RefValue.ref_eq_G _ _ _ _ hpos

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
